-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S6144x768 : Shape := ⟨2, ![6144, 768]⟩
abbrev S_ : Shape := ⟨0, ![]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel

variable [Facts]

def fn {F : FTy → Type} [FloatOps F] (main_arg0 : FVec F S6144x768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  main_v3
-- ==== Kernel.lean ====
abbrev S1536x768 : Shape := ⟨2, ![1536, 768]⟩
abbrev S1x768 : Shape := ⟨2, ![1, 768]⟩
abbrev S4x1x768 : Shape := ⟨3, ![4, 1, 768]⟩
abbrev S4 : Shape := ⟨1, ![4]⟩
abbrev S_ : Shape := ⟨0, ![]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S4x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_32 : BitVec 32 := 3#32
  let v50 : BitVec 32 := Scalar.addi v2 c3_i32_32
  let c4_i32_33 : BitVec 32 := 4#32
  let c0_i32_34 : BitVec 32 := 0#32
  let v51 : BitVec 1 := Scalar.cmpi .eq c4_i32_33 c0_i32_34
  let c1_i32_35 : BitVec 32 := 1#32
  let v52 : BitVec 32 := Scalar.select v51 c1_i32_35 c4_i32_33
  let v53 : BitVec 32 := Scalar.remsi v50 v52
  let c0_i32_37 : BitVec 32 := 0#32
  let v55 : BitVec 1 := Scalar.cmpi .slt v53 c0_i32_37
  let c0_i32_38 : BitVec 32 := 0#32
  let v56 : BitVec 1 := Scalar.cmpi .slt v52 c0_i32_38
  let v57 : BitVec 1 := Scalar.xori v55 v56
  let c0_i32_36 : BitVec 32 := 0#32
  let v54 : BitVec 1 := Scalar.cmpi .ne v53 c0_i32_36
  let v58 : BitVec 1 := Scalar.andi v57 v54
  let v59 : BitVec 32 := Scalar.addi v53 v52
  let v60 : BitVec 32 := Scalar.select v58 v59 v53
  let c1_i32_43 : BitVec 32 := 1#32
  let v61 : BitVec 32 := Scalar.muli v60 c1_i32_43
  let v62 : BitVec 32 := Scalar.addi c0_i32_44 v61
  v62.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v71 : BitVec 32 := Scalar.addi v2 c1_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v92 : BitVec 32 := Scalar.addi v2 c2_i32_66
  let c4_i32_67 : BitVec 32 := 4#32
  let c0_i32_68 : BitVec 32 := 0#32
  let v93 : BitVec 1 := Scalar.cmpi .eq c4_i32_67 c0_i32_68
  let c1_i32_69 : BitVec 32 := 1#32
  let v94 : BitVec 32 := Scalar.select v93 c1_i32_69 c4_i32_67
  let v95 : BitVec 32 := Scalar.remsi v92 v94
  let c0_i32_71 : BitVec 32 := 0#32
  let v97 : BitVec 1 := Scalar.cmpi .slt v95 c0_i32_71
  let c0_i32_72 : BitVec 32 := 0#32
  let v98 : BitVec 1 := Scalar.cmpi .slt v94 c0_i32_72
  let v99 : BitVec 1 := Scalar.xori v97 v98
  let c0_i32_70 : BitVec 32 := 0#32
  let v96 : BitVec 1 := Scalar.cmpi .ne v95 c0_i32_70
  let v100 : BitVec 1 := Scalar.andi v99 v96
  let v101 : BitVec 32 := Scalar.addi v95 v94
  let v102 : BitVec 32 := Scalar.select v100 v101 v95
  let c1_i32_77 : BitVec 32 := 1#32
  let v103 : BitVec 32 := Scalar.muli v102 c1_i32_77
  let v104 : BitVec 32 := Scalar.addi c0_i32_78 v103
  v104.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S4x1x768_S1x1x768_0_0_0 : ∀ a, (![0, 0, 0] : Fin 3 → Nat) a + S1x1x768.size a ≤ S4x1x768.size a
  h_S1x1x768 : 0 < S1x1x768.numel
  shapeCasts_S1x1x768_S1x768 : S1x1x768.ShapeCasts S1x768
  shapeCasts_S1x768_S1x1x768 : S1x768.ShapeCasts S1x1x768
  hamt_3 : (3#32 : BitVec 32).msb = false
  inb_S4_S1_3 : ∀ a, (![3] : Fin 1 → Nat) a + S1.size a ≤ S4.size a
  squeezes_S1_S_ : S1.Squeezes S_
  inb_S4x1x768_S1x1x768_3_0_0 : ∀ a, (![3, 0, 0] : Fin 3 → Nat) a + S1x1x768.size a ≤ S4x1x768.size a
  squeezes_S1x1x768_S1x768 : S1x1x768.Squeezes S1x768
  inb_S4_S1_1 : ∀ a, (![1] : Fin 1 → Nat) a + S1.size a ≤ S4.size a
  inb_S4x1x768_S1x1x768_1_0_0 : ∀ a, (![1, 0, 0] : Fin 3 → Nat) a + S1x1x768.size a ≤ S4x1x768.size a
  inb_S4_S1_2 : ∀ a, (![2] : Fin 1 → Nat) a + S1.size a ≤ S4.size a
  inb_S4x1x768_S1x1x768_2_0_0 : ∀ a, (![2, 0, 0] : Fin 3 → Nat) a + S1x1x768.size a ≤ S4x1x768.size a
  inb_S1x768_S1x768_0_0 : ∀ a, (![0, 0] : Fin 2 → Nat) a + S1x768.size a ≤ S1x768.size a
  h_S1x768 : 0 < S1x768.numel
  hcc0_scratch1 : 2 + S4.numel ≤ 10
  hcc0_scratch2 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S6144x768_S768_d0 : S6144x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Proto.lean ====
/-
  A maximum over all rows of an array cut across four devices, each holding 1536 of the 6144 rows.

  Every device reduces its block to one row of column maxima and keeps it in row 0 of a four-row scratch. It
  then tells each of the three other devices that it is inside the kernel (a unit on their barrier counter) and
  waits for its own three units; copies its row into row `o` of the device `o` places further on the ring, for
  `o` = 3, 1, 2; waits for the three rows that land in its rows 1, 2, 3; takes the maximum of the four rows; and
  waits until its three copies have left.

  This module fixes the vocabulary of that protocol: the ring, the rows of the scratch as regions, the cells
  (one barrier counter, four send and four receive counters per device), what each counter's units hand to the
  device that waits on it, what each device owes the others when it starts, the levels that order the waits,
  and the state a device starts from and ends in. Row `o` of device `c` is filled by the device `neg o` places on.
-/
import proofs.«900912_g7700000000000913_dist_max_ax0_shard0_i_m1536_n768_v7x_i4_f32_1_alg».proof.Proof.Gen.KernelIdeal
import proofs.«900912_g7700000000000913_dist_max_ax0_shard0_i_m1536_n768_v7x_i4_f32_1_alg».proof.Proof.Gen.KernelIdeal.Skeleton
import proofs.«900912_g7700000000000913_dist_max_ax0_shard0_i_m1536_n768_v7x_i4_f32_1_alg».proof.Proof.Gen.KernelIdeal.Launch
import proofs.«900912_g7700000000000913_dist_max_ax0_shard0_i_m1536_n768_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring of four devices -/

/-- The device `o` places after `c` on the ring of four. -/
def shf (o : Fin 4) (c : Dev nD) : Dev nD := ⟨(c.val + o.val) % 4, Nat.mod_lt _ (by decide)⟩
/-- The offset that undoes `o`. -/
def neg (o : Fin 4) : Fin 4 := ⟨(4 - o.val) % 4, Nat.mod_lt _ (by decide)⟩

theorem shf_neg_shf (o : Fin 4) (c : Dev nD) : shf (neg o) (shf o c) = c := by revert o c; decide
theorem shf_shf_neg (o : Fin 4) (c : Dev nD) : shf o (shf (neg o) c) = c := by revert o c; decide
theorem neg_neg (o : Fin 4) : neg (neg o) = o := by revert o; decide
theorem shf_inj (o : Fin 4) : Function.Injective (shf o) := by revert o; decide
theorem shf_ne_self (o : Fin 4) (ho : o ≠ 0) (c : Dev nD) : shf o c ≠ c := by revert o c; decide

/-- The printed device chains: the three signals go to the devices 1, 2, 3 places on; the three copies to
    the devices 3, 1, 2 places on. -/
theorem dev1_eq (c : Dev nD) : (⟨k0_dev1 c, k0_dev1_lt c⟩ : Dev nD) = shf 1 c := by revert c; decide +kernel
theorem dev2_eq (c : Dev nD) : (⟨k0_dev2 c, k0_dev2_lt c⟩ : Dev nD) = shf 2 c := by revert c; decide +kernel
theorem dev3_eq (c : Dev nD) : (⟨k0_dev3 c, k0_dev3_lt c⟩ : Dev nD) = shf 3 c := by revert c; decide +kernel
theorem dev4_eq (c : Dev nD) : (⟨k0_dev4 c, k0_dev4_lt c⟩ : Dev nD) = shf 3 c := by revert c; decide +kernel
theorem dev5_eq (c : Dev nD) : (⟨k0_dev5 c, k0_dev5_lt c⟩ : Dev nD) = shf 1 c := by revert c; decide +kernel
theorem dev6_eq (c : Dev nD) : (⟨k0_dev6 c, k0_dev6_lt c⟩ : Dev nD) = shf 2 c := by revert c; decide +kernel

/-! ## Memrefs, semaphores, cells -/

abbrev xM : Memref sig .tc .vmem S1536x768 .f32 := Memref.whole cc0_stg0_0
abbrev oM : Memref sig .tc .vmem S1x768 .f32 := Memref.whole cc0_stg1_0
abbrev scr : Memref sig .tc .vmem S4x1x768 .f32 := Memref.whole cc0_scratch0

abbrev rc0 : Rect S4x1x768 := Rect.unit (s := S4x1x768) ![0, 0, 0] S1x1x768.size inb_S4x1x768_S1x1x768_0_0_0
abbrev rc1 : Rect S4x1x768 := Rect.unit (s := S4x1x768) ![1, 0, 0] S1x1x768.size inb_S4x1x768_S1x1x768_1_0_0
abbrev rc2 : Rect S4x1x768 := Rect.unit (s := S4x1x768) ![2, 0, 0] S1x1x768.size inb_S4x1x768_S1x1x768_2_0_0
abbrev rc3 : Rect S4x1x768 := Rect.unit (s := S4x1x768) ![3, 0, 0] S1x1x768.size inb_S4x1x768_S1x1x768_3_0_0

/-- Row `o` of the scratch as the copies see it: the slice squeezed to one row. -/
abbrev sl0 : Memref sig .tc .vmem S1x768 .f32 := (scr.slice rc0 (fun _ => rfl)).squeeze S1x768 squeezes_S1x1x768_S1x768
abbrev sl1 : Memref sig .tc .vmem S1x768 .f32 := (scr.slice rc1 (fun _ => rfl)).squeeze S1x768 squeezes_S1x1x768_S1x768
abbrev sl2 : Memref sig .tc .vmem S1x768 .f32 := (scr.slice rc2 (fun _ => rfl)).squeeze S1x768 squeezes_S1x1x768_S1x768
abbrev sl3 : Memref sig .tc .vmem S1x768 .f32 := (scr.slice rc3 (fun _ => rfl)).squeeze S1x768 squeezes_S1x1x768_S1x768

abbrev barS : Sem sig := (SemArray.scalar (sig.barrier 0 rfl) : Sems sig S_).sem
/-- The send and receive DMA semaphores of offset `o` (the arrays' element `o`). -/
abbrev sendS (o : Fin 4) : DmaSem sig := ⟨2 + o.val, show 2 + o.val < 10 by have := o.isLt; omega⟩
abbrev recvS (o : Fin 4) : DmaSem sig := ⟨6 + o.val, show 6 + o.val < 10 by have := o.isLt; omega⟩

theorem sendS1 : ((cc0_scratch1.slice (Rect.unit (s := S4) ![1] S1.size inb_S4_S1_1)).squeeze S_ squeezes_S1_S_).sem = sendS 1 := by decide
theorem sendS2 : ((cc0_scratch1.slice (Rect.unit (s := S4) ![2] S1.size inb_S4_S1_2)).squeeze S_ squeezes_S1_S_).sem = sendS 2 := by decide
theorem sendS3 : ((cc0_scratch1.slice (Rect.unit (s := S4) ![3] S1.size inb_S4_S1_3)).squeeze S_ squeezes_S1_S_).sem = sendS 3 := by decide
theorem recvS1 : ((cc0_scratch2.slice (Rect.unit (s := S4) ![1] S1.size inb_S4_S1_1)).squeeze S_ squeezes_S1_S_).sem = recvS 1 := by decide
theorem recvS2 : ((cc0_scratch2.slice (Rect.unit (s := S4) ![2] S1.size inb_S4_S1_2)).squeeze S_ squeezes_S1_S_).sem = recvS 2 := by decide
theorem recvS3 : ((cc0_scratch2.slice (Rect.unit (s := S4) ![3] S1.size inb_S4_S1_3)).squeeze S_ squeezes_S1_S_).sem = recvS 3 := by decide

abbrev barCell (c : Dev nD) : GSem nD τ sig := ((c : Thread nD τ), .reg barS)
abbrev sendCell (c : Dev nD) (o : Fin 4) : GSem nD τ sig := ((c : Thread nD τ), .dma (sendS o))
abbrev recvCell (c : Dev nD) (o : Fin 4) : GSem nD τ sig := ((c : Thread nD τ), .dma (recvS o))

/-! ## The slots as a function of the offset -/

theorem rcO_inb (o : Fin 4) : ∀ a, (![o.val, 0, 0] : Fin 3 → Nat) a + S1x1x768.size a ≤ S4x1x768.size a := by
  revert o; decide
/-- Row `o` of the scratch as a rectangle. -/
abbrev rcO (o : Fin 4) : Rect S4x1x768 := Rect.unit (s := S4x1x768) ![o.val, 0, 0] S1x1x768.size (rcO_inb o)
/-- Row `o` of the scratch as the copies see it. -/
abbrev slotM (o : Fin 4) : Memref sig .tc .vmem S1x768 .f32 := (scr.slice (rcO o) (fun _ => rfl)).squeeze S1x768 squeezes_S1x1x768_S1x768

theorem slotM_0 : slotM 0 = sl0 := rfl
theorem slotM_1 : slotM 1 = sl1 := rfl
theorem slotM_2 : slotM 2 = sl2 := rfl
theorem slotM_3 : slotM 3 = sl3 := rfl

/-! ## The resource algebra: the pipeline library's copy and the ring's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s block of the input, as staged. -/
def xblk (c : Dev nD) : (cc0_stg0_0 : Ref sig .tc).ty.Contents (Elt F) :=
  (win0_0.blk (0 : Fin 1)).view.read (Elt F) ((s₀ m ρ).mem ((c : Thread nD τ).loc main_arg0))
/-- Its column maxima, as the one row the kernel stores. -/
def row (c : Dev nD) : FVec F S1x1x768 .f32 := k0_pay1 (xblk m ρ c)
def rowS (c : Dev nD) : FVec F S1x768 .f32 := k0_pay2 (row m ρ c)
/-- The kernel's result on device `c`: the maximum of its own row and the rows of the devices 3, 2, 1 places on
    (which land in its rows 1, 2, 3). -/
def outAt (c : Dev nD) : (cc0_stg1_0 : Ref sig .tc).ty.Contents (Elt F) :=
  k0_pay3 (rowS m ρ c) (row m ρ (shf 3 c)) (row m ρ (shf 2 c)) (row m ρ (shf 1 c))

/-- A fixed background, so that "row `o` holds `v`" is one buffer. -/
def bg : (cc0_scratch0 : Ref sig .tc).ty.Contents (Elt F) := constant S4x1x768 .f32 0#32
/-- The scratch with row `o` holding `v`. -/
def put (o : Fin 4) (v : FVec F S1x768 .f32) : (cc0_scratch0 : Ref sig .tc).ty.Contents (Elt F) :=
  (slotM o).view.write (Elt F) (bg (F := F)) v Finset.univ

/-- Row `o` of device `c`'s scratch at share `q`, holding `f` there. -/
def slotPts (c : Dev nD) (o : Fin 4) (q : PosShare TreeShare) (f : (cc0_scratch0 : Ref sig .tc).ty.Contents (Elt F)) : sProp 𝕄 :=
  (slotM o).view.loc (c : Thread nD τ) ↦[(slotM o).view.set]{q} f

/-- The share of its own row a device lends the copy of offset `o`; it keeps `fullShare.right.right`. -/
def qs : Fin 4 → PosShare TreeShare
  | 1 => fullShare.left.left | 2 => fullShare.left.right | 3 => fullShare.right.left | _ => fullShare.right.right

abbrev N : ℕ := (sl1 : Memref sig .tc .vmem S1x768 .f32).view.dmaCredit

/-! ## The schedule -/

/-- What the device `o` places on hands `c` with its signal: its row `o`, which `c`'s copy of offset `o` fills, and
    that its receive cell `o` is at round 0. -/
def barPay (c : Dev nD) (o : Fin 4) : sProp 𝕄 :=
  iprop((∃ f, slotPts (shf o c) o fullShare f) ∗ reached ER (recvCell (shf o c) o) 0)
/-- A landing in row `o` of `c`: the row of the device that sent it. -/
def recvPay (c : Dev nD) (o : Fin 4) : sProp 𝕄 := slotPts c o fullShare (put o (rowS m ρ (shf (neg o) c)))
/-- A departure: the lent share of `c`'s own row back. -/
def sendPay (c : Dev nD) (o : Fin 4) : sProp 𝕄 := slotPts c 0 (qs o) (put 0 (rowS m ρ c))

def isSend (g : GSem nD τ sig) (o : Fin 4) : Prop := g.1.2 = .tc ∧ g.2 = .dma (sendS o)
def isRecv (g : GSem nD τ sig) (o : Fin 4) : Prop := g.1.2 = .tc ∧ g.2 = .dma (recvS o)
instance (g : GSem nD τ sig) (o : Fin 4) : Decidable (isSend g o) := by unfold isSend; infer_instance
instance (g : GSem nD τ sig) (o : Fin 4) : Decidable (isRecv g o) := by unfold isRecv; infer_instance
abbrev IsBar (g : GSem nD τ sig) : Prop := g.1.2 = .tc ∧ g.2 = .reg barS
abbrev IsXfer (g : GSem nD τ sig) : Prop := ∃ o : Fin 4, o ≠ 0 ∧ (isSend g o ∨ isRecv g o)

/-- One round: a barrier cell has the three unit duties 1, 2, 3 (duty `o` paid by the device `o` places on);
    the send and receive cells of the offsets 1, 2, 3 one duty, `0`, of the row's credit. -/
def ringRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (recvS 1) then recvPay m ρ g.1.1 1
    else if g.2 = .dma (recvS 2) then recvPay m ρ g.1.1 2
    else if g.2 = .dma (recvS 3) then recvPay m ρ g.1.1 3
    else if g.2 = .dma (sendS 1) then sendPay m ρ g.1.1 1
    else if g.2 = .dma (sendS 2) then sendPay m ρ g.1.1 2
    else if g.2 = .dma (sendS 3) then sendPay m ρ g.1.1 3
    else iprop(emp)
  amount_pos g _ _ _ := by
    by_cases h : g.2 = .reg barS
    · rw [if_pos h]; exact Nat.one_pos
    · rw [if_neg h]; exact View.dmaCredit_pos _ (by decide)

/-! ## The cells, enumerated -/

/-- The nine semaphores a device's kernel touches: the barrier, the four send and the four receive semaphores
    (offset 0 of either array is never used). -/
abbrev csem : Fin 9 → SemLoc sig := fun
  | 0 => .reg barS | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)
/-- The index of the send / receive cell of offset `o` in that list. -/
abbrev kS (o : Fin 4) : Fin 9 := ⟨1 + o.val, by have := o.isLt; omega⟩
abbrev kR (o : Fin 4) : Fin 9 := ⟨5 + o.val, by have := o.isLt; omega⟩
theorem kcell_bar (c : Dev nD) : kcell (c, 0) = barCell c := rfl
theorem kcell_send (c : Dev nD) (o : Fin 4) : kcell (c, kS o) = sendCell c o := by fin_cases o <;> rfl
theorem kcell_recv (c : Dev nD) (o : Fin 4) : kcell (c, kR o) = recvCell c o := by fin_cases o <;> rfl

/-- The kernel's OWN (scoped) semaphores, as the launch indexes them: the eight DMA semaphores. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-! ## What each device owes at launch; the levels -/

/-- What device `c` owes, summed so that each payment peels the last summand in program order: the three signals
    (to the devices 1, 2, 3 places on), then the copies of offsets 3, 1, 2. -/
def O₅ (c : Dev nD) : CellTallies nD τ sig Unit := tallyAt (recvCell (shf 2 c) 2) () N
def O₄ (c : Dev nD) : CellTallies nD τ sig Unit := O₅ c + tallyAt (recvCell (shf 1 c) 1) () N
def O₃ (c : Dev nD) : CellTallies nD τ sig Unit := O₄ c + tallyAt (recvCell (shf 3 c) 3) () N
def O₂ (c : Dev nD) : CellTallies nD τ sig Unit := O₃ c + tallyAt (barCell (shf 3 c)) () 1
def O₁ (c : Dev nD) : CellTallies nD τ sig Unit := O₂ c + tallyAt (barCell (shf 2 c)) () 1
def O₀ (c : Dev nD) : CellTallies nD τ sig Unit := O₁ c + tallyAt (barCell (shf 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (g.2 = .dma (recvS 1) ∨ g.2 = .dma (recvS 2) ∨ g.2 = .dma (recvS 3)) then 2 else 0

/-! ## The ghost state -/

/-- Every cell's invariant at the names `K`, and that every cell is at round 0 or later: persistent, known to all. -/
def records (K : Dev nD × Fin 9 → ℕ) : sProp 𝕄 :=
  iprop((bigSep Finset.univ fun ck : Dev nD × Fin 9 => cellInv ER (ringRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

/-- The tokens of the duties device `c` pays: for each offset `o` of 1, 2, 3 the barrier duty `neg o` of the device `o`
    places on (its signal), that device's receive duty (its copy's landing) and its own send duty (the departure). -/
def payTok (c : Dev nD) (o : Fin 4) : sProp 𝕄 :=
  iprop(dutyTok ER (barCell (shf o c)) 0 (neg o) ∗ dutyTok ER (recvCell (shf o c) o) 0 0 ∗ dutyTok ER (sendCell c o) 0 0)
def payToks (c : Dev nD) : sProp 𝕄 := iprop(payTok c 1 ∗ payTok c 2 ∗ payTok c 3)
/-- What stays with device `c` alone: its positions at its nine cells, and the tokens it pays with. -/
def linear (c : Dev nD) : sProp 𝕄 :=
  iprop((bigSep Finset.univ fun k : Fin 9 => atPos ER (kcell (c, k)) 0 ∅ 0) ∗ payToks c)
def ghost (K : Dev nD × Fin 9 → ℕ) (c : Dev nD) : sProp 𝕄 := iprop(records m ρ K ∗ linear c)

/-- What device `c`'s body starts from: the ghost state at some names, the credit of its barrier's three units and of
    its three receive cells, and the level facts. -/
def start (c : Dev nD) : sProp 𝕄 :=
  iprop((∃ K, ghost m ρ K c) ∗ cred (tallyAt (barCell c) () 3)
    ∗ cred (tallyAt (recvCell c 1) () N) ∗ cred (tallyAt (recvCell c 2) () N) ∗ cred (tallyAt (recvCell c 3) () N) ∗ levAts L lv)

/-- The scratch, whole, at some contents. -/
def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the scratch whole again, the eight own cells closed with their counters at zero. -/
def Φ₁ (c : Dev nD) : sProp 𝕄 :=
  iprop(scrAny c ∗ bigSep Finset.univ fun o : Fin 4 => iprop(semVal (sendCell c o) 0 ∗ semVal (recvCell c o) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 9 → ℕ) (c : Dev nD) : sProp 𝕄 :=
  iprop((ghost m ρ K c ∗ cred (tallyAt (barCell c) () 3)
      ∗ cred (tallyAt (recvCell c 1) () N) ∗ cred (tallyAt (recvCell c 2) () N) ∗ cred (tallyAt (recvCell c 3) () N) ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xblk m ρ c) ∗ stg c cc0_stg1_0 (outAt m ρ c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.KernelIdeal.Ring4

end
-- ==== Proof.Tables.lean ====
/-
  The protocol's tables read entry by entry: which duties each counter has in its one round, how many units each
  is worth, how many units the round expects, and what each hands over; that the waits are ordered (a device waits
  on its barrier counter while it still owes only landings, which sit above it); and that the units the devices owe
  one another at the start add up, per counter, to what its owner waits for.
-/
import proofs.«900912_g7700000000000913_dist_max_ax0_shard0_i_m1536_n768_v7x_i4_f32_1_alg».proof.Proof.Proto

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule, entry by entry -/

instance ringRd_payload_storable (g : GSem nD τ sig) (r : ℕ) (d : Fin 4) :
    BI.Storable (upEmb : UEmb _ 𝕄) ((ringRd (F := F) m ρ).payload g r d) := by
  show BI.Storable upEmb (if g.2 = .reg barS then barPay g.1.1 d
    else if g.2 = .dma (recvS 1) then recvPay m ρ g.1.1 1
    else if g.2 = .dma (recvS 2) then recvPay m ρ g.1.1 2
    else if g.2 = .dma (recvS 3) then recvPay m ρ g.1.1 3
    else if g.2 = .dma (sendS 1) then sendPay m ρ g.1.1 1
    else if g.2 = .dma (sendS 2) then sendPay m ρ g.1.1 2
    else if g.2 = .dma (sendS 3) then sendPay m ρ g.1.1 3
    else iprop(emp))
  unfold barPay recvPay sendPay slotPts
  (repeat' split) <;> infer_instance

section Sched
variable (c : Dev nD)

theorem send_ne_bar (o : Fin 4) : (SemLoc.dma (sendS o) : SemLoc sig) ≠ .reg barS := fun h => by cases h
theorem recv_ne_bar (o : Fin 4) : (SemLoc.dma (recvS o) : SemLoc sig) ≠ .reg barS := fun h => by cases h

/-- The send semaphores are the array elements 2 to 5, the receive semaphores 6 to 9: no two coincide. -/
theorem send_ne_recv (o o' : Fin 4) : (SemLoc.dma (sendS o) : SemLoc sig) ≠ .dma (recvS o') := fun h => by
  have e : 2 + o.val = 6 + o'.val := congrArg Fin.val (SemLoc.dma.inj h)
  have := o.isLt; omega
theorem recv_ne_send (o o' : Fin 4) : (SemLoc.dma (recvS o) : SemLoc sig) ≠ .dma (sendS o') := fun h => send_ne_recv o' o h.symm
theorem sendS_inj {o o' : Fin 4} (h : (SemLoc.dma (sendS o) : SemLoc sig) = .dma (sendS o')) : o = o' := by
  have e : 2 + o.val = 2 + o'.val := congrArg Fin.val (SemLoc.dma.inj h)
  exact Fin.ext (by omega)
theorem recvS_inj {o o' : Fin 4} (h : (SemLoc.dma (recvS o) : SemLoc sig) = .dma (recvS o')) : o = o' := by
  have e : 6 + o.val = 6 + o'.val := congrArg Fin.val (SemLoc.dma.inj h)
  exact Fin.ext (by omega)
theorem sendS_ne {o o' : Fin 4} (h : o ≠ o') : (SemLoc.dma (sendS o) : SemLoc sig) ≠ .dma (sendS o') := fun e => h (sendS_inj e)
theorem recvS_ne {o o' : Fin 4} (h : o ≠ o') : (SemLoc.dma (recvS o) : SemLoc sig) ≠ .dma (recvS o') := fun e => h (recvS_inj e)
/-- A nonzero offset is 1, 2 or 3. -/
theorem off_cases (o : Fin 4) (ho : o ≠ 0) : o = 1 ∨ o = 2 ∨ o = 3 := by revert o; decide

theorem not_bar_send (o : Fin 4) : ¬ IsBar (sendCell c o) := fun h => send_ne_bar o h.2
theorem not_bar_recv (o : Fin 4) : ¬ IsBar (recvCell c o) := fun h => recv_ne_bar o h.2
theorem xfer_send (o : Fin 4) (ho : o ≠ 0) : IsXfer (sendCell c o) := ⟨o, ho, Or.inl (And.intro rfl rfl)⟩
theorem xfer_recv (o : Fin 4) (ho : o ≠ 0) : IsXfer (recvCell c o) := ⟨o, ho, Or.inr (And.intro rfl rfl)⟩
theorem not_xfer_send0 : ¬ IsXfer (sendCell c 0) := by
  rintro ⟨o, ho, h | h⟩
  · exact ho (sendS_inj h.2).symm
  · exact send_ne_recv 0 o h.2
theorem not_xfer_recv0 : ¬ IsXfer (recvCell c 0) := by
  rintro ⟨o, ho, h | h⟩
  · exact recv_ne_send 0 o h.2
  · exact ho (recvS_inj h.2).symm

theorem duties_bar : (ringRd (F := F) m ρ).duties (barCell c) 0 = {1, 2, 3} := by
  dsimp only [ringRd]; exact if_pos ⟨rfl, rfl, rfl⟩
theorem duties_send (o : Fin 4) (ho : o ≠ 0) : (ringRd (F := F) m ρ).duties (sendCell c o) 0 = {0} := by
  dsimp only [ringRd]; rw [if_neg (fun h => not_bar_send c o h.2)]; exact if_pos ⟨rfl, xfer_send c o ho⟩
theorem duties_recv (o : Fin 4) (ho : o ≠ 0) : (ringRd (F := F) m ρ).duties (recvCell c o) 0 = {0} := by
  dsimp only [ringRd]; rw [if_neg (fun h => not_bar_recv c o h.2)]; exact if_pos ⟨rfl, xfer_recv c o ho⟩
theorem duties_send0 (r : ℕ) : (ringRd (F := F) m ρ).duties (sendCell c 0) r = ∅ := by
  dsimp only [ringRd]; rw [if_neg (fun h => not_bar_send c 0 h.2), if_neg (fun h => not_xfer_send0 c h.2)]
theorem duties_recv0 (r : ℕ) : (ringRd (F := F) m ρ).duties (recvCell c 0) r = ∅ := by
  dsimp only [ringRd]; rw [if_neg (fun h => not_bar_recv c 0 h.2), if_neg (fun h => not_xfer_recv0 c h.2)]
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 4) : (ringRd (F := F) m ρ).amount (barCell c) 0 d = 1 := by dsimp only [ringRd]; exact if_pos rfl
theorem amount_send (o d : Fin 4) : (ringRd (F := F) m ρ).amount (sendCell c o) 0 d = N := by
  dsimp only [ringRd]; exact if_neg (send_ne_bar o)
theorem amount_recv (o d : Fin 4) : (ringRd (F := F) m ρ).amount (recvCell c o) 0 d = N := by
  dsimp only [ringRd]; exact if_neg (recv_ne_bar o)

theorem expect_bar : (ringRd (F := F) m ρ).expect (barCell c) 0 = 3 := by
  unfold Schedule.expect Schedule.amountOf
  rw [duties_bar, Finset.sum_congr rfl fun d _ => amount_bar m ρ c d, Finset.sum_const, smul_eq_mul, Nat.mul_one]
  decide
theorem expect_send (o : Fin 4) (ho : o ≠ 0) : (ringRd (F := F) m ρ).expect (sendCell c o) 0 = N := by
  unfold Schedule.expect Schedule.amountOf; rw [duties_send m ρ c o ho, Finset.sum_singleton, amount_send]
theorem expect_recv (o : Fin 4) (ho : o ≠ 0) : (ringRd (F := F) m ρ).expect (recvCell c o) 0 = N := by
  unfold Schedule.expect Schedule.amountOf; rw [duties_recv m ρ c o ho, Finset.sum_singleton, amount_recv]

theorem payload_bar (d : Fin 4) : (ringRd (F := F) m ρ).payload (barCell c) 0 d = barPay c d := by
  dsimp only [ringRd]; rw [if_pos rfl]
theorem payload_send (o : Fin 4) (ho : o ≠ 0) (d : Fin 4) : (ringRd (F := F) m ρ).payload (sendCell c o) 0 d = sendPay m ρ c o := by
  dsimp only [ringRd]
  rw [if_neg (send_ne_bar o), if_neg (send_ne_recv o 1), if_neg (send_ne_recv o 2), if_neg (send_ne_recv o 3)]
  rcases off_cases o ho with rfl | rfl | rfl
  · rw [if_pos rfl]
  · rw [if_neg (sendS_ne (o := 2) (o' := 1) (by decide)), if_pos rfl]
  · rw [if_neg (sendS_ne (o := 3) (o' := 1) (by decide)), if_neg (sendS_ne (o := 3) (o' := 2) (by decide)), if_pos rfl]
theorem payload_recv (o : Fin 4) (ho : o ≠ 0) (d : Fin 4) : (ringRd (F := F) m ρ).payload (recvCell c o) 0 d = recvPay m ρ c o := by
  dsimp only [ringRd]
  rw [if_neg (recv_ne_bar o)]
  rcases off_cases o ho with rfl | rfl | rfl
  · rw [if_pos rfl]
  · rw [if_neg (recvS_ne (o := 2) (o' := 1) (by decide)), if_pos rfl]
  · rw [if_neg (recvS_ne (o := 3) (o' := 1) (by decide)), if_neg (recvS_ne (o := 3) (o' := 2) (by decide)), if_pos rfl]

/-- The whole of the barrier counter's round: the rows of the three other devices. -/
theorem rest_bar : bigSep ((ringRd (F := F) m ρ).duties (barCell c) 0 \ ∅) (fun d => (ringRd (F := F) m ρ).payload (barCell c) 0 d)
    = iprop(barPay c 1 ∗ barPay c 2 ∗ barPay c 3) := by
  rw [Finset.sdiff_empty, duties_bar, bigSep_insert (by decide), bigSep_insert (by decide), bigSep_singleton,
    payload_bar, payload_bar, payload_bar]
  rfl
theorem rest_send (o : Fin 4) (ho : o ≠ 0) : bigSep ((ringRd (F := F) m ρ).duties (sendCell c o) 0 \ ∅) (fun d => (ringRd (F := F) m ρ).payload (sendCell c o) 0 d)
    = sendPay m ρ c o := by
  rw [Finset.sdiff_empty, duties_send m ρ c o ho, bigSep_singleton, payload_send m ρ c o ho]
theorem rest_recv (o : Fin 4) (ho : o ≠ 0) : bigSep ((ringRd (F := F) m ρ).duties (recvCell c o) 0 \ ∅) (fun d => (ringRd (F := F) m ρ).payload (recvCell c o) 0 d)
    = recvPay m ρ c o := by
  rw [Finset.sdiff_empty, duties_recv m ρ c o ho, bigSep_singleton, payload_recv m ρ c o ho]

end Sched

/-! ## The levels order the waits -/

theorem L_of_ne (g : GSem nD τ sig) (h : g.1.2 ≠ .tc) : L g = ∅ := if_neg h
theorem L_tc (c : Dev nD) (sm : SemLoc sig) : L ((c : Thread nD τ), sm) = {()} := if_pos rfl

/-- A positive entry of a sum of two tallies is a positive entry of one of them. -/
theorem add_pos_cases {A B : CellTallies nD τ sig Unit} {g : GSem nD τ sig} {u : Unit} (h : 0 < (A + B) g u) :
    0 < A g u ∨ 0 < B g u := by
  rw [Pi.add_apply, Finsupp.add_apply] at h; omega

/-- A positive entry of what a device still owes after its three signals names one of the three landing counters. -/
theorem O₃_pos {c : Dev nD} {g : GSem nD τ sig} {u : Unit} (h : 0 < O₃ c g u) :
    g = recvCell (shf 2 c) 2 ∨ g = recvCell (shf 1 c) 1 ∨ g = recvCell (shf 3 c) 3 := by
  rcases add_pos_cases (show 0 < (O₄ c + tallyAt (recvCell (shf 3 c) 3) () N) g u from h) with h | h
  · rcases add_pos_cases (show 0 < (O₅ c + tallyAt (recvCell (shf 1 c) 1) () N) g u from h) with h | h
    · exact .inl (Pipeline.tallyAt_pos (show 0 < tallyAt (recvCell (shf 2 c) 2) () N g u from h)).1
    · exact .inr (.inl (Pipeline.tallyAt_pos h).1)
  · exact .inr (.inr (Pipeline.tallyAt_pos h).1)

/-- A positive entry of what a device owes at the start names one of six counters: the three landing counters or the
    barrier counters of the three other devices. -/
theorem O₀_pos {c : Dev nD} {g : GSem nD τ sig} {u : Unit} (h : 0 < O₀ c g u) :
    (g = recvCell (shf 2 c) 2 ∨ g = recvCell (shf 1 c) 1 ∨ g = recvCell (shf 3 c) 3)
      ∨ g = barCell (shf 3 c) ∨ g = barCell (shf 2 c) ∨ g = barCell (shf 1 c) := by
  rcases add_pos_cases (show 0 < (O₁ c + tallyAt (barCell (shf 1 c)) () 1) g u from h) with h | h
  · rcases add_pos_cases (show 0 < (O₂ c + tallyAt (barCell (shf 2 c)) () 1) g u from h) with h | h
    · rcases add_pos_cases (show 0 < (O₃ c + tallyAt (barCell (shf 3 c)) () 1) g u from h) with h | h
      · exact .inl (O₃_pos h)
      · exact .inr (.inl (Pipeline.tallyAt_pos h).1)
    · exact .inr (.inr (.inl (Pipeline.tallyAt_pos h).1))
  · exact .inr (.inr (.inr (Pipeline.tallyAt_pos h).1))

/-- The landing counters sit at level 2, the barrier counters at level 1. -/
theorem lv_recv (x : Dev nD) (o : Fin 4) (ho : o ≠ 0) : lv (recvCell x o) () = 2 := by
  dsimp only [lv]; rw [if_neg (recv_ne_bar o)]
  rcases off_cases o ho with rfl | rfl | rfl
  · exact if_pos (.inl rfl)
  · exact if_pos (.inr (.inl rfl))
  · exact if_pos (.inr (.inr rfl))
theorem lv_bar (x : Dev nD) : lv (barCell x) () = 1 := by dsimp only [lv]; exact if_pos rfl

/-- A wait on a counter that is neither the barrier's nor a landing's (a staging or a send counter) is below
    everything a device may still owe. -/
theorem mayWait_stage (c : Dev nD) (q : DmaSem sig) (hq : ∀ o : Fin 4, o ≠ 0 → (SemLoc.dma q : SemLoc sig) ≠ .dma (recvS o))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by
        rw [Finset.mem_singleton.mp hp]; dsimp only [lv]
        rw [if_neg (fun h => by cases h),
          if_neg (fun h => h.elim (hq 1 (by decide)) fun h => h.elim (hq 2 (by decide)) (hq 3 (by decide)))])
      (fun g u hg => by
        rcases O₀_pos hg with (rfl | rfl | rfl) | rfl | rfl | rfl
        · rw [lv_recv _ 2 (by decide)]; decide
        · rw [lv_recv _ 1 (by decide)]; decide
        · rw [lv_recv _ 3 (by decide)]; decide
        · rw [lv_bar]; decide
        · rw [lv_bar]; decide
        · rw [lv_bar]; decide)
  · rw [MayWait_zero]; iintro -; iempintro

/-- At its barrier wait a device owes the three landings only, which sit above the barrier counters. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv _ 2 (by decide)]; decide
      · rw [lv_recv _ 1 (by decide)]; decide
      · rw [lv_recv _ 3 (by decide)]; decide)

/-! ## The units owed at the start, per counter -/

/-- Two tallies at one counter add up at that counter. -/
theorem tallyAt_add_same (g : GSem nD τ sig) (a b : ℕ) :
    (tallyAt g () a + tallyAt g () b : CellTallies nD τ sig Unit) = tallyAt g () (a + b) := by
  unfold tallyAt tallyOn; rw [← Pi.single_add, ← Finsupp.single_add]

/-- What the devices owe device `c`'s counters at the start is what `c` waits for: three units on its barrier counter,
    a row's credit on each of its three receive counters. -/
theorem creds (c : Dev nD) :
    (Pipeline.launchCred O₀ c : sProp 𝕄) ⊢ iprop(cred (tallyAt (barCell c) () 3)
      ∗ cred (tallyAt (recvCell c 1) () N) ∗ cred (tallyAt (recvCell c 2) () N) ∗ cred (tallyAt (recvCell c 3) () N)) := by
  -- What a device owes is a sum of six one-counter tallies, each towards the device a fixed number of places on; summed
  -- over the devices (a shift of the ring is a bijection) each lands once on the matching counter of `c`.
  have e0 : (O₀ : Dev nD → CellTallies nD τ sig Unit) = fun d => O₁ d + tallyAt (barCell (shf 1 d)) () 1 := rfl
  have e1 : (O₁ : Dev nD → CellTallies nD τ sig Unit) = fun d => O₂ d + tallyAt (barCell (shf 2 d)) () 1 := rfl
  have e2 : (O₂ : Dev nD → CellTallies nD τ sig Unit) = fun d => O₃ d + tallyAt (barCell (shf 3 d)) () 1 := rfl
  have e3 : (O₃ : Dev nD → CellTallies nD τ sig Unit) = fun d => O₄ d + tallyAt (recvCell (shf 3 d) 3) () N := rfl
  have e4 : (O₄ : Dev nD → CellTallies nD τ sig Unit) = fun d => O₅ d + tallyAt (recvCell (shf 1 d) 1) () N := rfl
  have e5 : (O₅ : Dev nD → CellTallies nD τ sig Unit) = fun d => tallyAt (recvCell (shf 2 d) 2) () N := rfl
  rw [e0, Pipeline.launchCred_add, e1, Pipeline.launchCred_add, e2, Pipeline.launchCred_add, e3, Pipeline.launchCred_add,
    e4, Pipeline.launchCred_add, e5]
  iintro ⟨⟨⟨⟨⟨H2, H1⟩, H3⟩, B3⟩, B2⟩, B1⟩
  ihave H2 := (Pipeline.launchCred_tallyAt (.dma (recvS 2)) (shf 2) (shf (neg 2)) (shf_shf_neg 2) (shf_neg_shf 2) () N c) $$ H2
  ihave H1 := (Pipeline.launchCred_tallyAt (.dma (recvS 1)) (shf 1) (shf (neg 1)) (shf_shf_neg 1) (shf_neg_shf 1) () N c) $$ H1
  ihave H3 := (Pipeline.launchCred_tallyAt (.dma (recvS 3)) (shf 3) (shf (neg 3)) (shf_shf_neg 3) (shf_neg_shf 3) () N c) $$ H3
  ihave B3 := (Pipeline.launchCred_tallyAt (.reg barS) (shf 3) (shf (neg 3)) (shf_shf_neg 3) (shf_neg_shf 3) () 1 c) $$ B3
  ihave B2 := (Pipeline.launchCred_tallyAt (.reg barS) (shf 2) (shf (neg 2)) (shf_shf_neg 2) (shf_neg_shf 2) () 1 c) $$ B2
  ihave B1 := (Pipeline.launchCred_tallyAt (.reg barS) (shf 1) (shf (neg 1)) (shf_shf_neg 1) (shf_neg_shf 1) () 1 c) $$ B1
  isplitl [B1 B2 B3]
  · rw [show (tallyAt (barCell c) () 3 : CellTallies nD τ sig Unit)
        = tallyAt (barCell c) () 1 + (tallyAt (barCell c) () 1 + tallyAt (barCell c) () 1) from by
      rw [tallyAt_add_same, tallyAt_add_same]]
    iapply (cred_add _ _).2
    isplitl [B1]; · iexact B1
    iapply (cred_add _ _).2
    isplitl [B2]; · iexact B2
    iexact B3
  isplitl [H1]; · iexact H1
  isplitl [H2]; · iexact H2
  iexact H3

/-! ## The axioms each table lemma rests on -/

/-- info: 'Cert.KernelIdeal.Ring4.ringRd_payload_storable' depends on axioms: [propext, Classical.choice, Quot.sound] -/
#guard_msgs in #print axioms ringRd_payload_storable

/-- info: 'Cert.KernelIdeal.Ring4.duties_bar' depends on axioms: [propext, Classical.choice, Quot.sound] -/
#guard_msgs in #print axioms duties_bar

/-- info: 'Cert.KernelIdeal.Ring4.duties_send' depends on axioms: [propext, Classical.choice, Quot.sound] -/
#guard_msgs in #print axioms duties_send

/-- info: 'Cert.KernelIdeal.Ring4.duties_recv' depends on axioms: [propext, Classical.choice, Quot.sound] -/
#guard_msgs in #print axioms duties_recv

/-- info: 'Cert.KernelIdeal.Ring4.duties_send0' depends on axioms: [propext, Classical.choice, Quot.sound] -/
#guard_msgs in #print axioms duties_send0

/-- info: 'Cert.KernelIdeal.Ring4.duties_recv0' depends on axioms: [propext, Classical.choice, Quot.sound] -/
#guard_msgs in #print axioms duties_recv0

/-- info: 'Cert.KernelIdeal.Ring4.duties_later' depends on axioms: [propext, Classical.choice, Quot.sound] -/
#guard_msgs in #print axioms duties_later

/-- info: 'Cert.KernelIdeal.Ring4.amount_bar' depends on axioms: [propext, Classical.choice, Quot.sound] -/
#guard_msgs in #print axioms amount_bar

/-- info: 'Cert.KernelIdeal.Ring4.amount_send' depends on axioms: [propext, Classical.choice, Quot.sound] -/
#guard_msgs in #print axioms amount_send

/-- info: 'Cert.KernelIdeal.Ring4.amount_recv' depends on axioms: [propext, Classical.choice, Quot.sound] -/
#guard_msgs in #print axioms amount_recv

/-- info: 'Cert.KernelIdeal.Ring4.expect_bar' depends on axioms: [propext, Classical.choice, Quot.sound] -/
#guard_msgs in #print axioms expect_bar

/-- info: 'Cert.KernelIdeal.Ring4.expect_send' depends on axioms: [propext, Classical.choice, Quot.sound] -/
#guard_msgs in #print axioms expect_send

/-- info: 'Cert.KernelIdeal.Ring4.expect_recv' depends on axioms: [propext, Classical.choice, Quot.sound] -/
#guard_msgs in #print axioms expect_recv

/-- info: 'Cert.KernelIdeal.Ring4.payload_bar' depends on axioms: [propext, Classical.choice, Quot.sound] -/
#guard_msgs in #print axioms payload_bar

/-- info: 'Cert.KernelIdeal.Ring4.payload_send' depends on axioms: [propext, Classical.choice, Quot.sound] -/
#guard_msgs in #print axioms payload_send

/-- info: 'Cert.KernelIdeal.Ring4.payload_recv' depends on axioms: [propext, Classical.choice, Quot.sound] -/
#guard_msgs in #print axioms payload_recv

/-- info: 'Cert.KernelIdeal.Ring4.rest_bar' depends on axioms: [propext, Classical.choice, Quot.sound] -/
#guard_msgs in #print axioms rest_bar

/-- info: 'Cert.KernelIdeal.Ring4.rest_send' depends on axioms: [propext, Classical.choice, Quot.sound] -/
#guard_msgs in #print axioms rest_send

/-- info: 'Cert.KernelIdeal.Ring4.rest_recv' depends on axioms: [propext, Classical.choice, Quot.sound] -/
#guard_msgs in #print axioms rest_recv

/-- info: 'Cert.KernelIdeal.Ring4.mayWait_stage' depends on axioms: [propext, Classical.choice, Quot.sound] -/
#guard_msgs in #print axioms mayWait_stage

/-- info: 'Cert.KernelIdeal.Ring4.mayWait_bar' depends on axioms: [propext, Classical.choice, Quot.sound] -/
#guard_msgs in #print axioms mayWait_bar

/-- info: 'Cert.KernelIdeal.Ring4.creds' depends on axioms: [propext, Classical.choice, Quot.sound] -/
#guard_msgs in #print axioms creds

end Cert.KernelIdeal.Ring4

end
-- ==== Proof.Launch.lean ====
/-
  The launch: from "each device's body is proved" to the run of the whole program on the four devices.

  The ring's ghost state is funded once for the machine: every device's nine counters get a round state, a position
  and a mark, and the duty tokens of its barrier counter (three) and of its send and receive counters of the offsets
  1, 2, 3 (one each). Under one update the thirty-six counters' invariants are allocated, and the tokens are dealt to
  the devices that pay them: the barrier duty `o` of a device goes to the device `o` places on, which signals it
  with its offset `neg o`; a receive duty of offset `o` goes to the device `neg o` places on, whose copy lands
  there; a send duty stays. Each device then starts from its own positions, the tokens it pays with, the credit of
  what the others owe it, and the scratch; it ends with the scratch whole and its eight own counters at zero.
-/
import proofs.«900912_g7700000000000913_dist_max_ax0_shard0_i_m1536_n768_v7x_i4_f32_1_alg».proof.Proof.Tables

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the tokens minted for them -/

theorem csem_injective : Function.Injective (csem : Fin 9 → SemLoc sig) := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
/-- The thirty-six counters of the protocol. -/
def ringCells : Finset (GSem nD τ sig) := Finset.univ.map ⟨kcell, kcell_injective⟩

/-- The nine duties of a device's own counters, as (counter, duty): for each offset `o` of 1, 2, 3 the duty `neg o` of
    its barrier counter, and the one duty of its receive and of its send counter of that offset. -/
abbrev tokSem : Fin 9 → SemLoc sig × Fin 4 := fun
  | 0 => (.reg barS, neg 1) | 1 => (.dma (recvS 1), 0) | 2 => (.dma (sendS 1), 0)
  | 3 => (.reg barS, neg 2) | 4 => (.dma (recvS 2), 0) | 5 => (.dma (sendS 2), 0)
  | 6 => (.reg barS, neg 3) | 7 => (.dma (recvS 3), 0) | 8 => (.dma (sendS 3), 0)
theorem tokSem_injective : Function.Injective (tokSem : Fin 9 → SemLoc sig × Fin 4) := by decide
/-- A device's own counters' duty tokens as minted: (counter, round, duty). -/
abbrev tokOf (cj : Dev nD × Fin 9) : GSem nD τ sig × ℕ × Fin 4 := (((cj.1 : Thread nD τ), (tokSem cj.2).1), 0, (tokSem cj.2).2)
theorem tokOf_injective : Function.Injective (tokOf : Dev nD × Fin 9 → GSem nD τ sig × ℕ × Fin 4) := by
  rintro ⟨c, j⟩ ⟨c', j'⟩ h
  have h1 : c = c' := congrArg (fun x : GSem nD τ sig × ℕ × Fin 4 => x.1.1.1) h
  subst h1
  have : j = j' := tokSem_injective (Prod.ext (congrArg (fun x : GSem nD τ sig × ℕ × Fin 4 => x.1.2) h)
    (congrArg (fun x : GSem nD τ sig × ℕ × Fin 4 => x.2.2) h))
  subst this; rfl
def ringToks : Finset (GSem nD τ sig × ℕ × Fin 4) := Finset.univ.map ⟨tokOf, tokOf_injective⟩

/-- The launch element: the pipeline library's copy for the staging cells, the ring's for the protocol's. -/
def u₀ : UU :=
  (initOf (Pipeline.cells cfgs cellOf_inj) (Pipeline.launchToks cfgs cellOf_inj), initOf ringCells ringToks)

/-- The duty tokens of device `c`'s own counters. -/
def toks (c : Dev nD) : sProp 𝕄 :=
  iprop(dutyTok ER (barCell c) 0 (neg 1) ∗ dutyTok ER (recvCell c 1) 0 0 ∗ dutyTok ER (sendCell c 1) 0 0
    ∗ dutyTok ER (barCell c) 0 (neg 2) ∗ dutyTok ER (recvCell c 2) 0 0 ∗ dutyTok ER (sendCell c 2) 0 0
    ∗ dutyTok ER (barCell c) 0 (neg 3) ∗ dutyTok ER (recvCell c 3) 0 0 ∗ dutyTok ER (sendCell c 3) 0 0)

/-- What the launch element deals device `c`. -/
def G (c : Dev nD) : sProp 𝕄 :=
  iprop((bigSep Finset.univ fun k : Fin 9 => roundState ER (ringRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero -/

/-- The four send and the four receive semaphores are the kernel's own eight; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨H, HB⟩
  isplitl [HB]; · iexact HB
  iexact H

/-- Each device's nine invariants allocated from its counters at zero and their round states. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- Moving `o` places along the ring, as a bijection of the devices. -/
def shfE (o : Fin 4) : Dev nD ≃ Dev nD := ⟨shf o, shf (neg o), shf_neg_shf o, shf_shf_neg o⟩

theorem ghost_intro (K : Dev nD × Fin 9 → ℕ) (c : Dev nD) : iprop(records m ρ K ∗ linear c) ⊢ G' m ρ c := by
  unfold G' ghost
  iintro H
  iexists K
  iexact H

/-- The tokens dealt around the ring: the barrier duty `neg o` and the receive duty of offset `o` of a device go to
    the device `neg o` places on, for which that device is the one `o` places on; the send duties stay. -/
theorem toks_around : (bigSep Finset.univ fun c : Dev nD => (toks c : sProp 𝕄)) ⊢ bigSep Finset.univ fun c : Dev nD => payToks c := by
  unfold toks payToks payTok
  simp only [bigSep_sep']
  rw [bigSep_univ_equiv (shfE 1) (fun c : Dev nD => (dutyTok ER (barCell c) 0 (neg 1) : sProp 𝕄)),
    bigSep_univ_equiv (shfE 2) (fun c : Dev nD => (dutyTok ER (barCell c) 0 (neg 2) : sProp 𝕄)),
    bigSep_univ_equiv (shfE 3) (fun c : Dev nD => (dutyTok ER (barCell c) 0 (neg 3) : sProp 𝕄)),
    bigSep_univ_equiv (shfE 1) (fun c : Dev nD => (dutyTok ER (recvCell c 1) 0 0 : sProp 𝕄)),
    bigSep_univ_equiv (shfE 2) (fun c : Dev nD => (dutyTok ER (recvCell c 2) 0 0 : sProp 𝕄)),
    bigSep_univ_equiv (shfE 3) (fun c : Dev nD => (dutyTok ER (recvCell c 3) 0 0 : sProp 𝕄))]
  iintro ⟨B1, R1, S1, B2, R2, S2, B3, R3, S3⟩
  isplitl [B1 R1 S1]
  · isplitl [B1]; · iexact B1
    isplitl [R1]; · iexact R1
    iexact S1
  isplitl [B2 R2 S2]
  · isplitl [B2]; · iexact B2
    isplitl [R2]; · iexact R2
    iexact S2
  isplitl [B3]; · iexact B3
  isplitl [R3]; · iexact R3
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (ringRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  rw [bigSep_fin4]
  iintro ⟨Hr, ⟨S0, R0⟩, ⟨S1, R1⟩, ⟨S2, R2⟩, ⟨S3, R3⟩⟩
  isplitr; · iempintro
  isplitr [Hr]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, for any float values, from any memory with zero counters, given each device's body: every
    weakly fair execution of the program — the four kernels handshaking on the barrier semaphore, then copying their
    rows to one another — terminates, and every final state has each window's array at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Ring4.run_main' depends on axioms: [propext, Classical.choice, Quot.sound] -/
#guard_msgs in #print axioms run_main

/-! ### The final arrays -/

/-- The input array after the run holds what it held: an input window is never written back. -/
theorem finalA_x (c : Dev nD) : finalA m ρ c (0 : Fin 2) = (s₀ m ρ).mem (win0_0.arr.view.loc (c : Thread nD τ)) :=
  (dats (F := F) m ρ 0 c).arrAt_in (0 : Fin 2) rfl _

/-- The output array after the run is what the one point wrote back: the window is the whole array, one block, so the
    write-back overwrites every element with what the body left in the staging buffer. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  refine h.trans ?_
  exact Memref.write_access_unit_zero_univ (Elt F) main_v1 (by funext a; fin_cases a <;> rfl) _ _ _

/-- The run with its values named: on every device the result array ends as the maximum of the four devices' rows, and
    the input array is unchanged. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ hbody)

/-- info: 'Cert.KernelIdeal.Ring4.run_vals' depends on axioms: [propext, Classical.choice, Quot.sound] -/
#guard_msgs in #print axioms run_vals

end Cert.KernelIdeal.Ring4

end
-- ==== Proof.Rows.lean ====
/-
  The four rows of the scratch as regions of one buffer: the buffer is its four rows; row 0 can be lent in three
  shares while a fourth is kept; a store of a row of column maxima into row 0, a copy's landing in row `o`, and a load
  of row `o` all speak of the same 768 elements, whichever way the row is viewed (as a 1 x 1 x 768 rectangle of
  the buffer or as the 1 x 768 row the copies move).
-/
import proofs.«900912_g7700000000000913_dist_max_ax0_shard0_i_m1536_n768_v7x_i4_f32_1_alg».proof.Proof.Proto

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The elements of a row -/

/-- Row `o` as the copies see it covers the rectangle of row `o`: squeezing re-indexes, it moves nothing. -/
theorem slot_set (o : Fin 4) : (slotM o).view.set = (rcO o).set :=
  (View.set_reshape _ _).trans (View.set_slice_whole _ _)

/-- The rectangle of row `o` is the elements whose first coordinate is `o`: on the two other axes it is whole. -/
theorem mem_rcO (o : Fin 4) (i : S4x1x768.Idx) : i ∈ (rcO o).set ↔ (i (0 : Fin 3)).val = o.val := by
  rw [Rect.mem_set_unit]
  have h1 : (i (1 : Fin 3)).val < 1 := (i (1 : Fin 3)).isLt
  have h2 : (i (2 : Fin 3)).val < 768 := (i (2 : Fin 3)).isLt
  constructor
  · intro h
    have h0 : o.val ≤ (i (0 : Fin 3)).val ∧ (i (0 : Fin 3)).val < o.val + 1 := h (0 : Fin 3)
    omega
  · intro h a
    have ha : a = (0 : Fin 3) ∨ a = (1 : Fin 3) ∨ a = (2 : Fin 3) := by revert a; decide
    rcases ha with rfl | rfl | rfl
    · exact (show o.val ≤ (i (0 : Fin 3)).val ∧ (i (0 : Fin 3)).val < o.val + 1 from by omega)
    · exact (show 0 ≤ (i (1 : Fin 3)).val ∧ (i (1 : Fin 3)).val < 0 + 1 from by omega)
    · exact (show 0 ≤ (i (2 : Fin 3)).val ∧ (i (2 : Fin 3)).val < 0 + 768 from by omega)

/-- An element is in row `o` exactly when its first coordinate is `o`. -/
theorem mem_slot (o : Fin 4) (i : S4x1x768.Idx) : i ∈ (slotM o).view.set ↔ (i (0 : Fin 3)).val = o.val := by
  rw [slot_set]; exact mem_rcO o i

/-- The row the copies move and the rectangle the loads and stores go through are the same elements. -/
theorem row_set (o : Fin 4) : (slotM o).view.set = ((scr.access (rcO o) : View sig .tc _ _ _)).set :=
  View.set_reshape _ _

/-- info: 'Cert.KernelIdeal.Ring4.row_set' depends on axioms: [propext, Classical.choice, Quot.sound] -/
#guard_msgs in #print axioms row_set

/-- Two different rows share no element. -/
theorem rows_disjoint (o o' : Fin 4) (h : o ≠ o') : Disjoint (slotM o).view.set (slotM o').view.set :=
  Finset.disjoint_left.mpr fun i hi hi' =>
    h (Fin.ext (((mem_slot o i).mp hi).symm.trans ((mem_slot o' i).mp hi')))

/-- info: 'Cert.KernelIdeal.Ring4.rows_disjoint' depends on axioms: [propext, Classical.choice, Quot.sound] -/
#guard_msgs in #print axioms rows_disjoint

/-- Every element of the scratch is in one of the four rows: its first coordinate is below 4. -/
theorem rows_cover (c : Dev nD) :
    (Finset.univ : Finset (Idx ((c : Thread nD τ).loc cc0_scratch0)))
      = (slotM 0).view.set ∪ ((slotM 1).view.set ∪ ((slotM 2).view.set ∪ (slotM 3).view.set)) := by
  ext i
  refine ⟨fun _ => ?_, fun _ => Finset.mem_univ i⟩
  have h4 : ((i : S4x1x768.Idx) (0 : Fin 3)).val < 4 := ((i : S4x1x768.Idx) (0 : Fin 3)).isLt
  rcases (by omega : ((i : S4x1x768.Idx) (0 : Fin 3)).val = 0 ∨ ((i : S4x1x768.Idx) (0 : Fin 3)).val = 1
      ∨ ((i : S4x1x768.Idx) (0 : Fin 3)).val = 2 ∨ ((i : S4x1x768.Idx) (0 : Fin 3)).val = 3) with h | h | h | h
  · exact Finset.mem_union_left _ ((mem_slot 0 i).mpr h)
  · exact Finset.mem_union_right _ (Finset.mem_union_left _ ((mem_slot 1 i).mpr h))
  · exact Finset.mem_union_right _ (Finset.mem_union_right _ (Finset.mem_union_left _ ((mem_slot 2 i).mpr h)))
  · exact Finset.mem_union_right _ (Finset.mem_union_right _ (Finset.mem_union_right _ ((mem_slot 3 i).mpr h)))

private theorem disj_23 : Disjoint (slotM 2).view.set (slotM 3).view.set := rows_disjoint 2 3 (by decide)
private theorem disj_1 : Disjoint (slotM 1).view.set ((slotM 2).view.set ∪ (slotM 3).view.set) :=
  Finset.disjoint_union_right.mpr ⟨rows_disjoint 1 2 (by decide), rows_disjoint 1 3 (by decide)⟩
private theorem disj_0 : Disjoint (slotM 0).view.set ((slotM 1).view.set ∪ ((slotM 2).view.set ∪ (slotM 3).view.set)) :=
  Finset.disjoint_union_right.mpr ⟨rows_disjoint 0 1 (by decide),
    Finset.disjoint_union_right.mpr ⟨rows_disjoint 0 2 (by decide), rows_disjoint 0 3 (by decide)⟩⟩

/-! ## The buffer and its rows -/

/-- The scratch is its four rows. -/
theorem scr_split (c : Dev nD) (f : (cc0_scratch0 : Ref sig .tc).ty.Contents (Elt F)) :
    ((((c : Thread nD τ).loc cc0_scratch0) ↦{fullShare} f) : sProp 𝕄)
      ⊣⊢ iprop(slotPts c 0 fullShare f ∗ slotPts c 1 fullShare f ∗ slotPts c 2 fullShare f ∗ slotPts c 3 fullShare f) := by
  unfold slotPts
  rw [rows_cover c]
  exact (pointsTo_union (ℓ := (c : Thread nD τ).loc cc0_scratch0) disj_0).trans
    (sep_congr_right ((pointsTo_union (ℓ := (c : Thread nD τ).loc cc0_scratch0) disj_1).trans
      (sep_congr_right (pointsTo_union (ℓ := (c : Thread nD τ).loc cc0_scratch0) disj_23))))

/-- info: 'Cert.KernelIdeal.Ring4.scr_split' depends on axioms: [propext, Classical.choice, Quot.sound] -/
#guard_msgs in #print axioms scr_split

/-- Four rows held whole, at whatever contents, are the scratch at some contents. -/
theorem scr_join (c : Dev nD) (f0 f1 f2 f3 : (cc0_scratch0 : Ref sig .tc).ty.Contents (Elt F)) :
    iprop(slotPts c 0 fullShare f0 ∗ slotPts c 1 fullShare f1 ∗ slotPts c 2 fullShare f2 ∗ slotPts c 3 fullShare f3)
      ⊢ (scrAny c : sProp 𝕄) := by
  unfold slotPts scrAny
  rw [rows_cover c]
  refine (sep_mono_right (sep_mono_right (pointsTo_join (ℓ := (c : Thread nD τ).loc cc0_scratch0) disj_23))).trans ?_
  refine (sep_mono_right (pointsTo_join (ℓ := (c : Thread nD τ).loc cc0_scratch0) disj_1)).trans ?_
  exact exists_intro_trans _ (pointsTo_join (ℓ := (c : Thread nD τ).loc cc0_scratch0) disj_0)

/-- info: 'Cert.KernelIdeal.Ring4.scr_join' depends on axioms: [propext, Classical.choice, Quot.sound] -/
#guard_msgs in #print axioms scr_join

theorem qs_1 : qs 1 = fullShare.left.left := rfl
theorem qs_2 : qs 2 = fullShare.left.right := rfl
theorem qs_3 : qs 3 = fullShare.right.left := rfl
theorem qs_0 : qs 0 = fullShare.right.right := rfl

/-- Row 0 whole is the three lent shares and the kept one. -/
theorem row0_shares (c : Dev nD) (f : (cc0_scratch0 : Ref sig .tc).ty.Contents (Elt F)) :
    (slotPts c 0 fullShare f : sProp 𝕄)
      ⊣⊢ iprop(slotPts c 0 (qs 1) f ∗ slotPts c 0 (qs 2) f ∗ slotPts c 0 (qs 3) f ∗ slotPts c 0 (qs 0) f) := by
  unfold slotPts
  rw [qs_1, qs_2, qs_3, qs_0]
  refine (pointsTo_share (PosShare.mem_left_op_right fullShare)).trans ?_
  refine (sep_congr (pointsTo_share (PosShare.mem_left_op_right fullShare.left))
    (pointsTo_share (PosShare.mem_left_op_right fullShare.right))).trans ?_
  exact sep_assoc

/-- info: 'Cert.KernelIdeal.Ring4.row0_shares' depends on axioms: [propext, Classical.choice, Quot.sound] -/
#guard_msgs in #print axioms row0_shares

/-- Contents that agree on a row are the same to whoever holds only that row. -/
theorem slotPts_congr (c : Dev nD) (o : Fin 4) (q : PosShare TreeShare) (f g : (cc0_scratch0 : Ref sig .tc).ty.Contents (Elt F))
    (h : ∀ i ∈ (slotM o).view.set, f i = g i) : (slotPts c o q f : sProp 𝕄) = slotPts c o q g :=
  pointsTo_congr h

/-- info: 'Cert.KernelIdeal.Ring4.slotPts_congr' depends on axioms: [propext, Classical.choice, Quot.sound] -/
#guard_msgs in #print axioms slotPts_congr

/-! ## A row by its columns

A 1 x 768 row and a 1 x 1 x 768 row have the same 768 elements in the same row-major order; the index of the longer
shape matched with `x` (by row-major position) is written `rowUp x`. Squeezing the slice, casting a loaded or stored
vector between the two shapes, all go through this one matching. -/

/-- The index of the 1 x 1 x 768 row at the row-major position of `x`. -/
abbrev rowUp (x : S1x768.Idx) : S1x1x768.Idx :=
  Shape.reshapeEquiv (s := S1x1x768) (s' := S1x768) squeezes_S1x1x768_S1x768.numel_eq x

/-- The element of row `o` at `x`, through the squeezed slice, is the element of the rectangle of row `o` at `rowUp x`. -/
theorem slot_emb (o : Fin 4) (x : S1x768.Idx) :
    (slotM o).view.emb x = (scr.access (rcO o) : View sig .tc _ _ _).emb (rowUp x) := rfl

/-- The row cast to 1 x 768 is the 1 x 1 x 768 row read at the matched index. -/
theorem pay2_apply (w : FVec F S1x1x768 .f32) (x : S1x768.Idx) : k0_pay2 w x = w (rowUp x) := rfl

/-- Reading row `o` through the squeezed slice or through its rectangle reads the same element. -/
theorem read_slot (o : Fin 4) (f : (cc0_scratch0 : Ref sig .tc).ty.Contents (Elt F)) (x : S1x768.Idx) :
    (slotM o).view.read (Elt F) f x = (scr.access (rcO o) : View sig .tc _ _ _).read (Elt F) f (rowUp x) := rfl

/-- What row `o` holds, read through the squeezed slice, when the contents agree on the row with `put o v`. -/
theorem read_put (o : Fin 4) (v : FVec F S1x768 .f32) (f : (cc0_scratch0 : Ref sig .tc).ty.Contents (Elt F))
    (hf : ∀ i ∈ (slotM o).view.set, f i = put o v i) : (slotM o).view.read (Elt F) f = v := by
  rw [View.read_congr (Val := Elt F) hf]
  unfold put
  exact View.read_write_univ _ _

/-- An element under a view is the image of one of the view's indices. -/
private theorem exists_emb {s : Shape} {e : EltTy} (v : View sig .tc .vmem s e) {i : v.ty.Idx} (h : i ∈ v.set) :
    ∃ y : s.Idx, v.emb y = i := by
  obtain ⟨y, -, e⟩ := Finset.mem_map.mp h; exact ⟨y, e⟩

/-- A store of the row `w` through the rectangle of row 0 leaves, on row 0, the row `k0_pay2 w`. -/
theorem store_row0 (f : (cc0_scratch0 : Ref sig .tc).ty.Contents (Elt F)) (w : FVec F S1x1x768 .f32) :
    ∀ i ∈ (slotM 0).view.set, ((scr.access rc0 : View sig .tc _ _ _).write (Elt F) f w Finset.univ) i = put 0 (k0_pay2 w) i := by
  intro i hi
  obtain ⟨x, rfl⟩ := exists_emb _ hi
  -- both sides are `w` at the matched index: the store wrote it there, and `put` writes the cast row there
  have hL := View.write_emb_of_mem (v := (scr.access (rcO 0) : View sig .tc _ _ _)) (Val := Elt F) f w
    (M := Finset.univ) (x := rowUp x) (Finset.mem_univ _)
  have hR := View.write_emb_of_mem (v := (slotM 0).view) (Val := Elt F) (bg (F := F)) (k0_pay2 w)
    (M := Finset.univ) (x := x) (Finset.mem_univ _)
  rw [pay2_apply] at hR
  rw [← slot_emb] at hL
  exact hL.trans hR.symm

/-- info: 'Cert.KernelIdeal.Ring4.store_row0' depends on axioms: [propext, Classical.choice, Quot.sound] -/
#guard_msgs in #print axioms store_row0

/-- A load of row `o` from contents that hold `v` there reads `v` (once cast to one row). -/
theorem load_row (o : Fin 4) (v : FVec F S1x768 .f32) (f : (cc0_scratch0 : Ref sig .tc).ty.Contents (Elt F))
    (hf : ∀ i ∈ (slotM o).view.set, f i = put o v i) :
    shapeCast S1x768 (scr.view.readAt (Elt F) (rcO o).toLoadRect f) shapeCasts_S1x1x768_S1x768 = v := by
  funext x
  -- the cast reads the load at the matched index, which is row `o` at `x`
  show (scr.access (rcO o) : View sig .tc _ _ _).read (Elt F) f (rowUp x) = v x
  rw [← read_slot, read_put o v f hf]

/-- info: 'Cert.KernelIdeal.Ring4.load_row' depends on axioms: [propext, Classical.choice, Quot.sound] -/
#guard_msgs in #print axioms load_row

/-- A copy of row 0 (holding `v`) into row `o` leaves `v` on row `o`, whatever was there. -/
theorem landing_row (o : Fin 4) (fd fs : (cc0_scratch0 : Ref sig .tc).ty.Contents (Elt F)) (v : FVec F S1x768 .f32)
    (hfs : ∀ i ∈ (slotM 0).view.set, fs i = put 0 v i) :
    ∀ i ∈ (slotM o).view.set, (slotM o).view.write (Elt F) fd ((slotM 0).view.read (Elt F) fs) Finset.univ i = put o v i := by
  rw [read_put 0 v fs hfs]
  intro i hi
  obtain ⟨x, rfl⟩ := exists_emb _ hi
  unfold put
  rw [View.write_emb_of_mem _ _ (Finset.mem_univ x), View.write_emb_of_mem _ _ (Finset.mem_univ x)]

/-- info: 'Cert.KernelIdeal.Ring4.landing_row' depends on axioms: [propext, Classical.choice, Quot.sound] -/
#guard_msgs in #print axioms landing_row

/-- Every row is worth the same credit on a DMA counter. -/
theorem amount_row (o o' : Fin 4) : (slotM o).view.amount (.dma (recvS o')) = N := rfl

/-- info: 'Cert.KernelIdeal.Ring4.amount_row' depends on axioms: [propext, Classical.choice, Quot.sound] -/
#guard_msgs in #print axioms amount_row
end Cert.KernelIdeal.Ring4

end
-- ==== Proof.BodyMid.lean ====
/-
  One device's body cut in two: its first three parts (the three signals, the block reduced into row 0 of the
  scratch, the wait for the three units of the barrier counter, the copies of offsets 3 and 1) and the rest (the
  copy of offset 2, the three landings awaited and the four rows read, their maximum stored, the three departures
  awaited). This module names the two programs, shows the body is the one followed by the other, and states what
  the device holds between them.
-/
import proofs.«900912_g7700000000000913_dist_max_ax0_shard0_i_m1536_n768_v7x_i4_f32_1_alg».proof.Proof.Tables
import proofs.«900912_g7700000000000913_dist_max_ax0_shard0_i_m1536_n768_v7x_i4_f32_1_alg».proof.Proof.Rows

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program, cut after its third part -/

/-- What the first, second and third parts of the body return. -/
abbrev R1 : Type := Σ' (d0 : Dev nD) (v2 : BitVec 32) (v3 : Sems sig S_) (v30 : BitVec 32) (c4_i32_18 : BitVec 32), BitVec 1
abbrev R2 : Type := Σ' (v60 : BitVec 32), BitVec 32
abbrev R3 : Type := Σ' (v81 : BitVec 32) (v92 : BitVec 32) (c4_i32_67 : BitVec 32) (v93 : BitVec 1), BitVec 32

/-- The three signals' first two; the third signal, the block's reduction into row 0 and the barrier wait; the
    copies of offsets 3 and 1. -/
abbrev P1 : Prog (TpuEff nD τ sig (Elt F) Λ₀ .tc) R1 :=
  k0_part1 (F := F) xM (Memref.isWhole_whole _) oM (Memref.isWhole_whole _) scr (Memref.isWhole_whole _) cc0_scratch1 cc0_scratch2
abbrev P2 (r1 : R1) : Prog (TpuEff nD τ sig (Elt F) Λ₀ .tc) R2 :=
  k0_part2 (F := F) xM (Memref.isWhole_whole _) oM (Memref.isWhole_whole _) scr (Memref.isWhole_whole _) cc0_scratch1 cc0_scratch2
    r1.1 r1.2.1 r1.2.2.1 r1.2.2.2.1 r1.2.2.2.2.1 r1.2.2.2.2.2
abbrev P3 (r1 : R1) (r2 : R2) : Prog (TpuEff nD τ sig (Elt F) Λ₀ .tc) R3 :=
  k0_part3 (F := F) xM (Memref.isWhole_whole _) oM (Memref.isWhole_whole _) scr (Memref.isWhole_whole _) cc0_scratch1 cc0_scratch2
    r1.1 r1.2.1 r2.2

/-- The rest of the body at device `d0`: the copy of offset 2, the three waits for the landings with the four
    loads, the maximum stored as the result, and the three waits for the departures. -/
def backProg (d0 : Dev nD) (v60 : BitVec 32) (r3 : R3) : Prog (TpuEff nD τ sig (Elt F) Λ₀ .tc) PUnit := do
  let r4 ← k0_part4 (F := F) xM (Memref.isWhole_whole _) oM (Memref.isWhole_whole _) scr (Memref.isWhole_whole _) cc0_scratch1 cc0_scratch2
    d0 r3.1 r3.2.1 r3.2.2.1 r3.2.2.2.1 r3.2.2.2.2
  k0_part5 (F := F) xM (Memref.isWhole_whole _) oM (Memref.isWhole_whole _) scr (Memref.isWhole_whole _) cc0_scratch1 cc0_scratch2
    v60 r4.1 r4.2
  Prog.lift (.waitDma2 ((cc0_scratch1.slice (Rect.unit (s := S4) ![1] S1.size inb_S4_S1_1)).squeeze S_ squeezes_S1_S_).sem sl1 sl0
    ((View.wordExact_bits rfl).reshape _ _) ((View.wordExact_bits rfl).reshape _ _))
  Prog.lift (.waitDma2 ((cc0_scratch1.slice (Rect.unit (s := S4) ![2] S1.size inb_S4_S1_2)).squeeze S_ squeezes_S1_S_).sem sl2 sl0
    ((View.wordExact_bits rfl).reshape _ _) ((View.wordExact_bits rfl).reshape _ _))
  Prog.lift (.waitDma2 ((cc0_scratch1.slice (Rect.unit (s := S4) ![3] S1.size inb_S4_S1_3)).squeeze S_ squeezes_S1_S_).sem sl3 sl0
    ((View.wordExact_bits rfl).reshape _ _) ((View.wordExact_bits rfl).reshape _ _))
  pure ⟨⟩

set_option maxRecDepth 65536 in
/-- The body is its first three parts followed by the rest. -/
theorem theBody_eq :
    theBody (F := F) = (P1 (F := F) >>= fun r1 => P2 r1 >>= fun r2 => P3 r1 r2 >>= fun r3 => backProg r1.1 r2.1 r3) := by
  show cc0_body (F := F) _ _ _ _ _ _ _ _ = _
  rw [cc0_body_eq_skeleton]
  rfl

/-! ## The state between the second and the third copy -/

/-- Device `c` after its three signals, its barrier wait and its copies of offsets 3 and 1: its eight own counters
    still at the start of round 0, the two tokens of the copy of offset 2 left, the credit of its three landings
    and of the two departures under way, what it still owes (the landing of offset 2), the kept share and the
    share of offset 2 of its own row, row 2 of the device two places on, and the two staging buffers. -/
def Mid (K : Dev nD × Fin 9 → ℕ) (c : Dev nD) (W : Waits sig Unit) : sProp 𝕄 :=
  iprop(records m ρ K
    ∗ (atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0)
    ∗ (dutyTok ER (recvCell (shf 2 c) 2) 0 0 ∗ dutyTok ER (sendCell c 2) 0 0)
    ∗ (cred (tallyAt (recvCell c 1) () N) ∗ cred (tallyAt (recvCell c 2) () N) ∗ cred (tallyAt (recvCell c 3) () N)
      ∗ cred (tallyAt (sendCell c 1) () N) ∗ cred (tallyAt (sendCell c 3) () N))
    ∗ levAts L lv
    ∗ owes (c : Thread nD τ) (O₅ c) W
    ∗ (slotPts c 0 (qs 0) (put 0 (rowS m ρ c)) ∗ slotPts c 0 (qs 2) (put 0 (rowS m ρ c)) ∗ (∃ f, slotPts (shf 2 c) 2 fullShare f))
    ∗ stg c cc0_stg0_0 (xblk m ρ c)
    ∗ (∃ d, stg c cc0_stg1_0 ((dats m ρ 0 c).before (1 : Fin 2) t₀ d)))

end Cert.KernelIdeal.Ring4

end
-- ==== Proof.BodyAft.lean ====
/-
  The first half of one device's body cut once more, after its barrier wait: what the device holds there, before
  it splits its own row into shares and issues its first two copies.
-/
import proofs.«900912_g7700000000000913_dist_max_ax0_shard0_i_m1536_n768_v7x_i4_f32_1_alg».proof.Proof.BodyMid

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state after the barrier wait; the two copies of the third part alone -/

/-- Device `c` after its three signals, the reduction of its block into row 0 and its barrier wait: its eight own
    counters still at the start of round 0, the six tokens of its three copies, the credit of its three landings, what
    it still owes (the three landings), its own row whole, row `o` of the device `o` places on for `o` = 1, 2, 3, and
    the two staging buffers. -/
def Aft2 (K : Dev nD × Fin 9 → ℕ) (c : Dev nD) (W : Waits sig Unit) : sProp 𝕄 :=
  iprop(records m ρ K
    ∗ (atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0)
    ∗ ((dutyTok ER (recvCell (shf 1 c) 1) 0 0 ∗ dutyTok ER (sendCell c 1) 0 0)
      ∗ (dutyTok ER (recvCell (shf 2 c) 2) 0 0 ∗ dutyTok ER (sendCell c 2) 0 0)
      ∗ (dutyTok ER (recvCell (shf 3 c) 3) 0 0 ∗ dutyTok ER (sendCell c 3) 0 0))
    ∗ (cred (tallyAt (recvCell c 1) () N) ∗ cred (tallyAt (recvCell c 2) () N) ∗ cred (tallyAt (recvCell c 3) () N))
    ∗ levAts L lv
    ∗ owes (c : Thread nD τ) (O₃ c) W
    ∗ slotPts c 0 fullShare (put 0 (rowS m ρ c))
    ∗ ((∃ f, slotPts (shf 1 c) 1 fullShare f) ∗ (∃ f, slotPts (shf 2 c) 2 fullShare f) ∗ (∃ f, slotPts (shf 3 c) 3 fullShare f))
    ∗ stg c cc0_stg0_0 (xblk m ρ c)
    ∗ (∃ d, stg c cc0_stg1_0 ((dats m ρ 0 c).before (1 : Fin 2) t₀ d)))

end Cert.KernelIdeal.Ring4

end
-- ==== Proof.BodySends.lean ====
/-
  The third part of one device's body alone: its own row split into the three lent shares and the kept one, and
  the copies of offsets 3 and 1 issued into the rows the devices 3 and 1 places on handed over at the barrier.
-/
import proofs.«900912_g7700000000000913_dist_max_ax0_shard0_i_m1536_n768_v7x_i4_f32_1_alg».proof.Proof.BodyAft

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records -/

/-- The invariant of any one of the cells, out of the records. -/
theorem recInv (K : Dev nD × Fin 9 → ℕ) (ck : Dev nD × Fin 9) :
    records m ρ K ⊢ cellInv ER (ringRd m ρ) (K ck) (kcell ck) := by
  unfold records
  exact (BI.sep_and.trans BI.and_elimL).trans (BI.bigSep_elim (Finset.mem_univ ck))

/-- That any one of the cells is at round 0 or later, out of the records. -/
theorem recReached (K : Dev nD × Fin 9 → ℕ) (ck : Dev nD × Fin 9) :
    records m ρ K ⊢ reached ER (kcell ck) 0 := by
  unfold records
  exact (BI.sep_and.trans BI.and_elimR).trans (BI.bigSep_elim (Finset.mem_univ ck))

/-! ## One copy out -/

/-- The copy of offset `o` (1, 2 or 3), issued by device `c` at the device `x` that is `o` places on: it lends the
    share `qs o` of its own row, holds row `o` of that device whole at whatever contents, owes the landing, and pays
    with its two tokens of offset `o`; it is left with the credit of the departure and owes the landing no more.
    What lands is the row read off the lent share written over row `o`, which on row `o` is the row itself. -/
theorem copy_out (K : Dev nD × Fin 9 → ℕ) (c : Dev nD) (o : Fin 4) (ho : o ≠ 0) (x : Dev nD) (hx : x = shf o c)
    (sS sR : DmaSem sig) (hS : sS = sendS o) (hR : sR = recvS o)
    (hsc : (slotM o).view.ref.isScScratch = false) (hsrc : (slotM 0).view.WordExact) (hdst : (slotM o).view.WordExact)
    (hsem : (DmaTarget.remote (x : Thread nD τ) (slotM o) (.dma sS) hsc : DmaTarget nD τ sig .tc .vmem S1x768 .f32).Typed .vmem (.dma sR))
    {α : Type} (k : PUnit → Prog (TpuEff nD τ sig (Elt F) Λ₀ .tc) α) (Q : α → sProp 𝕄)
    (W : Waits sig Unit) (O : CellTallies nD τ sig Unit) (fd : (cc0_scratch0 : Ref sig .tc).ty.Contents (Elt F)) :
    iprop(records m ρ K ∗ slotPts c 0 (qs o) (put 0 (rowS m ρ c)) ∗ slotPts (shf o c) o fullShare fd
        ∗ owes (c : Thread nD τ) (O + tallyAt (recvCell (shf o c) o) () N) W
        ∗ dutyTok ER (sendCell c o) 0 0 ∗ dutyTok ER (recvCell (shf o c) o) 0 0
        ∗ ((cred (tallyAt (sendCell c o) () N) ∗ owes (c : Thread nD τ) O W)
            -∗ wp frame (wpE (defs₀ (F := F)) 𝒱₀ c none) Set.univ (k ⟨⟩) Q))
      ⊢ wp frame (wpE (defs₀ (F := F)) 𝒱₀ c none) Set.univ
          (.op (.enqueueDma (slotM 0) (.remote (x : Thread nD τ) (slotM o) (.dma sS) hsc) (.dma sR) hsrc hdst hsem) k) Q := by
  subst hx hS hR
  have hI₁ : records m ρ K ⊢ cellInv ER (ringRd m ρ) (K (c, kS o)) (sendCell c o) := by
    rw [← kcell_send]; exact recInv m ρ K (c, kS o)
  have hI₂ : records m ρ K ⊢ cellInv ER (ringRd m ρ) (K (shf o c, kR o)) (recvCell (shf o c) o) := by
    rw [← kcell_recv]; exact recInv m ρ K (shf o c, kR o)
  have hR₁ : records m ρ K ⊢ reached ER (sendCell c o) 0 := by
    rw [← kcell_send]; exact recReached m ρ K (c, kS o)
  have hR₂ : records m ρ K ⊢ reached ER (recvCell (shf o c) o) 0 := by
    rw [← kcell_recv]; exact recReached m ρ K (shf o c, kR o)
  have hd₁ : (0 : Fin 4) ∈ (ringRd (F := F) m ρ).duties (sendCell c o) 0 := by
    rw [duties_send m ρ c o ho]; exact Finset.mem_singleton_self _
  have hd₂ : (0 : Fin 4) ∈ (ringRd (F := F) m ρ).duties (recvCell (shf o c) o) 0 := by
    rw [duties_recv m ρ (shf o c) o ho]; exact Finset.mem_singleton_self _
  have hpay₁ : (((slotM 0).view.loc (c : Thread nD τ) ↦[(slotM 0).view.set]{qs o} put 0 (rowS m ρ c)) : sProp 𝕄)
      ⊢ (ringRd (F := F) m ρ).payload (sendCell c o) 0 0 := by
    rw [payload_send m ρ c o ho]; unfold sendPay slotPts; exact .rfl
  have hpay₂ : (((slotM o).view.loc ((shf o c : Dev nD) : Thread nD τ) ↦[(slotM o).view.set]{fullShare}
        ((slotM o).view.write (Elt F) fd ((slotM 0).view.read (Elt F) (put 0 (rowS m ρ c))) Finset.univ)) : sProp 𝕄)
      ⊢ (ringRd (F := F) m ρ).payload (recvCell (shf o c) o) 0 0 := by
    rw [payload_recv m ρ (shf o c) o ho]; unfold recvPay
    rw [shf_neg_shf]
    exact Entails.of_eq (slotPts_congr (shf o c) o fullShare _ _
      (landing_row o fd (put 0 (rowS m ρ c)) (rowS m ρ c) (fun _ _ => rfl)))
  unfold slotPts
  iintro ⟨#Hrec, Hsrc, Hdst, Ho, Hts, Htr, Hk⟩
  iapply (Rounds.wp_send_pointsTo 𝒱₀ ER (ringRd m ρ) (c : Thread nD τ) none
      (c' := ((shf o c : Dev nD) : Thread nD τ)) (src := slotM 0) (dst := slotM o) (q := qs o)
      (fs := put 0 (rowS m ρ c)) (fd := fd) (r₁ := 0) (r₂ := 0) (d₁ := 0) (d₂ := 0)
      (κ₁ := K (c, kS o)) (κ₂ := K (shf o c, kR o)) hd₁ hd₂ () () N (amount_row o o)
      (amount_send m ρ c o 0) (amount_recv m ρ (shf o c) o 0) O rfl hpay₁ hpay₂) $$ [Hsrc Hdst Ho Hts Htr]
  · isplitr; · iapply hI₁; iexact Hrec
    isplitr; · iapply hI₂; iexact Hrec
    isplitl [Hsrc]; · iexact Hsrc
    isplitl [Hdst]; · iexact Hdst
    isplitl [Ho]; · iexact Ho
    isplitl [Hts]; · iexact Hts
    isplitr; · iapply hR₁; iexact Hrec
    isplitl [Htr]; · iexact Htr
    iapply hR₂; iexact Hrec
  iexact Hk

/-- The third part alone: row 0 split into its shares, the copies of offsets 3 and 1 issued. The two words the part
    is handed are never read by it. -/
theorem sends (K : Dev nD × Fin 9 → ℕ) (c : Dev nD) (W : Waits sig Unit) (v2 v61 : BitVec 32) (Ψ : R3 → sProp 𝕄) :
    iprop(Aft2 m ρ K c W ∗ (∀ r3, Mid m ρ K c W -∗ Ψ r3))
      ⊢ wp frame (wpE (defs₀ (F := F)) 𝒱₀ c none) Set.univ
          (k0_part3 (F := F) xM (Memref.isWhole_whole _) oM (Memref.isWhole_whole _) scr (Memref.isWhole_whole _) cc0_scratch1 cc0_scratch2 c v2 v61) Ψ := by
  unfold Aft2
  iintro ⟨⟨#Hrec, Hpos, ⟨⟨Htr1, Hts1⟩, ⟨Htr2, Hts2⟩, ⟨Htr3, Hts3⟩⟩, ⟨Hc1, Hc2, Hc3⟩, #Hlev, Ho, Hrow0, ⟨Hr1, Hr2, Hr3⟩, Hx, Hout⟩, Hk⟩
  icases Hr1 with ⟨%f1, Hr1⟩
  icases Hr3 with ⟨%f3, Hr3⟩
  ihave Hsh := (row0_shares c (put 0 (rowS m ρ c))).1 $$ Hrow0
  icases Hsh with ⟨Hq1, Hq2, Hq3, Hq0⟩
  rw [k0_part3_eq_skeleton]
  unfold k0_part3_skel
  simp only [Prog.lift, Prog.bind_op, Prog.bind_ret, Prog.pure_eq_ret]
  -- the copy of offset 3, into row 3 of the device three places on
  iapply (copy_out m ρ K c 3 (by decide) ⟨k0_dev4 c, k0_dev4_lt c⟩ (dev4_eq c) _ _ sendS3 recvS3 _ _ _ _ _ Ψ W (O₄ c) f3)
  isplitr; · iexact Hrec
  isplitl [Hq3]; · iexact Hq3
  isplitl [Hr3]; · iexact Hr3
  isplitl [Ho]; · iexact Ho
  isplitl [Hts3]; · iexact Hts3
  isplitl [Htr3]; · iexact Htr3
  iintro ⟨Hs3, Ho⟩
  -- the copy of offset 1, into row 1 of the device one place on
  iapply (copy_out m ρ K c 1 (by decide) ⟨k0_dev5 c, k0_dev5_lt c⟩ (dev5_eq c) _ _ sendS1 recvS1 _ _ _ _ _ Ψ W (O₅ c) f1)
  isplitr; · iexact Hrec
  isplitl [Hq1]; · iexact Hq1
  isplitl [Hr1]; · iexact Hr1
  isplitl [Ho]; · iexact Ho
  isplitl [Hts1]; · iexact Hts1
  isplitl [Htr1]; · iexact Htr1
  iintro ⟨Hs1, Ho⟩
  rw [wp_ret]; imodintro
  iapply Hk
  unfold Mid
  isplitr; · iexact Hrec
  isplitl [Hpos]; · iexact Hpos
  isplitl [Htr2 Hts2]
  · isplitl [Htr2]; · iexact Htr2
    iexact Hts2
  isplitl [Hc1 Hc2 Hc3 Hs1 Hs3]
  · isplitl [Hc1]; · iexact Hc1
    isplitl [Hc2]; · iexact Hc2
    isplitl [Hc3]; · iexact Hc3
    isplitl [Hs1]; · iexact Hs1
    iexact Hs3
  isplitr; · iexact Hlev
  isplitl [Ho]; · iexact Ho
  isplitl [Hq0 Hq2 Hr2]
  · isplitl [Hq0]; · iexact Hq0
    isplitl [Hq2]; · iexact Hq2
    iexact Hr2
  isplitl [Hx]; · iexact Hx
  iexact Hout

/-- info: 'Cert.KernelIdeal.Ring4.sends' depends on axioms: [propext, Classical.choice, Quot.sound] -/
#guard_msgs in #print axioms Cert.KernelIdeal.Ring4.sends

end Cert.KernelIdeal.Ring4

end
-- ==== Proof.BodyFront.lean ====
/-
  The first half of one device's body: from the state the device starts in, through its three signals, the
  reduction of its block into row 0, its barrier wait and its first two copies, to the state between the halves.
-/
import proofs.«900912_g7700000000000913_dist_max_ax0_shard0_i_m1536_n768_v7x_i4_f32_1_alg».proof.Proof.BodySends

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the ghost state -/

omit [FloatOps F] in
/-- The nine positions one by one. -/
theorem pos9 (c : Dev nD) :
    (bigSep Finset.univ fun k : Fin 9 => (atPos ER (kcell (c, k)) 0 ∅ 0 : sProp 𝕄))
      = iprop(atPos ER (barCell c) 0 ∅ 0
        ∗ atPos ER (sendCell c 0) 0 ∅ 0 ∗ atPos ER (sendCell c 1) 0 ∅ 0 ∗ atPos ER (sendCell c 2) 0 ∅ 0 ∗ atPos ER (sendCell c 3) 0 ∅ 0
        ∗ atPos ER (recvCell c 0) 0 ∅ 0 ∗ atPos ER (recvCell c 1) 0 ∅ 0 ∗ atPos ER (recvCell c 2) 0 ∅ 0 ∗ atPos ER (recvCell c 3) 0 ∅ 0) := by
  rw [BI.bigSep_univ_eq_bigSepL [0, 1, 2, 3, 4, 5, 6, 7, 8] (by decide) (by decide)]
  rfl

/-- Every cell's invariant and its round 0 can be read off the records. -/
theorem inv_at (K : Dev nD × Fin 9 → ℕ) (ck : Dev nD × Fin 9) :
    records m ρ K ⊢ cellInv ER (ringRd m ρ) (K ck) (kcell ck) := by
  unfold records
  exact (BI.sep_and.trans BI.and_elimL).trans (BI.bigSep_elim (Finset.mem_univ ck))

theorem reached_at (K : Dev nD × Fin 9 → ℕ) (ck : Dev nD × Fin 9) :
    records m ρ K ⊢ reached ER (kcell ck) 0 := by
  unfold records
  exact (BI.sep_and.trans BI.and_elimR).trans (BI.bigSep_elim (Finset.mem_univ ck))

omit [FloatOps F] in
theorem neg_1 : neg 1 = 3 := by decide
omit [FloatOps F] in
theorem neg_2 : neg 2 = 2 := by decide
omit [FloatOps F] in
theorem neg_3 : neg 3 = 1 := by decide

omit [FloatOps F] in
theorem shf31 (c : Dev nD) : shf 3 (shf 1 c) = c := by revert c; decide
omit [FloatOps F] in
theorem shf22 (c : Dev nD) : shf 2 (shf 2 c) = c := by revert c; decide
omit [FloatOps F] in
theorem shf13 (c : Dev nD) : shf 1 (shf 3 c) = c := by revert c; decide

/-- What the body finds in the input's staging buffer: device `c`'s block. -/
theorem before0 (c : Dev nD) (d : (cfg0.win (0 : Fin 2)).block.Idx → Elt F (cfg0.win (0 : Fin 2)).elt) :
    (dats m ρ 0 c).before (0 : Fin 2) t₀ d = xblk m ρ c := by
  unfold Dat.before; rw [if_pos (Gen.fetch0_0 t₀)]; rfl

theorem front (K : Dev nD × Fin 9 → ℕ) (c : Dev nD) (Φ : Dev nD → BitVec 32 → R3 → sProp 𝕄) :
    iprop(bodyPre m ρ K c ∗ (∀ W v60 r3, Mid m ρ K c W -∗ Φ c v60 r3))
      ⊢ wp frame (wpE (defs₀ (F := F)) 𝒱₀ c none) Set.univ (P1 (F := F)) fun r1 =>
          wp frame (wpE (defs₀ (F := F)) 𝒱₀ c none) Set.univ (P2 r1) fun r2 =>
            wp frame (wpE (defs₀ (F := F)) 𝒱₀ c none) Set.univ (P3 r1 r2) fun r3 => Φ r1.1 r2.1 r3 := by
  unfold bodyPre ghost linear payToks payTok
  rw [pos9, neg_1, neg_2, neg_3]
  iintro ⟨⟨⟨⟨#Hrec, ⟨Hpb, Hps0, Hps1, Hps2, Hps3, Hpr0, Hpr1, Hpr2, Hpr3⟩, ⟨Htb1, Htr1, Hts1⟩, ⟨Htb2, Htr2, Hts2⟩, ⟨Htb3, Htr3, Hts3⟩⟩,
    Hcb, Hc1, Hc2, Hc3, #Hlev, Hscr⟩, Ho, Hx, Hout⟩, Hk⟩
  unfold scrAny
  icases Hscr with ⟨%f0, Hscr⟩
  icases Ho with ⟨%W0, %hW0, Ho⟩
  rw [show (dats m ρ 0 c).owed t₀.castSucc = O₀ c from rfl]
  ihave Hrows := (Ring4.scr_split c f0).1 $$ Hscr
  icases Hrows with ⟨Hrow0, Hrow1, Hrow2, Hrow3⟩
  unfold P1
  rw [k0_part1_eq_skeleton]
  unfold k0_part1_skel
  simp only [semSignalWord, semWaitWord, Prog.lift, Prog.bind_op, Prog.bind_ret, Prog.pure_eq_ret, wp_deviceId, dev1_eq, dev2_eq]
  -- the signal to the device one place on: it hands over row 3, which that device's copy of offset 3 fills
  iapply (Rounds.wp_signal 𝒱₀ ER (ringRd m ρ) (c : Thread nD τ) none (dst := ((shf 1 c : Dev nD) : Thread nD τ)) (sem := barS) (r := 0) (d := 3)
      (κ := K (shf 1 c, 0)) (by rw [duties_bar]; decide) (amount_bar m ρ (shf 1 c) 3) () (O₁ c) rfl) $$ [Htb1 Hrow3 Ho]
  · isplitr
    · iapply (inv_at m ρ K (shf 1 c, 0)); iexact Hrec
    isplitl [Ho]; · iexact Ho
    isplitl [Htb1]; · iexact Htb1
    isplitl [Hrow3]
    · rw [payload_bar]; unfold barPay
      rw [shf31]
      isplitl [Hrow3]
      · iexists f0; iexact Hrow3
      · iapply (reached_at m ρ K (c, kR 3)); iexact Hrec
    · iapply (reached_at m ρ K (shf 1 c, 0)); iexact Hrec
  iintro Ho
  -- the signal to the device two places on: row 2
  iapply (Rounds.wp_signal 𝒱₀ ER (ringRd m ρ) (c : Thread nD τ) none (dst := ((shf 2 c : Dev nD) : Thread nD τ)) (sem := barS) (r := 0) (d := 2)
      (κ := K (shf 2 c, 0)) (by rw [duties_bar]; decide) (amount_bar m ρ (shf 2 c) 2) () (O₂ c) rfl) $$ [Htb2 Hrow2 Ho]
  · isplitr
    · iapply (inv_at m ρ K (shf 2 c, 0)); iexact Hrec
    isplitl [Ho]; · iexact Ho
    isplitl [Htb2]; · iexact Htb2
    isplitl [Hrow2]
    · rw [payload_bar]; unfold barPay
      rw [shf22]
      isplitl [Hrow2]
      · iexists f0; iexact Hrow2
      · iapply (reached_at m ρ K (c, kR 2)); iexact Hrec
    · iapply (reached_at m ρ K (shf 2 c, 0)); iexact Hrec
  iintro Ho
  -- the second part
  simp only [wp_ret, fupd_wp_eq]
  unfold P2
  rw [k0_part2_eq_skeleton]
  unfold k0_part2_skel
  simp only [semSignalWord, semWaitWord, Prog.lift, Prog.bind_op, Prog.bind_ret, Prog.pure_eq_ret, dev3_eq]
  -- the signal to the device three places on: row 1
  iapply (Rounds.wp_signal 𝒱₀ ER (ringRd m ρ) (c : Thread nD τ) none (dst := ((shf 3 c : Dev nD) : Thread nD τ)) (sem := barS) (r := 0) (d := 1)
      (κ := K (shf 3 c, 0)) (by rw [duties_bar]; decide) (amount_bar m ρ (shf 3 c) 1) () (O₃ c) rfl) $$ [Htb3 Hrow1 Ho]
  · isplitr
    · iapply (inv_at m ρ K (shf 3 c, 0)); iexact Hrec
    isplitl [Ho]; · iexact Ho
    isplitl [Htb3]; · iexact Htb3
    isplitl [Hrow1]
    · rw [payload_bar]; unfold barPay
      rw [shf13]
      isplitl [Hrow1]
      · iexists f0; iexact Hrow1
      · iapply (reached_at m ρ K (c, kR 1)); iexact Hrec
    · iapply (reached_at m ρ K (shf 3 c, 0)); iexact Hrec
  iintro Ho
  -- the block is read whole
  icases Hx with ⟨%d0, %fx, %hfx, Hx⟩
  rw [before0] at hfx
  subst hfx
  iapply (wp_load 𝒱₀ (c : Thread nD τ) none Set.univ (m := xM) (S := Finset.univ) (q := fullShare) (f := xblk m ρ c) (Finset.subset_univ _)) $$ Hx
  iintro Hx
  have hrd : (xM : Memref sig .tc .vmem S1536x768 .f32).view.readAt (Elt F) (Rect.unit (s := S1536x768) ![0, 0] S1536x768.size inb_S1536x768_S1536x768_0_0).toLoadRect (xblk m ρ c)
      = xblk m ρ c := Memref.readAt_unit_zero (Elt F) cc0_stg0_0 (by decide) _ _
  rw [hrd]
  -- row 0 is read (the value is not used), then the block's column maxima are stored into it
  unfold slotPts
  iapply (wp_load_rect 𝒱₀ (c : Thread nD τ) none Set.univ (m := scr) (r := rc0) (S := (slotM 0).view.set) (q := fullShare) (f := f0)
      (row_set 0).symm.subset) $$ Hrow0
  iintro Hrow0
  iapply (wp_store 𝒱₀ (c : Thread nD τ) none Set.univ (m := scr) (r := rc0) (S := (slotM 0).view.set) (f := f0)
      (by rw [View.setOn_univ]; exact (row_set 0).symm.subset)) $$ Hrow0
  iintro Hrow0
  have hnorm : (((scr.access rc0 : View sig .tc _ _ _).loc (c : Thread nD τ)) ↦[(slotM 0).view.set]{fullShare}
        ((scr.access rc0 : View sig .tc _ _ _).write (Elt F) f0 (k0_pay1 (xblk m ρ c)) Finset.univ) : sProp 𝕄)
      = slotPts c 0 fullShare (put 0 (rowS m ρ c)) :=
    slotPts_congr c 0 fullShare _ _ (store_row0 f0 (k0_pay1 (xblk m ρ c)))
  have hnorm' : (((scr.access rc0 : View sig .tc _ _ _).loc (c : Thread nD τ)) ↦[(slotM 0).view.set]{fullShare}
        ((scr.access rc0 : View sig .tc _ _ _).write (Elt F) f0 (k0_pay1 (xblk m ρ c)) Finset.univ) : sProp 𝕄)
      ⊢ slotPts c 0 fullShare (put 0 (rowS m ρ c)) := by rw [hnorm]; first | done | exact .rfl
  ihave Hown := (hnorm') $$ Hrow0
  -- the wait for the barrier counter's three units: the rows of the three other devices come back
  iapply (Rounds.wp_wait_rest_token 𝒱₀ ER (ringRd m ρ) (c : Thread nD τ) none (sm := .reg barS) (κ := K (c, 0)) (R := 0) (m := 0) (T := ∅)
      (wpE_semWait_eq 𝒱₀ (c : Thread nD τ) none Set.univ) (Set.mem_univ _) () (by rw [expect_bar]; rfl)) $$ [Hcb Ho Hpb]
  · isplitr
    · iapply (inv_at m ρ K (c, 0)); iexact Hrec
    isplitl [Hcb]; · iexact Hcb
    isplitl [Ho]; · iexact Ho
    isplitr
    · iapply (mayWait_bar c); iexact Hlev
    iexact Hpb
  rw [rest_bar]
  unfold barPay
  iintro ⟨Ho, Hpb, #Hrb, Hpay⟩
  icases Hpay with ⟨⟨⟨%g1, Hn1⟩, -⟩, ⟨⟨%g2, Hn2⟩, -⟩, ⟨%g3, Hn3⟩, -⟩
  -- the third part: the two copies
  simp only [wp_ret, fupd_wp_eq]
  unfold P3
  dsimp only
  iapply (sends m ρ K c (insert (SemLoc.reg barS, ()) W0) _ _ _)
  isplitr [Hk]
  · unfold Aft2
    isplitr; · iexact Hrec
    isplitl [Hps0 Hps1 Hps2 Hps3 Hpr0 Hpr1 Hpr2 Hpr3]
    · isplitl [Hps0]; · iexact Hps0
      isplitl [Hps1]; · iexact Hps1
      isplitl [Hps2]; · iexact Hps2
      isplitl [Hps3]; · iexact Hps3
      isplitl [Hpr0]; · iexact Hpr0
      isplitl [Hpr1]; · iexact Hpr1
      isplitl [Hpr2]; · iexact Hpr2
      iexact Hpr3
    isplitl [Htr1 Hts1 Htr2 Hts2 Htr3 Hts3]
    · isplitl [Htr1 Hts1]
      · isplitl [Htr1]; · iexact Htr1
        iexact Hts1
      isplitl [Htr2 Hts2]
      · isplitl [Htr2]; · iexact Htr2
        iexact Hts2
      isplitl [Htr3]; · iexact Htr3
      iexact Hts3
    isplitl [Hc1 Hc2 Hc3]
    · isplitl [Hc1]; · iexact Hc1
      isplitl [Hc2]; · iexact Hc2
      iexact Hc3
    isplitr; · iexact Hlev
    isplitl [Ho]; · iexact Ho
    isplitl [Hown]; · iexact Hown
    isplitl [Hn1 Hn2 Hn3]
    · isplitl [Hn1]; · iexists g1; iexact Hn1
      isplitl [Hn2]; · iexists g2; iexact Hn2
      iexists g3; iexact Hn3
    isplitl [Hx]
    · iexists (xblk m ρ c)
      isplitr; · ipureintro; rfl
      iexact Hx
    iexact Hout
  · iintro %r3 Hmid
    iapply Hk $$ %(insert (SemLoc.reg barS, ()) W0) %_ %r3
    iexact Hmid

/-- info: 'Cert.KernelIdeal.Ring4.front' depends on axioms: [propext, Classical.choice, Quot.sound] -/
#guard_msgs in #print axioms Cert.KernelIdeal.Ring4.front

end Cert.KernelIdeal.Ring4

end
-- ==== Proof.BodyBack.lean ====
/-
  The second half of one device's body: from the state between the halves, through the third copy, the three
  landings, the maximum of the four rows and the three departures, to the state the device ends in.
-/
import proofs.«900912_g7700000000000913_dist_max_ax0_shard0_i_m1536_n768_v7x_i4_f32_1_alg».proof.Proof.BodyMid

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records; the steps of the second half, one lemma each -/

private theorem cells_elim (K : Dev nD × Fin 9 → ℕ) (ck : Dev nD × Fin 9) :
    (bigSep Finset.univ fun ck : Dev nD × Fin 9 => cellInv ER (ringRd m ρ) (K ck) (kcell ck))
      ⊢ cellInv ER (ringRd m ρ) (K ck) (kcell ck) :=
  bigSep_elim (Φ := fun ck : Dev nD × Fin 9 => cellInv ER (ringRd m ρ) (K ck) (kcell ck)) (Finset.mem_univ ck)

private theorem reached_elim (ck : Dev nD × Fin 9) :
    (bigSep Finset.univ fun ck : Dev nD × Fin 9 => (reached ER (kcell ck) 0 : sProp 𝕄)) ⊢ reached ER (kcell ck) 0 :=
  bigSep_elim (Φ := fun ck : Dev nD × Fin 9 => (reached ER (kcell ck) 0 : sProp 𝕄)) (Finset.mem_univ ck)

/-- Every counter's invariant and its round 0 can be read off the records. -/
private theorem inv_at' (K : Dev nD × Fin 9 → ℕ) (ck : Dev nD × Fin 9) :
    records m ρ K ⊢ cellInv ER (ringRd m ρ) (K ck) (kcell ck) := by
  unfold records
  iintro ⟨H, -⟩
  iapply (cells_elim m ρ K ck) $$ H

private theorem reached_at' (K : Dev nD × Fin 9 → ℕ) (ck : Dev nD × Fin 9) :
    records m ρ K ⊢ reached ER (kcell ck) 0 := by
  unfold records
  iintro ⟨-, H⟩
  iapply (reached_elim (F := F) ck) $$ H

/-- Every row is worth the same credit. -/
private theorem credit_row (o : Fin 4) : (slotM o).view.dmaCredit = N := amount_row o 1

/-- The copy of offset 2, issued by device `c` towards the device `n` two places on: it lends the share `qs 2` of its
    own row, gives up row 2 of `n` (which it holds whole), pays the two duties of the copy, and owes nothing more. -/
private theorem send2_step {α : Type} (K : Dev nD × Fin 9 → ℕ) (c n : Dev nD) (hn : n = shf 2 c) (W : Waits sig Unit)
    (fd : (cc0_scratch0 : Ref sig .tc).ty.Contents (Elt F))
    (ss rs : DmaSem sig) (hss : ss = sendS 2) (hrs : rs = recvS 2)
    (src dst : Memref sig .tc .vmem S1x768 .f32) (hsrcM : src = slotM 0) (hdstM : dst = slotM 2)
    {hsc : dst.view.ref.isScScratch = false} {hsrc : src.view.WordExact} {hdst : dst.view.WordExact}
    {hsem : DmaTarget.Typed .vmem (.dma rs) (.remote (Dev.tc n) dst (.dma ss) hsc)}
    (k : PUnit → Prog (TpuEff nD τ sig (Elt F) Λ₀ .tc) α) (Q : α → sProp 𝕄) :
    iprop(cellInv ER (ringRd m ρ) (K (c, kS 2)) (sendCell c 2) ∗ cellInv ER (ringRd m ρ) (K (shf 2 c, kR 2)) (recvCell (shf 2 c) 2)
        ∗ slotPts c 0 (qs 2) (put 0 (rowS m ρ c)) ∗ slotPts (shf 2 c) 2 fullShare fd
        ∗ owes (c : Thread nD τ) (O₅ c) W
        ∗ dutyTok ER (sendCell c 2) 0 0 ∗ reached ER (sendCell c 2) 0
        ∗ dutyTok ER (recvCell (shf 2 c) 2) 0 0 ∗ reached ER (recvCell (shf 2 c) 2) 0)
      ⊢ iprop(((cred (tallyAt (sendCell c 2) () N) ∗ owes (c : Thread nD τ) 0 W)
            -∗ wp frame (wpE (defs₀ (F := F)) 𝒱₀ c none) Set.univ (k ⟨⟩) Q)
          -∗ wp frame (wpE (defs₀ (F := F)) 𝒱₀ c none) Set.univ
            (.op (.enqueueDma src (.remote (Dev.tc n) dst (.dma ss) hsc) (.dma rs) hsrc hdst hsem) k) Q) := by
  subst hn hss hrs hsrcM hdstM
  have hp1 : ((slotM 0).view.loc (c : Thread nD τ) ↦[(slotM 0).view.set]{qs 2} put 0 (rowS m ρ c) : sProp 𝕄)
      ⊢ (ringRd m ρ).payload (sendCell c 2) 0 0 := by
    rw [payload_send m ρ c 2 (by decide) 0]; exact .rfl
  have hp2 : ((slotM 2).view.loc ((shf 2 c : Dev nD) : Thread nD τ) ↦[(slotM 2).view.set]{fullShare}
        ((slotM 2).view.write (Elt F) fd ((slotM 0).view.read (Elt F) (put 0 (rowS m ρ c))) Finset.univ) : sProp 𝕄)
      ⊢ (ringRd m ρ).payload (recvCell (shf 2 c) 2) 0 0 := by
    rw [payload_recv m ρ (shf 2 c) 2 (by decide) 0]; unfold recvPay; rw [shf_neg_shf]
    exact Entails.of_eq (slotPts_congr (shf 2 c) 2 fullShare _ _ (landing_row 2 fd _ (rowS m ρ c) (fun i _ => rfl)))
  exact wp_send_pointsTo 𝒱₀ ER (ringRd m ρ) (c : Thread nD τ) none
      (c' := ((shf 2 c : Dev nD) : Thread nD τ)) (src := slotM 0) (dst := slotM 2) (q := qs 2)
      (fs := put 0 (rowS m ρ c)) (fd := fd) (r₁ := 0) (r₂ := 0) (d₁ := 0) (d₂ := 0)
      (sS := .dma (sendS 2)) (sem := .dma (recvS 2)) (κ₁ := K (c, kS 2)) (κ₂ := K (shf 2 c, kR 2))
      (by rw [duties_send m ρ c 2 (by decide)]; exact Finset.mem_singleton_self _)
      (by rw [duties_recv m ρ (shf 2 c) 2 (by decide)]; exact Finset.mem_singleton_self _)
      () () N (amount_row 2 2) (amount_send m ρ c 2 0) (amount_recv m ρ (shf 2 c) 2 0)
      0 (by unfold O₅; rw [zero_add]) hp1 hp2

/-- A wait of a row's credit on one of the device's own transfer counters, at the start of its one round and owing
    nothing: the device moves on to round 1 and the round's payloads come back. -/
private theorem wait_step {α : Type} (c : Dev nD) (sm : DmaSem sig) (κ : ℕ) (src dst : Memref sig .tc .vmem S1x768 .f32)
    {hsrc : src.view.WordExact} {hdst : dst.view.WordExact}
    (hcr : dst.view.dmaCredit = N) (hexp : (ringRd (F := F) m ρ).expect ((c : Thread nD τ), .dma sm) 0 = N)
    (W : Waits sig Unit) (k : PUnit → Prog (TpuEff nD τ sig (Elt F) Λ₀ .tc) α) (Q : α → sProp 𝕄) :
    iprop(cellInv ER (ringRd m ρ) κ ((c : Thread nD τ), .dma sm) ∗ cred (tallyAt ((c : Thread nD τ), .dma sm) () N)
        ∗ owes (c : Thread nD τ) 0 W ∗ atPos ER ((c : Thread nD τ), .dma sm) 0 ∅ 0)
      ⊢ iprop(((owes (c : Thread nD τ) 0 (insert (.dma sm, ()) W) ∗ atPos ER ((c : Thread nD τ), .dma sm) (0 + 1) ∅ 0
              ∗ bigSep ((ringRd m ρ).duties ((c : Thread nD τ), .dma sm) 0 \ ∅)
                  (fun d => (ringRd m ρ).payload ((c : Thread nD τ), .dma sm) 0 d))
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  have hw : ∀ Kk : PUnit → sProp 𝕄,
      wpE' (defs₀ (F := F)) 𝒱₀ (c : Thread nD τ) none .empty Set.univ (.waitDma2 sm src dst hsrc hdst) Kk
        = waitSpec (c : Thread nD τ) Set.univ (.dma sm) N Kk := fun Kk => by
    rw [← hcr]; exact wpE_waitDma2_eq 𝒱₀ (c : Thread nD τ) none Set.univ Kk
  iintro ⟨HI, Hc, HO, Hat⟩ Hk
  iapply (wp_wait_rest_token 𝒱₀ ER (ringRd m ρ) (c : Thread nD τ) none hw (Set.mem_univ κ) () (R := 0) (m := 0) (T := ∅)
    (by rw [hexp, Nat.zero_add])) $$ [HI Hc HO Hat]
  · isplitl [HI]; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iexact Hp

/-- The wait for the landing of offset `o`: row `o` comes back, holding the row of the device that sent it. -/
private theorem wait_recv_step {α : Type} (K : Dev nD × Fin 9 → ℕ) (c : Dev nD) (o : Fin 4) (ho : o ≠ 0) (sm : DmaSem sig) (hsm : sm = recvS o)
    (src dst : Memref sig .tc .vmem S1x768 .f32) {hsrc : src.view.WordExact} {hdst : dst.view.WordExact} (hcr : dst.view.dmaCredit = N)
    (W : Waits sig Unit) (k : PUnit → Prog (TpuEff nD τ sig (Elt F) Λ₀ .tc) α) (Q : α → sProp 𝕄) :
    iprop(cellInv ER (ringRd m ρ) (K (c, kR o)) (recvCell c o) ∗ cred (tallyAt (recvCell c o) () N)
        ∗ owes (c : Thread nD τ) 0 W ∗ atPos ER (recvCell c o) 0 ∅ 0)
      ⊢ iprop(((owes (c : Thread nD τ) 0 (insert (.dma (recvS o), ()) W) ∗ atPos ER (recvCell c o) (0 + 1) ∅ 0 ∗ recvPay m ρ c o)
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  subst hsm
  have h := wait_step m ρ c (recvS o) (K (c, kR o)) src dst (hsrc := hsrc) (hdst := hdst) hcr (expect_recv m ρ c o ho) W k Q
  rw [rest_recv m ρ c o ho] at h
  exact h

/-- The wait for the departure of offset `o`: the lent share of the device's own row comes back. -/
private theorem wait_send_step {α : Type} (K : Dev nD × Fin 9 → ℕ) (c : Dev nD) (o : Fin 4) (ho : o ≠ 0) (sm : DmaSem sig) (hsm : sm = sendS o)
    (src dst : Memref sig .tc .vmem S1x768 .f32) {hsrc : src.view.WordExact} {hdst : dst.view.WordExact} (hcr : dst.view.dmaCredit = N)
    (W : Waits sig Unit) (k : PUnit → Prog (TpuEff nD τ sig (Elt F) Λ₀ .tc) α) (Q : α → sProp 𝕄) :
    iprop(cellInv ER (ringRd m ρ) (K (c, kS o)) (sendCell c o) ∗ cred (tallyAt (sendCell c o) () N)
        ∗ owes (c : Thread nD τ) 0 W ∗ atPos ER (sendCell c o) 0 ∅ 0)
      ⊢ iprop(((owes (c : Thread nD τ) 0 (insert (.dma (sendS o), ()) W) ∗ atPos ER (sendCell c o) (0 + 1) ∅ 0 ∗ sendPay m ρ c o)
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  subst hsm
  have h := wait_step m ρ c (sendS o) (K (c, kS o)) src dst (hsrc := hsrc) (hdst := hdst) hcr (expect_send m ρ c o ho) W k Q
  rw [rest_send m ρ c o ho] at h
  exact h

/-- A load of row `o` by whoever holds a share of it. -/
private theorem load_step {α : Type} (c : Dev nD) (o : Fin 4) (q : PosShare TreeShare) (f : (cc0_scratch0 : Ref sig .tc).ty.Contents (Elt F))
    {hl : (scr : Memref sig .tc .vmem S4x1x768 .f32).view.LoadsAt (rcO o).toLoadRect}
    (k : ((rcO o).toLoadRect.shape.Idx → Elt F .f32) → Prog (TpuEff nD τ sig (Elt F) Λ₀ .tc) α) (Q : α → sProp 𝕄) :
    (slotPts c o q f : sProp 𝕄)
      ⊢ iprop((slotPts c o q f -∗ wp frame (wpE (defs₀ (F := F)) 𝒱₀ c none) Set.univ (k (scr.view.readAt (Elt F) (rcO o).toLoadRect f)) Q)
          -∗ wp frame (wpE (defs₀ (F := F)) 𝒱₀ c none) Set.univ (.op (.load scr (rcO o).toLoadRect hl) k) Q) := by
  have hS : (scr : Memref sig .tc .vmem S4x1x768 .f32).view.setOn (rcO o).toLoadRect.set ⊆ (slotM o).view.set := by
    rw [row_set]; exact le_of_eq (View.set_slice _ _).symm
  unfold slotPts
  exact wp_load 𝒱₀ (c : Thread nD τ) none Set.univ (m := scr) (r := (rcO o).toLoadRect) (S := (slotM o).view.set) (q := q) (f := f) hS

/-- The maximum of the four rows read is the kernel's result on device `c`: each row read is the row its sender
    stored, and the rows 1, 2, 3 come from the devices 3, 2, 1 places on. -/
private theorem val_eq (c : Dev nD) :
    k0_pay3 (k0_pay2 (scr.view.readAt (Elt F) (rcO 0).toLoadRect (put 0 (rowS m ρ c))))
      (scr.view.readAt (Elt F) (rcO 1).toLoadRect (put 1 (rowS m ρ (shf (neg 1) c))))
      (scr.view.readAt (Elt F) (rcO 2).toLoadRect (put 2 (rowS m ρ (shf (neg 2) c))))
      (scr.view.readAt (Elt F) (rcO 3).toLoadRect (put 3 (rowS m ρ (shf (neg 3) c)))) = outAt m ρ c := by
  unfold outAt k0_pay3 k0_pay2
  rw [load_row 0 (rowS m ρ c) _ (fun _ _ => rfl), load_row 1 (rowS m ρ (shf (neg 1) c)) _ (fun _ _ => rfl),
    load_row 2 (rowS m ρ (shf (neg 2) c)) _ (fun _ _ => rfl), load_row 3 (rowS m ρ (shf (neg 3) c)) _ (fun _ _ => rfl)]
  rfl

/-- A write of the whole result buffer leaves what was written. -/
private theorem out_write (fo w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) fo w Finset.univ = w :=
  Memref.write_access_unit_zero_univ (Elt F) cc0_stg1_0 (by funext a; fin_cases a <;> rfl) inb_S1x768_S1x768_0_0 fo w

/-- A `bigSep` over the four offsets is its four summands. -/
private theorem fin4_chain (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-! ## The second half -/

/-- The rest of the body runs from `Mid` to the body's end. -/
theorem back (K : Dev nD × Fin 9 → ℕ) (c : Dev nD) (W : Waits sig Unit) (v60 : BitVec 32) (r3 : R3) (Kt : PUnit → sProp 𝕄) :
    iprop(Mid m ρ K c W ∗ (bodyPost m ρ c -∗ Kt ⟨⟩))
      ⊢ wp frame (wpE (defs₀ (F := F)) 𝒱₀ c none) Set.univ (backProg (F := F) c v60 r3) Kt := by
  unfold backProg Mid
  rw [k0_part4_eq_skeleton, k0_part5_eq_skeleton]
  unfold k0_part4_skel k0_part5_skel
  simp only [Prog.lift, Prog.bind_op, Prog.bind_ret, Prog.pure_eq_ret, bind, Prog.bind]
  iintro ⟨⟨#Hrec, ⟨Has0, Has1, Has2, Has3, Har0, Har1, Har2, Har3⟩, ⟨Htr, Hts⟩, ⟨Hc1, Hc2, Hc3, Hcs1, Hcs3⟩, #Hlev, HO, ⟨Hk0, Hk2, ⟨%fd, Hd2⟩⟩, Hx, ⟨%dd, Ho⟩⟩, Hpost⟩
  ihave #Is2 := (inv_at' m ρ K (c, kS 2)) $$ Hrec
  ihave #Ir2' := (inv_at' m ρ K (shf 2 c, kR 2)) $$ Hrec
  ihave #Rs2 := (reached_at' m ρ K (c, kS 2)) $$ Hrec
  ihave #Rr2' := (reached_at' m ρ K (shf 2 c, kR 2)) $$ Hrec
  ihave #Ir1 := (inv_at' m ρ K (c, kR 1)) $$ Hrec
  ihave #Ir2 := (inv_at' m ρ K (c, kR 2)) $$ Hrec
  ihave #Ir3 := (inv_at' m ρ K (c, kR 3)) $$ Hrec
  ihave #Is1 := (inv_at' m ρ K (c, kS 1)) $$ Hrec
  ihave #Is3 := (inv_at' m ρ K (c, kS 3)) $$ Hrec
  ihave #Is0 := (inv_at' m ρ K (c, kS 0)) $$ Hrec
  ihave #Ir0 := (inv_at' m ρ K (c, kR 0)) $$ Hrec
  simp only [kcell_send, kcell_recv]
  -- the copy of offset 2
  iapply (send2_step m ρ K c ⟨k0_dev6 c, k0_dev6_lt c⟩ (dev6_eq c) W fd _ _ sendS2 recvS2 _ _ rfl rfl) $$ [Hk2 Hd2 HO Hts Htr]
  · isplitr; · iexact Is2
    isplitr; · iexact Ir2'
    isplitl [Hk2]; · iexact Hk2
    isplitl [Hd2]; · iexact Hd2
    isplitl [HO]; · iexact HO
    isplitl [Hts]; · iexact Hts
    isplitr; · iexact Rs2
    isplitl [Htr]; · iexact Htr
    iexact Rr2'
  iintro ⟨Hcs2, HO⟩
  -- the landing of offset 1, then rows 0 and 1 read
  iapply (wait_recv_step m ρ K c 1 (by decide) _ recvS1 _ _ (credit_row 1)) $$ [Hc1 HO Har1]
  · isplitr; · iexact Ir1
    isplitl [Hc1]; · iexact Hc1
    isplitl [HO]; · iexact HO
    iexact Har1
  iintro ⟨HO, Har1, Hrow1⟩
  iapply (load_step c 0 (qs 0) _) $$ [Hk0]
  · iexact Hk0
  iintro Hk0
  unfold recvPay
  iapply (load_step c 1 fullShare _) $$ [Hrow1]
  · iexact Hrow1
  iintro Hrow1
  -- the landings of offsets 2 and 3, rows 2 and 3 read
  iapply (wait_recv_step m ρ K c 2 (by decide) _ recvS2 _ _ (credit_row 2)) $$ [Hc2 HO Har2]
  · isplitr; · iexact Ir2
    isplitl [Hc2]; · iexact Hc2
    isplitl [HO]; · iexact HO
    iexact Har2
  iintro ⟨HO, Har2, Hrow2⟩
  unfold recvPay
  iapply (load_step c 2 fullShare _) $$ [Hrow2]
  · iexact Hrow2
  iintro Hrow2
  iapply (wait_recv_step m ρ K c 3 (by decide) _ recvS3 _ _ (credit_row 3)) $$ [Hc3 HO Har3]
  · isplitr; · iexact Ir3
    isplitl [Hc3]; · iexact Hc3
    isplitl [HO]; · iexact HO
    iexact Har3
  iintro ⟨HO, Har3, Hrow3⟩
  unfold recvPay
  iapply (load_step c 3 fullShare _) $$ [Hrow3]
  · iexact Hrow3
  iintro Hrow3
  -- the result's staging buffer read (unused) and written
  unfold stg
  icases Ho with ⟨%fo, %hfo, Ho⟩
  iapply (wp_load 𝒱₀ (c : Thread nD τ) none Set.univ (m := oM) (S := Finset.univ) (q := fullShare) (f := fo) (Finset.subset_univ _)) $$ [Ho]
  · iexact Ho
  iintro Ho
  iapply (wp_store 𝒱₀ (c : Thread nD τ) none Set.univ (m := oM) (S := Finset.univ) (f := fo) (Finset.subset_univ _)) $$ [Ho]
  · iexact Ho
  iintro Ho
  -- the three departures
  iapply (wait_send_step m ρ K c 1 (by decide) _ sendS1 _ _ (credit_row 0)) $$ [Hcs1 HO Has1]
  · isplitr; · iexact Is1
    isplitl [Hcs1]; · iexact Hcs1
    isplitl [HO]; · iexact HO
    iexact Has1
  iintro ⟨HO, Has1, Hq1⟩
  iapply (wait_send_step m ρ K c 2 (by decide) _ sendS2 _ _ (credit_row 0)) $$ [Hcs2 HO Has2]
  · isplitr; · iexact Is2
    isplitl [Hcs2]; · iexact Hcs2
    isplitl [HO]; · iexact HO
    iexact Has2
  iintro ⟨HO, Has2, Hq2⟩
  iapply (wait_send_step m ρ K c 3 (by decide) _ sendS3 _ _ (credit_row 0)) $$ [Hcs3 HO Has3]
  · isplitr; · iexact Is3
    isplitl [Hcs3]; · iexact Hcs3
    isplitl [HO]; · iexact HO
    iexact Has3
  iintro ⟨HO, Has3, Hq3⟩
  unfold sendPay
  -- the eight own counters closed, each read at zero

  imod (cell_close ER (ringRd m ρ) (g := sendCell c 0) (Es := Set.univ) (Set.mem_univ _) (fun h => h) (R := 0) (fun r _ => duties_send0 m ρ c r)) $$ [Has0] with Vs0
  · isplitr; · iexact Is0
    iexact Has0
  imod (cell_close ER (ringRd m ρ) (g := sendCell c 1) (Es := Set.univ) (Set.mem_univ _) (fun h => h) (R := 0 + 1) (fun r hr => duties_later m ρ _ r hr)) $$ [Has1] with Vs1
  · isplitr; · iexact Is1
    iexact Has1
  imod (cell_close ER (ringRd m ρ) (g := sendCell c 2) (Es := Set.univ) (Set.mem_univ _) (fun h => h) (R := 0 + 1) (fun r hr => duties_later m ρ _ r hr)) $$ [Has2] with Vs2
  · isplitr; · iexact Is2
    iexact Has2
  imod (cell_close ER (ringRd m ρ) (g := sendCell c 3) (Es := Set.univ) (Set.mem_univ _) (fun h => h) (R := 0 + 1) (fun r hr => duties_later m ρ _ r hr)) $$ [Has3] with Vs3
  · isplitr; · iexact Is3
    iexact Has3
  imod (cell_close ER (ringRd m ρ) (g := recvCell c 0) (Es := Set.univ) (Set.mem_univ _) (fun h => h) (R := 0) (fun r _ => duties_recv0 m ρ c r)) $$ [Har0] with Vr0
  · isplitr; · iexact Ir0
    iexact Har0
  imod (cell_close ER (ringRd m ρ) (g := recvCell c 1) (Es := Set.univ) (Set.mem_univ _) (fun h => h) (R := 0 + 1) (fun r hr => duties_later m ρ _ r hr)) $$ [Har1] with Vr1
  · isplitr; · iexact Ir1
    iexact Har1
  imod (cell_close ER (ringRd m ρ) (g := recvCell c 2) (Es := Set.univ) (Set.mem_univ _) (fun h => h) (R := 0 + 1) (fun r hr => duties_later m ρ _ r hr)) $$ [Har2] with Vr2
  · isplitr; · iexact Ir2
    iexact Har2
  imod (cell_close ER (ringRd m ρ) (g := recvCell c 3) (Es := Set.univ) (Set.mem_univ _) (fun h => h) (R := 0 + 1) (fun r hr => duties_later m ρ _ r hr)) $$ [Har3] with Vr3
  · isplitr; · iexact Ir3
    iexact Har3
  iapply (le_wp_ret _ _ _ PUnit.unit Kt)
  iapply Hpost
  unfold bodyPost Φ₁
  isplitl [Hk0 Hq1 Hq2 Hq3 Hrow1 Hrow2 Hrow3 Vs0 Vs1 Vs2 Vs3 Vr0 Vr1 Vr2 Vr3]
  · isplitl [Hk0 Hq1 Hq2 Hq3 Hrow1 Hrow2 Hrow3]
    · -- row 0 whole again, then the four rows the scratch
      ihave Hrow0 := (row0_shares c (put 0 (rowS m ρ c))).2 $$ [Hk0 Hq1 Hq2 Hq3]
      · isplitl [Hq1]; · iexact Hq1
        isplitl [Hq2]; · iexact Hq2
        isplitl [Hq3]; · iexact Hq3
        iexact Hk0
      iapply (scr_join c _ _ _ _)
      isplitl [Hrow0]; · iexact Hrow0
      isplitl [Hrow1]; · iexact Hrow1
      isplitl [Hrow2]; · iexact Hrow2
      iexact Hrow3
    · rw [fin4_chain]
      isplitl [Vs0 Vr0]
      · isplitl [Vs0]; · iexact Vs0
        iexact Vr0
      isplitl [Vs1 Vr1]
      · isplitl [Vs1]; · iexact Vs1
        iexact Vr1
      isplitl [Vs2 Vr2]
      · isplitl [Vs2]; · iexact Vs2
        iexact Vr2
      isplitl [Vs3]; · iexact Vs3
      iexact Vr3
  isplitl [HO]
  · iexists _
    isplitr
    rotate_left
    · iexact HO
    · ipureintro; exact fun _ _ => Or.inl trivial
  isplitl [Hx]
  · iexact Hx
  iexists _
  isplitr
  rotate_left
  · iexact Ho
  · ipureintro; exact (out_write _ _).trans (val_eq m ρ c)

/-- info: 'Cert.KernelIdeal.Ring4.back' depends on axioms: [propext, Classical.choice, Quot.sound] -/
#guard_msgs in #print axioms back

end Cert.KernelIdeal.Ring4

end
-- ==== Proof.Body.lean ====
/-
  One device's body from start to end, as the first half followed by the second, and the pipeline's obligation
  for it: the windows' staging buffers and the state at the one point are exactly what the body starts from.
-/
import proofs.«900912_g7700000000000913_dist_max_ax0_shard0_i_m1536_n768_v7x_i4_f32_1_alg».proof.Proof.Tables
import proofs.«900912_g7700000000000913_dist_max_ax0_shard0_i_m1536_n768_v7x_i4_f32_1_alg».proof.Proof.Rows
import proofs.«900912_g7700000000000913_dist_max_ax0_shard0_i_m1536_n768_v7x_i4_f32_1_alg».proof.Proof.BodyFront
import proofs.«900912_g7700000000000913_dist_max_ax0_shard0_i_m1536_n768_v7x_i4_f32_1_alg».proof.Proof.BodyBack

noncomputable section

namespace Cert.KernelIdeal.Ring4

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One device's body, from its start to its end: the first three parts, then the rest. -/
theorem sound_body (K : Dev nD × Fin 9 → ℕ) (c : Dev nD) (Kt : PUnit → sProp 𝕄) :
    iprop(bodyPre m ρ K c ∗ (bodyPost m ρ c -∗ Kt ⟨⟩)) ⊢ wp frame (wpE (defs₀ (F := F)) 𝒱₀ c none) Set.univ (theBody (F := F)) Kt := by
  rw [theBody_eq, wp_bind]
  simp only [wp_bind]
  iintro ⟨Hpre, Hk⟩
  iapply (front m ρ K c (fun d0 v60 r3 => wp frame (wpE (defs₀ (F := F)) 𝒱₀ c none) Set.univ (backProg (F := F) d0 v60 r3) Kt))
  isplitl [Hpre]
  · iexact Hpre
  iintro %W %v60 %r3 Hmid
  iapply (back m ρ K c W v60 r3 Kt)
  isplitl [Hmid]
  · iexact Hmid
  iexact Hk

/-! ## The body obligation -/

/-- A whole staging buffer owned at given contents, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's obligation for device `c`'s body, from `sound_body`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H0, H1, H2, H3, Hlev⟩
      isplitl [H0]; · iexact H0
      isplitl [H1]; · iexact H1
      isplitl [H2]; · iexact H2
      isplitl [H3]; · iexact H3
      isplitl [Hlev]; · iexact Hlev
      iexact Hscr
    isplitl [Ho]; · iexact Ho
    isplitl [Hx] <;> iassumption
  · iintro H; iexact H

/-- info: 'Cert.KernelIdeal.Ring4.sound_body' depends on axioms: [propext, Classical.choice, Quot.sound] -/
#guard_msgs in #print axioms Cert.KernelIdeal.Ring4.sound_body

/-- info: 'Cert.KernelIdeal.Ring4.body_obligation' depends on axioms: [propext, Classical.choice, Quot.sound] -/
#guard_msgs in #print axioms Cert.KernelIdeal.Ring4.body_obligation

end Cert.KernelIdeal.Ring4

end
-- ==== Proof.W.Proto.lean ====
/-
  A maximum over all rows of an array cut across four devices, each holding 1536 of the 6144 rows.

  Every device reduces its block to one row of column maxima and keeps it in row 0 of a four-row scratch. It
  then tells each of the three other devices that it is inside the kernel (a unit on their barrier counter) and
  waits for its own three units; copies its row into row `o` of the device `o` places further on the ring, for
  `o` = 3, 1, 2; waits for the three rows that land in its rows 1, 2, 3; takes the maximum of the four rows; and
  waits until its three copies have left.

  This module fixes the vocabulary of that protocol: the ring, the rows of the scratch as regions, the cells
  (one barrier counter, four send and four receive counters per device), what each counter's units hand to the
  device that waits on it, what each device owes the others when it starts, the levels that order the waits,
  and the state a device starts from and ends in. Row `o` of device `c` is filled by the device `neg o` places on.
-/
import proofs.«900912_g7700000000000913_dist_max_ax0_shard0_i_m1536_n768_v7x_i4_f32_1_alg».proof.Proof.Gen.Kernel
import proofs.«900912_g7700000000000913_dist_max_ax0_shard0_i_m1536_n768_v7x_i4_f32_1_alg».proof.Proof.Gen.Kernel.Skeleton
import proofs.«900912_g7700000000000913_dist_max_ax0_shard0_i_m1536_n768_v7x_i4_f32_1_alg».proof.Proof.Gen.Kernel.Launch
import proofs.«900912_g7700000000000913_dist_max_ax0_shard0_i_m1536_n768_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring of four devices -/

/-- The device `o` places after `c` on the ring of four. -/
def shf (o : Fin 4) (c : Dev nD) : Dev nD := ⟨(c.val + o.val) % 4, Nat.mod_lt _ (by decide)⟩
/-- The offset that undoes `o`. -/
def neg (o : Fin 4) : Fin 4 := ⟨(4 - o.val) % 4, Nat.mod_lt _ (by decide)⟩

theorem shf_neg_shf (o : Fin 4) (c : Dev nD) : shf (neg o) (shf o c) = c := by revert o c; decide
theorem shf_shf_neg (o : Fin 4) (c : Dev nD) : shf o (shf (neg o) c) = c := by revert o c; decide
theorem neg_neg (o : Fin 4) : neg (neg o) = o := by revert o; decide
theorem shf_inj (o : Fin 4) : Function.Injective (shf o) := by revert o; decide
theorem shf_ne_self (o : Fin 4) (ho : o ≠ 0) (c : Dev nD) : shf o c ≠ c := by revert o c; decide

/-- The printed device chains: the three signals go to the devices 1, 2, 3 places on; the three copies to
    the devices 3, 1, 2 places on. -/
theorem dev1_eq (c : Dev nD) : (⟨k0_dev1 c, k0_dev1_lt c⟩ : Dev nD) = shf 1 c := by revert c; decide +kernel
theorem dev2_eq (c : Dev nD) : (⟨k0_dev2 c, k0_dev2_lt c⟩ : Dev nD) = shf 2 c := by revert c; decide +kernel
theorem dev3_eq (c : Dev nD) : (⟨k0_dev3 c, k0_dev3_lt c⟩ : Dev nD) = shf 3 c := by revert c; decide +kernel
theorem dev4_eq (c : Dev nD) : (⟨k0_dev4 c, k0_dev4_lt c⟩ : Dev nD) = shf 3 c := by revert c; decide +kernel
theorem dev5_eq (c : Dev nD) : (⟨k0_dev5 c, k0_dev5_lt c⟩ : Dev nD) = shf 1 c := by revert c; decide +kernel
theorem dev6_eq (c : Dev nD) : (⟨k0_dev6 c, k0_dev6_lt c⟩ : Dev nD) = shf 2 c := by revert c; decide +kernel

/-! ## Memrefs, semaphores, cells -/

abbrev xM : Memref sig .tc .vmem S1536x768 .f32 := Memref.whole cc0_stg0_0
abbrev oM : Memref sig .tc .vmem S1x768 .f32 := Memref.whole cc0_stg1_0
abbrev scr : Memref sig .tc .vmem S4x1x768 .f32 := Memref.whole cc0_scratch0

abbrev rc0 : Rect S4x1x768 := Rect.unit (s := S4x1x768) ![0, 0, 0] S1x1x768.size inb_S4x1x768_S1x1x768_0_0_0
abbrev rc1 : Rect S4x1x768 := Rect.unit (s := S4x1x768) ![1, 0, 0] S1x1x768.size inb_S4x1x768_S1x1x768_1_0_0
abbrev rc2 : Rect S4x1x768 := Rect.unit (s := S4x1x768) ![2, 0, 0] S1x1x768.size inb_S4x1x768_S1x1x768_2_0_0
abbrev rc3 : Rect S4x1x768 := Rect.unit (s := S4x1x768) ![3, 0, 0] S1x1x768.size inb_S4x1x768_S1x1x768_3_0_0

/-- Row `o` of the scratch as the copies see it: the slice squeezed to one row. -/
abbrev sl0 : Memref sig .tc .vmem S1x768 .f32 := (scr.slice rc0 (fun _ => rfl)).squeeze S1x768 squeezes_S1x1x768_S1x768
abbrev sl1 : Memref sig .tc .vmem S1x768 .f32 := (scr.slice rc1 (fun _ => rfl)).squeeze S1x768 squeezes_S1x1x768_S1x768
abbrev sl2 : Memref sig .tc .vmem S1x768 .f32 := (scr.slice rc2 (fun _ => rfl)).squeeze S1x768 squeezes_S1x1x768_S1x768
abbrev sl3 : Memref sig .tc .vmem S1x768 .f32 := (scr.slice rc3 (fun _ => rfl)).squeeze S1x768 squeezes_S1x1x768_S1x768

abbrev barS : Sem sig := (SemArray.scalar (sig.barrier 0 rfl) : Sems sig S_).sem
/-- The send and receive DMA semaphores of offset `o` (the arrays' element `o`). -/
abbrev sendS (o : Fin 4) : DmaSem sig := ⟨2 + o.val, show 2 + o.val < 10 by have := o.isLt; omega⟩
abbrev recvS (o : Fin 4) : DmaSem sig := ⟨6 + o.val, show 6 + o.val < 10 by have := o.isLt; omega⟩

theorem sendS1 : ((cc0_scratch1.slice (Rect.unit (s := S4) ![1] S1.size inb_S4_S1_1)).squeeze S_ squeezes_S1_S_).sem = sendS 1 := by decide
theorem sendS2 : ((cc0_scratch1.slice (Rect.unit (s := S4) ![2] S1.size inb_S4_S1_2)).squeeze S_ squeezes_S1_S_).sem = sendS 2 := by decide
theorem sendS3 : ((cc0_scratch1.slice (Rect.unit (s := S4) ![3] S1.size inb_S4_S1_3)).squeeze S_ squeezes_S1_S_).sem = sendS 3 := by decide
theorem recvS1 : ((cc0_scratch2.slice (Rect.unit (s := S4) ![1] S1.size inb_S4_S1_1)).squeeze S_ squeezes_S1_S_).sem = recvS 1 := by decide
theorem recvS2 : ((cc0_scratch2.slice (Rect.unit (s := S4) ![2] S1.size inb_S4_S1_2)).squeeze S_ squeezes_S1_S_).sem = recvS 2 := by decide
theorem recvS3 : ((cc0_scratch2.slice (Rect.unit (s := S4) ![3] S1.size inb_S4_S1_3)).squeeze S_ squeezes_S1_S_).sem = recvS 3 := by decide

abbrev barCell (c : Dev nD) : GSem nD τ sig := ((c : Thread nD τ), .reg barS)
abbrev sendCell (c : Dev nD) (o : Fin 4) : GSem nD τ sig := ((c : Thread nD τ), .dma (sendS o))
abbrev recvCell (c : Dev nD) (o : Fin 4) : GSem nD τ sig := ((c : Thread nD τ), .dma (recvS o))

/-! ## The slots as a function of the offset -/

theorem rcO_inb (o : Fin 4) : ∀ a, (![o.val, 0, 0] : Fin 3 → Nat) a + S1x1x768.size a ≤ S4x1x768.size a := by
  revert o; decide
/-- Row `o` of the scratch as a rectangle. -/
abbrev rcO (o : Fin 4) : Rect S4x1x768 := Rect.unit (s := S4x1x768) ![o.val, 0, 0] S1x1x768.size (rcO_inb o)
/-- Row `o` of the scratch as the copies see it. -/
abbrev slotM (o : Fin 4) : Memref sig .tc .vmem S1x768 .f32 := (scr.slice (rcO o) (fun _ => rfl)).squeeze S1x768 squeezes_S1x1x768_S1x768

theorem slotM_0 : slotM 0 = sl0 := rfl
theorem slotM_1 : slotM 1 = sl1 := rfl
theorem slotM_2 : slotM 2 = sl2 := rfl
theorem slotM_3 : slotM 3 = sl3 := rfl

/-! ## The resource algebra: the pipeline library's copy and the ring's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s block of the input, as staged. -/
def xblk (c : Dev nD) : (cc0_stg0_0 : Ref sig .tc).ty.Contents (Elt F) :=
  (win0_0.blk (0 : Fin 1)).view.read (Elt F) ((s₀ m ρ).mem ((c : Thread nD τ).loc main_arg0))
/-- Its column maxima, as the one row the kernel stores. -/
def row (c : Dev nD) : FVec F S1x1x768 .f32 := k0_pay1 (xblk m ρ c)
def rowS (c : Dev nD) : FVec F S1x768 .f32 := k0_pay2 (row m ρ c)
/-- The kernel's result on device `c`: the maximum of its own row and the rows of the devices 3, 2, 1 places on
    (which land in its rows 1, 2, 3). -/
def outAt (c : Dev nD) : (cc0_stg1_0 : Ref sig .tc).ty.Contents (Elt F) :=
  k0_pay3 (rowS m ρ c) (row m ρ (shf 3 c)) (row m ρ (shf 2 c)) (row m ρ (shf 1 c))

/-- A fixed background, so that "row `o` holds `v`" is one buffer. -/
def bg : (cc0_scratch0 : Ref sig .tc).ty.Contents (Elt F) := constant S4x1x768 .f32 0#32
/-- The scratch with row `o` holding `v`. -/
def put (o : Fin 4) (v : FVec F S1x768 .f32) : (cc0_scratch0 : Ref sig .tc).ty.Contents (Elt F) :=
  (slotM o).view.write (Elt F) (bg (F := F)) v Finset.univ

/-- Row `o` of device `c`'s scratch at share `q`, holding `f` there. -/
def slotPts (c : Dev nD) (o : Fin 4) (q : PosShare TreeShare) (f : (cc0_scratch0 : Ref sig .tc).ty.Contents (Elt F)) : sProp 𝕄 :=
  (slotM o).view.loc (c : Thread nD τ) ↦[(slotM o).view.set]{q} f

/-- The share of its own row a device lends the copy of offset `o`; it keeps `fullShare.right.right`. -/
def qs : Fin 4 → PosShare TreeShare
  | 1 => fullShare.left.left | 2 => fullShare.left.right | 3 => fullShare.right.left | _ => fullShare.right.right

abbrev N : ℕ := (sl1 : Memref sig .tc .vmem S1x768 .f32).view.dmaCredit

/-! ## The schedule -/

/-- What the device `o` places on hands `c` with its signal: its row `o`, which `c`'s copy of offset `o` fills, and
    that its receive cell `o` is at round 0. -/
def barPay (c : Dev nD) (o : Fin 4) : sProp 𝕄 :=
  iprop((∃ f, slotPts (shf o c) o fullShare f) ∗ reached ER (recvCell (shf o c) o) 0)
/-- A landing in row `o` of `c`: the row of the device that sent it. -/
def recvPay (c : Dev nD) (o : Fin 4) : sProp 𝕄 := slotPts c o fullShare (put o (rowS m ρ (shf (neg o) c)))
/-- A departure: the lent share of `c`'s own row back. -/
def sendPay (c : Dev nD) (o : Fin 4) : sProp 𝕄 := slotPts c 0 (qs o) (put 0 (rowS m ρ c))

def isSend (g : GSem nD τ sig) (o : Fin 4) : Prop := g.1.2 = .tc ∧ g.2 = .dma (sendS o)
def isRecv (g : GSem nD τ sig) (o : Fin 4) : Prop := g.1.2 = .tc ∧ g.2 = .dma (recvS o)
instance (g : GSem nD τ sig) (o : Fin 4) : Decidable (isSend g o) := by unfold isSend; infer_instance
instance (g : GSem nD τ sig) (o : Fin 4) : Decidable (isRecv g o) := by unfold isRecv; infer_instance
abbrev IsBar (g : GSem nD τ sig) : Prop := g.1.2 = .tc ∧ g.2 = .reg barS
abbrev IsXfer (g : GSem nD τ sig) : Prop := ∃ o : Fin 4, o ≠ 0 ∧ (isSend g o ∨ isRecv g o)

/-- One round: a barrier cell has the three unit duties 1, 2, 3 (duty `o` paid by the device `o` places on);
    the send and receive cells of the offsets 1, 2, 3 one duty, `0`, of the row's credit. -/
def ringRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (recvS 1) then recvPay m ρ g.1.1 1
    else if g.2 = .dma (recvS 2) then recvPay m ρ g.1.1 2
    else if g.2 = .dma (recvS 3) then recvPay m ρ g.1.1 3
    else if g.2 = .dma (sendS 1) then sendPay m ρ g.1.1 1
    else if g.2 = .dma (sendS 2) then sendPay m ρ g.1.1 2
    else if g.2 = .dma (sendS 3) then sendPay m ρ g.1.1 3
    else iprop(emp)
  amount_pos g _ _ _ := by
    by_cases h : g.2 = .reg barS
    · rw [if_pos h]; exact Nat.one_pos
    · rw [if_neg h]; exact View.dmaCredit_pos _ (by decide)

/-! ## The cells, enumerated -/

/-- The nine semaphores a device's kernel touches: the barrier, the four send and the four receive semaphores
    (offset 0 of either array is never used). -/
abbrev csem : Fin 9 → SemLoc sig := fun
  | 0 => .reg barS | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)
/-- The index of the send / receive cell of offset `o` in that list. -/
abbrev kS (o : Fin 4) : Fin 9 := ⟨1 + o.val, by have := o.isLt; omega⟩
abbrev kR (o : Fin 4) : Fin 9 := ⟨5 + o.val, by have := o.isLt; omega⟩
theorem kcell_bar (c : Dev nD) : kcell (c, 0) = barCell c := rfl
theorem kcell_send (c : Dev nD) (o : Fin 4) : kcell (c, kS o) = sendCell c o := by fin_cases o <;> rfl
theorem kcell_recv (c : Dev nD) (o : Fin 4) : kcell (c, kR o) = recvCell c o := by fin_cases o <;> rfl

/-- The kernel's OWN (scoped) semaphores, as the launch indexes them: the eight DMA semaphores. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

/-! ## What each device owes at launch; the levels -/

/-- What device `c` owes, summed so that each payment peels the last summand in program order: the three signals
    (to the devices 1, 2, 3 places on), then the copies of offsets 3, 1, 2. -/
def O₅ (c : Dev nD) : CellTallies nD τ sig Unit := tallyAt (recvCell (shf 2 c) 2) () N
def O₄ (c : Dev nD) : CellTallies nD τ sig Unit := O₅ c + tallyAt (recvCell (shf 1 c) 1) () N
def O₃ (c : Dev nD) : CellTallies nD τ sig Unit := O₄ c + tallyAt (recvCell (shf 3 c) 3) () N
def O₂ (c : Dev nD) : CellTallies nD τ sig Unit := O₃ c + tallyAt (barCell (shf 3 c)) () 1
def O₁ (c : Dev nD) : CellTallies nD τ sig Unit := O₂ c + tallyAt (barCell (shf 2 c)) () 1
def O₀ (c : Dev nD) : CellTallies nD τ sig Unit := O₁ c + tallyAt (barCell (shf 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (g.2 = .dma (recvS 1) ∨ g.2 = .dma (recvS 2) ∨ g.2 = .dma (recvS 3)) then 2 else 0

/-! ## The ghost state -/

/-- Every cell's invariant at the names `K`, and that every cell is at round 0 or later: persistent, known to all. -/
def records (K : Dev nD × Fin 9 → ℕ) : sProp 𝕄 :=
  iprop((bigSep Finset.univ fun ck : Dev nD × Fin 9 => cellInv ER (ringRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

/-- The tokens of the duties device `c` pays: for each offset `o` of 1, 2, 3 the barrier duty `neg o` of the device `o`
    places on (its signal), that device's receive duty (its copy's landing) and its own send duty (the departure). -/
def payTok (c : Dev nD) (o : Fin 4) : sProp 𝕄 :=
  iprop(dutyTok ER (barCell (shf o c)) 0 (neg o) ∗ dutyTok ER (recvCell (shf o c) o) 0 0 ∗ dutyTok ER (sendCell c o) 0 0)
def payToks (c : Dev nD) : sProp 𝕄 := iprop(payTok c 1 ∗ payTok c 2 ∗ payTok c 3)
/-- What stays with device `c` alone: its positions at its nine cells, and the tokens it pays with. -/
def linear (c : Dev nD) : sProp 𝕄 :=
  iprop((bigSep Finset.univ fun k : Fin 9 => atPos ER (kcell (c, k)) 0 ∅ 0) ∗ payToks c)
def ghost (K : Dev nD × Fin 9 → ℕ) (c : Dev nD) : sProp 𝕄 := iprop(records m ρ K ∗ linear c)

/-- What device `c`'s body starts from: the ghost state at some names, the credit of its barrier's three units and of
    its three receive cells, and the level facts. -/
def start (c : Dev nD) : sProp 𝕄 :=
  iprop((∃ K, ghost m ρ K c) ∗ cred (tallyAt (barCell c) () 3)
    ∗ cred (tallyAt (recvCell c 1) () N) ∗ cred (tallyAt (recvCell c 2) () N) ∗ cred (tallyAt (recvCell c 3) () N) ∗ levAts L lv)

/-- The scratch, whole, at some contents. -/
def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the scratch whole again, the eight own cells closed with their counters at zero. -/
def Φ₁ (c : Dev nD) : sProp 𝕄 :=
  iprop(scrAny c ∗ bigSep Finset.univ fun o : Fin 4 => iprop(semVal (sendCell c o) 0 ∗ semVal (recvCell c o) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 9 → ℕ) (c : Dev nD) : sProp 𝕄 :=
  iprop((ghost m ρ K c ∗ cred (tallyAt (barCell c) () 3)
      ∗ cred (tallyAt (recvCell c 1) () N) ∗ cred (tallyAt (recvCell c 2) () N) ∗ cred (tallyAt (recvCell c 3) () N) ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xblk m ρ c) ∗ stg c cc0_stg1_0 (outAt m ρ c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.Kernel.Ring4

end
-- ==== Proof.W.Tables.lean ====
/-
  The protocol's tables read entry by entry: which duties each counter has in its one round, how many units each
  is worth, how many units the round expects, and what each hands over; that the waits are ordered (a device waits
  on its barrier counter while it still owes only landings, which sit above it); and that the units the devices owe
  one another at the start add up, per counter, to what its owner waits for.
-/
import proofs.«900912_g7700000000000913_dist_max_ax0_shard0_i_m1536_n768_v7x_i4_f32_1_alg».proof.Proof.W.Proto

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule, entry by entry -/

instance ringRd_payload_storable (g : GSem nD τ sig) (r : ℕ) (d : Fin 4) :
    BI.Storable (upEmb : UEmb _ 𝕄) ((ringRd (F := F) m ρ).payload g r d) := by
  show BI.Storable upEmb (if g.2 = .reg barS then barPay g.1.1 d
    else if g.2 = .dma (recvS 1) then recvPay m ρ g.1.1 1
    else if g.2 = .dma (recvS 2) then recvPay m ρ g.1.1 2
    else if g.2 = .dma (recvS 3) then recvPay m ρ g.1.1 3
    else if g.2 = .dma (sendS 1) then sendPay m ρ g.1.1 1
    else if g.2 = .dma (sendS 2) then sendPay m ρ g.1.1 2
    else if g.2 = .dma (sendS 3) then sendPay m ρ g.1.1 3
    else iprop(emp))
  unfold barPay recvPay sendPay slotPts
  (repeat' split) <;> infer_instance

section Sched
variable (c : Dev nD)

theorem send_ne_bar (o : Fin 4) : (SemLoc.dma (sendS o) : SemLoc sig) ≠ .reg barS := fun h => by cases h
theorem recv_ne_bar (o : Fin 4) : (SemLoc.dma (recvS o) : SemLoc sig) ≠ .reg barS := fun h => by cases h

/-- The send semaphores are the array elements 2 to 5, the receive semaphores 6 to 9: no two coincide. -/
theorem send_ne_recv (o o' : Fin 4) : (SemLoc.dma (sendS o) : SemLoc sig) ≠ .dma (recvS o') := fun h => by
  have e : 2 + o.val = 6 + o'.val := congrArg Fin.val (SemLoc.dma.inj h)
  have := o.isLt; omega
theorem recv_ne_send (o o' : Fin 4) : (SemLoc.dma (recvS o) : SemLoc sig) ≠ .dma (sendS o') := fun h => send_ne_recv o' o h.symm
theorem sendS_inj {o o' : Fin 4} (h : (SemLoc.dma (sendS o) : SemLoc sig) = .dma (sendS o')) : o = o' := by
  have e : 2 + o.val = 2 + o'.val := congrArg Fin.val (SemLoc.dma.inj h)
  exact Fin.ext (by omega)
theorem recvS_inj {o o' : Fin 4} (h : (SemLoc.dma (recvS o) : SemLoc sig) = .dma (recvS o')) : o = o' := by
  have e : 6 + o.val = 6 + o'.val := congrArg Fin.val (SemLoc.dma.inj h)
  exact Fin.ext (by omega)
theorem sendS_ne {o o' : Fin 4} (h : o ≠ o') : (SemLoc.dma (sendS o) : SemLoc sig) ≠ .dma (sendS o') := fun e => h (sendS_inj e)
theorem recvS_ne {o o' : Fin 4} (h : o ≠ o') : (SemLoc.dma (recvS o) : SemLoc sig) ≠ .dma (recvS o') := fun e => h (recvS_inj e)
/-- A nonzero offset is 1, 2 or 3. -/
theorem off_cases (o : Fin 4) (ho : o ≠ 0) : o = 1 ∨ o = 2 ∨ o = 3 := by revert o; decide

theorem not_bar_send (o : Fin 4) : ¬ IsBar (sendCell c o) := fun h => send_ne_bar o h.2
theorem not_bar_recv (o : Fin 4) : ¬ IsBar (recvCell c o) := fun h => recv_ne_bar o h.2
theorem xfer_send (o : Fin 4) (ho : o ≠ 0) : IsXfer (sendCell c o) := ⟨o, ho, Or.inl (And.intro rfl rfl)⟩
theorem xfer_recv (o : Fin 4) (ho : o ≠ 0) : IsXfer (recvCell c o) := ⟨o, ho, Or.inr (And.intro rfl rfl)⟩
theorem not_xfer_send0 : ¬ IsXfer (sendCell c 0) := by
  rintro ⟨o, ho, h | h⟩
  · exact ho (sendS_inj h.2).symm
  · exact send_ne_recv 0 o h.2
theorem not_xfer_recv0 : ¬ IsXfer (recvCell c 0) := by
  rintro ⟨o, ho, h | h⟩
  · exact recv_ne_send 0 o h.2
  · exact ho (recvS_inj h.2).symm

theorem duties_bar : (ringRd (F := F) m ρ).duties (barCell c) 0 = {1, 2, 3} := by
  dsimp only [ringRd]; exact if_pos ⟨rfl, rfl, rfl⟩
theorem duties_send (o : Fin 4) (ho : o ≠ 0) : (ringRd (F := F) m ρ).duties (sendCell c o) 0 = {0} := by
  dsimp only [ringRd]; rw [if_neg (fun h => not_bar_send c o h.2)]; exact if_pos ⟨rfl, xfer_send c o ho⟩
theorem duties_recv (o : Fin 4) (ho : o ≠ 0) : (ringRd (F := F) m ρ).duties (recvCell c o) 0 = {0} := by
  dsimp only [ringRd]; rw [if_neg (fun h => not_bar_recv c o h.2)]; exact if_pos ⟨rfl, xfer_recv c o ho⟩
theorem duties_send0 (r : ℕ) : (ringRd (F := F) m ρ).duties (sendCell c 0) r = ∅ := by
  dsimp only [ringRd]; rw [if_neg (fun h => not_bar_send c 0 h.2), if_neg (fun h => not_xfer_send0 c h.2)]
theorem duties_recv0 (r : ℕ) : (ringRd (F := F) m ρ).duties (recvCell c 0) r = ∅ := by
  dsimp only [ringRd]; rw [if_neg (fun h => not_bar_recv c 0 h.2), if_neg (fun h => not_xfer_recv0 c h.2)]
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 4) : (ringRd (F := F) m ρ).amount (barCell c) 0 d = 1 := by dsimp only [ringRd]; exact if_pos rfl
theorem amount_send (o d : Fin 4) : (ringRd (F := F) m ρ).amount (sendCell c o) 0 d = N := by
  dsimp only [ringRd]; exact if_neg (send_ne_bar o)
theorem amount_recv (o d : Fin 4) : (ringRd (F := F) m ρ).amount (recvCell c o) 0 d = N := by
  dsimp only [ringRd]; exact if_neg (recv_ne_bar o)

theorem expect_bar : (ringRd (F := F) m ρ).expect (barCell c) 0 = 3 := by
  unfold Schedule.expect Schedule.amountOf
  rw [duties_bar, Finset.sum_congr rfl fun d _ => amount_bar m ρ c d, Finset.sum_const, smul_eq_mul, Nat.mul_one]
  decide
theorem expect_send (o : Fin 4) (ho : o ≠ 0) : (ringRd (F := F) m ρ).expect (sendCell c o) 0 = N := by
  unfold Schedule.expect Schedule.amountOf; rw [duties_send m ρ c o ho, Finset.sum_singleton, amount_send]
theorem expect_recv (o : Fin 4) (ho : o ≠ 0) : (ringRd (F := F) m ρ).expect (recvCell c o) 0 = N := by
  unfold Schedule.expect Schedule.amountOf; rw [duties_recv m ρ c o ho, Finset.sum_singleton, amount_recv]

theorem payload_bar (d : Fin 4) : (ringRd (F := F) m ρ).payload (barCell c) 0 d = barPay c d := by
  dsimp only [ringRd]; rw [if_pos rfl]
theorem payload_send (o : Fin 4) (ho : o ≠ 0) (d : Fin 4) : (ringRd (F := F) m ρ).payload (sendCell c o) 0 d = sendPay m ρ c o := by
  dsimp only [ringRd]
  rw [if_neg (send_ne_bar o), if_neg (send_ne_recv o 1), if_neg (send_ne_recv o 2), if_neg (send_ne_recv o 3)]
  rcases off_cases o ho with rfl | rfl | rfl
  · rw [if_pos rfl]
  · rw [if_neg (sendS_ne (o := 2) (o' := 1) (by decide)), if_pos rfl]
  · rw [if_neg (sendS_ne (o := 3) (o' := 1) (by decide)), if_neg (sendS_ne (o := 3) (o' := 2) (by decide)), if_pos rfl]
theorem payload_recv (o : Fin 4) (ho : o ≠ 0) (d : Fin 4) : (ringRd (F := F) m ρ).payload (recvCell c o) 0 d = recvPay m ρ c o := by
  dsimp only [ringRd]
  rw [if_neg (recv_ne_bar o)]
  rcases off_cases o ho with rfl | rfl | rfl
  · rw [if_pos rfl]
  · rw [if_neg (recvS_ne (o := 2) (o' := 1) (by decide)), if_pos rfl]
  · rw [if_neg (recvS_ne (o := 3) (o' := 1) (by decide)), if_neg (recvS_ne (o := 3) (o' := 2) (by decide)), if_pos rfl]

/-- The whole of the barrier counter's round: the rows of the three other devices. -/
theorem rest_bar : bigSep ((ringRd (F := F) m ρ).duties (barCell c) 0 \ ∅) (fun d => (ringRd (F := F) m ρ).payload (barCell c) 0 d)
    = iprop(barPay c 1 ∗ barPay c 2 ∗ barPay c 3) := by
  rw [Finset.sdiff_empty, duties_bar, bigSep_insert (by decide), bigSep_insert (by decide), bigSep_singleton,
    payload_bar, payload_bar, payload_bar]
  rfl
theorem rest_send (o : Fin 4) (ho : o ≠ 0) : bigSep ((ringRd (F := F) m ρ).duties (sendCell c o) 0 \ ∅) (fun d => (ringRd (F := F) m ρ).payload (sendCell c o) 0 d)
    = sendPay m ρ c o := by
  rw [Finset.sdiff_empty, duties_send m ρ c o ho, bigSep_singleton, payload_send m ρ c o ho]
theorem rest_recv (o : Fin 4) (ho : o ≠ 0) : bigSep ((ringRd (F := F) m ρ).duties (recvCell c o) 0 \ ∅) (fun d => (ringRd (F := F) m ρ).payload (recvCell c o) 0 d)
    = recvPay m ρ c o := by
  rw [Finset.sdiff_empty, duties_recv m ρ c o ho, bigSep_singleton, payload_recv m ρ c o ho]

end Sched

/-! ## The levels order the waits -/

theorem L_of_ne (g : GSem nD τ sig) (h : g.1.2 ≠ .tc) : L g = ∅ := if_neg h
theorem L_tc (c : Dev nD) (sm : SemLoc sig) : L ((c : Thread nD τ), sm) = {()} := if_pos rfl

/-- A positive entry of a sum of two tallies is a positive entry of one of them. -/
theorem add_pos_cases {A B : CellTallies nD τ sig Unit} {g : GSem nD τ sig} {u : Unit} (h : 0 < (A + B) g u) :
    0 < A g u ∨ 0 < B g u := by
  rw [Pi.add_apply, Finsupp.add_apply] at h; omega

/-- A positive entry of what a device still owes after its three signals names one of the three landing counters. -/
theorem O₃_pos {c : Dev nD} {g : GSem nD τ sig} {u : Unit} (h : 0 < O₃ c g u) :
    g = recvCell (shf 2 c) 2 ∨ g = recvCell (shf 1 c) 1 ∨ g = recvCell (shf 3 c) 3 := by
  rcases add_pos_cases (show 0 < (O₄ c + tallyAt (recvCell (shf 3 c) 3) () N) g u from h) with h | h
  · rcases add_pos_cases (show 0 < (O₅ c + tallyAt (recvCell (shf 1 c) 1) () N) g u from h) with h | h
    · exact .inl (Pipeline.tallyAt_pos (show 0 < tallyAt (recvCell (shf 2 c) 2) () N g u from h)).1
    · exact .inr (.inl (Pipeline.tallyAt_pos h).1)
  · exact .inr (.inr (Pipeline.tallyAt_pos h).1)

/-- A positive entry of what a device owes at the start names one of six counters: the three landing counters or the
    barrier counters of the three other devices. -/
theorem O₀_pos {c : Dev nD} {g : GSem nD τ sig} {u : Unit} (h : 0 < O₀ c g u) :
    (g = recvCell (shf 2 c) 2 ∨ g = recvCell (shf 1 c) 1 ∨ g = recvCell (shf 3 c) 3)
      ∨ g = barCell (shf 3 c) ∨ g = barCell (shf 2 c) ∨ g = barCell (shf 1 c) := by
  rcases add_pos_cases (show 0 < (O₁ c + tallyAt (barCell (shf 1 c)) () 1) g u from h) with h | h
  · rcases add_pos_cases (show 0 < (O₂ c + tallyAt (barCell (shf 2 c)) () 1) g u from h) with h | h
    · rcases add_pos_cases (show 0 < (O₃ c + tallyAt (barCell (shf 3 c)) () 1) g u from h) with h | h
      · exact .inl (O₃_pos h)
      · exact .inr (.inl (Pipeline.tallyAt_pos h).1)
    · exact .inr (.inr (.inl (Pipeline.tallyAt_pos h).1))
  · exact .inr (.inr (.inr (Pipeline.tallyAt_pos h).1))

/-- The landing counters sit at level 2, the barrier counters at level 1. -/
theorem lv_recv (x : Dev nD) (o : Fin 4) (ho : o ≠ 0) : lv (recvCell x o) () = 2 := by
  dsimp only [lv]; rw [if_neg (recv_ne_bar o)]
  rcases off_cases o ho with rfl | rfl | rfl
  · exact if_pos (.inl rfl)
  · exact if_pos (.inr (.inl rfl))
  · exact if_pos (.inr (.inr rfl))
theorem lv_bar (x : Dev nD) : lv (barCell x) () = 1 := by dsimp only [lv]; exact if_pos rfl

/-- A wait on a counter that is neither the barrier's nor a landing's (a staging or a send counter) is below
    everything a device may still owe. -/
theorem mayWait_stage (c : Dev nD) (q : DmaSem sig) (hq : ∀ o : Fin 4, o ≠ 0 → (SemLoc.dma q : SemLoc sig) ≠ .dma (recvS o))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by
        rw [Finset.mem_singleton.mp hp]; dsimp only [lv]
        rw [if_neg (fun h => by cases h),
          if_neg (fun h => h.elim (hq 1 (by decide)) fun h => h.elim (hq 2 (by decide)) (hq 3 (by decide)))])
      (fun g u hg => by
        rcases O₀_pos hg with (rfl | rfl | rfl) | rfl | rfl | rfl
        · rw [lv_recv _ 2 (by decide)]; decide
        · rw [lv_recv _ 1 (by decide)]; decide
        · rw [lv_recv _ 3 (by decide)]; decide
        · rw [lv_bar]; decide
        · rw [lv_bar]; decide
        · rw [lv_bar]; decide)
  · rw [MayWait_zero]; iintro -; iempintro

/-- At its barrier wait a device owes the three landings only, which sit above the barrier counters. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv _ 2 (by decide)]; decide
      · rw [lv_recv _ 1 (by decide)]; decide
      · rw [lv_recv _ 3 (by decide)]; decide)

/-! ## The units owed at the start, per counter -/

/-- Two tallies at one counter add up at that counter. -/
theorem tallyAt_add_same (g : GSem nD τ sig) (a b : ℕ) :
    (tallyAt g () a + tallyAt g () b : CellTallies nD τ sig Unit) = tallyAt g () (a + b) := by
  unfold tallyAt tallyOn; rw [← Pi.single_add, ← Finsupp.single_add]

/-- What the devices owe device `c`'s counters at the start is what `c` waits for: three units on its barrier counter,
    a row's credit on each of its three receive counters. -/
theorem creds (c : Dev nD) :
    (Pipeline.launchCred O₀ c : sProp 𝕄) ⊢ iprop(cred (tallyAt (barCell c) () 3)
      ∗ cred (tallyAt (recvCell c 1) () N) ∗ cred (tallyAt (recvCell c 2) () N) ∗ cred (tallyAt (recvCell c 3) () N)) := by
  -- What a device owes is a sum of six one-counter tallies, each towards the device a fixed number of places on; summed
  -- over the devices (a shift of the ring is a bijection) each lands once on the matching counter of `c`.
  have e0 : (O₀ : Dev nD → CellTallies nD τ sig Unit) = fun d => O₁ d + tallyAt (barCell (shf 1 d)) () 1 := rfl
  have e1 : (O₁ : Dev nD → CellTallies nD τ sig Unit) = fun d => O₂ d + tallyAt (barCell (shf 2 d)) () 1 := rfl
  have e2 : (O₂ : Dev nD → CellTallies nD τ sig Unit) = fun d => O₃ d + tallyAt (barCell (shf 3 d)) () 1 := rfl
  have e3 : (O₃ : Dev nD → CellTallies nD τ sig Unit) = fun d => O₄ d + tallyAt (recvCell (shf 3 d) 3) () N := rfl
  have e4 : (O₄ : Dev nD → CellTallies nD τ sig Unit) = fun d => O₅ d + tallyAt (recvCell (shf 1 d) 1) () N := rfl
  have e5 : (O₅ : Dev nD → CellTallies nD τ sig Unit) = fun d => tallyAt (recvCell (shf 2 d) 2) () N := rfl
  rw [e0, Pipeline.launchCred_add, e1, Pipeline.launchCred_add, e2, Pipeline.launchCred_add, e3, Pipeline.launchCred_add,
    e4, Pipeline.launchCred_add, e5]
  iintro ⟨⟨⟨⟨⟨H2, H1⟩, H3⟩, B3⟩, B2⟩, B1⟩
  ihave H2 := (Pipeline.launchCred_tallyAt (.dma (recvS 2)) (shf 2) (shf (neg 2)) (shf_shf_neg 2) (shf_neg_shf 2) () N c) $$ H2
  ihave H1 := (Pipeline.launchCred_tallyAt (.dma (recvS 1)) (shf 1) (shf (neg 1)) (shf_shf_neg 1) (shf_neg_shf 1) () N c) $$ H1
  ihave H3 := (Pipeline.launchCred_tallyAt (.dma (recvS 3)) (shf 3) (shf (neg 3)) (shf_shf_neg 3) (shf_neg_shf 3) () N c) $$ H3
  ihave B3 := (Pipeline.launchCred_tallyAt (.reg barS) (shf 3) (shf (neg 3)) (shf_shf_neg 3) (shf_neg_shf 3) () 1 c) $$ B3
  ihave B2 := (Pipeline.launchCred_tallyAt (.reg barS) (shf 2) (shf (neg 2)) (shf_shf_neg 2) (shf_neg_shf 2) () 1 c) $$ B2
  ihave B1 := (Pipeline.launchCred_tallyAt (.reg barS) (shf 1) (shf (neg 1)) (shf_shf_neg 1) (shf_neg_shf 1) () 1 c) $$ B1
  isplitl [B1 B2 B3]
  · rw [show (tallyAt (barCell c) () 3 : CellTallies nD τ sig Unit)
        = tallyAt (barCell c) () 1 + (tallyAt (barCell c) () 1 + tallyAt (barCell c) () 1) from by
      rw [tallyAt_add_same, tallyAt_add_same]]
    iapply (cred_add _ _).2
    isplitl [B1]; · iexact B1
    iapply (cred_add _ _).2
    isplitl [B2]; · iexact B2
    iexact B3
  isplitl [H1]; · iexact H1
  isplitl [H2]; · iexact H2
  iexact H3

/-! ## The axioms each table lemma rests on -/

/-- info: 'Cert.Kernel.Ring4.ringRd_payload_storable' depends on axioms: [propext, Classical.choice, Quot.sound] -/
#guard_msgs in #print axioms ringRd_payload_storable

/-- info: 'Cert.Kernel.Ring4.duties_bar' depends on axioms: [propext, Classical.choice, Quot.sound] -/
#guard_msgs in #print axioms duties_bar

/-- info: 'Cert.Kernel.Ring4.duties_send' depends on axioms: [propext, Classical.choice, Quot.sound] -/
#guard_msgs in #print axioms duties_send

/-- info: 'Cert.Kernel.Ring4.duties_recv' depends on axioms: [propext, Classical.choice, Quot.sound] -/
#guard_msgs in #print axioms duties_recv

/-- info: 'Cert.Kernel.Ring4.duties_send0' depends on axioms: [propext, Classical.choice, Quot.sound] -/
#guard_msgs in #print axioms duties_send0

/-- info: 'Cert.Kernel.Ring4.duties_recv0' depends on axioms: [propext, Classical.choice, Quot.sound] -/
#guard_msgs in #print axioms duties_recv0

/-- info: 'Cert.Kernel.Ring4.duties_later' depends on axioms: [propext, Classical.choice, Quot.sound] -/
#guard_msgs in #print axioms duties_later

/-- info: 'Cert.Kernel.Ring4.amount_bar' depends on axioms: [propext, Classical.choice, Quot.sound] -/
#guard_msgs in #print axioms amount_bar

/-- info: 'Cert.Kernel.Ring4.amount_send' depends on axioms: [propext, Classical.choice, Quot.sound] -/
#guard_msgs in #print axioms amount_send

/-- info: 'Cert.Kernel.Ring4.amount_recv' depends on axioms: [propext, Classical.choice, Quot.sound] -/
#guard_msgs in #print axioms amount_recv

/-- info: 'Cert.Kernel.Ring4.expect_bar' depends on axioms: [propext, Classical.choice, Quot.sound] -/
#guard_msgs in #print axioms expect_bar

/-- info: 'Cert.Kernel.Ring4.expect_send' depends on axioms: [propext, Classical.choice, Quot.sound] -/
#guard_msgs in #print axioms expect_send

/-- info: 'Cert.Kernel.Ring4.expect_recv' depends on axioms: [propext, Classical.choice, Quot.sound] -/
#guard_msgs in #print axioms expect_recv

/-- info: 'Cert.Kernel.Ring4.payload_bar' depends on axioms: [propext, Classical.choice, Quot.sound] -/
#guard_msgs in #print axioms payload_bar

/-- info: 'Cert.Kernel.Ring4.payload_send' depends on axioms: [propext, Classical.choice, Quot.sound] -/
#guard_msgs in #print axioms payload_send

/-- info: 'Cert.Kernel.Ring4.payload_recv' depends on axioms: [propext, Classical.choice, Quot.sound] -/
#guard_msgs in #print axioms payload_recv

/-- info: 'Cert.Kernel.Ring4.rest_bar' depends on axioms: [propext, Classical.choice, Quot.sound] -/
#guard_msgs in #print axioms rest_bar

/-- info: 'Cert.Kernel.Ring4.rest_send' depends on axioms: [propext, Classical.choice, Quot.sound] -/
#guard_msgs in #print axioms rest_send

/-- info: 'Cert.Kernel.Ring4.rest_recv' depends on axioms: [propext, Classical.choice, Quot.sound] -/
#guard_msgs in #print axioms rest_recv

/-- info: 'Cert.Kernel.Ring4.mayWait_stage' depends on axioms: [propext, Classical.choice, Quot.sound] -/
#guard_msgs in #print axioms mayWait_stage

/-- info: 'Cert.Kernel.Ring4.mayWait_bar' depends on axioms: [propext, Classical.choice, Quot.sound] -/
#guard_msgs in #print axioms mayWait_bar

/-- info: 'Cert.Kernel.Ring4.creds' depends on axioms: [propext, Classical.choice, Quot.sound] -/
#guard_msgs in #print axioms creds

end Cert.Kernel.Ring4

end
-- ==== Proof.W.Launch.lean ====
/-
  The launch: from "each device's body is proved" to the run of the whole program on the four devices.

  The ring's ghost state is funded once for the machine: every device's nine counters get a round state, a position
  and a mark, and the duty tokens of its barrier counter (three) and of its send and receive counters of the offsets
  1, 2, 3 (one each). Under one update the thirty-six counters' invariants are allocated, and the tokens are dealt to
  the devices that pay them: the barrier duty `o` of a device goes to the device `o` places on, which signals it
  with its offset `neg o`; a receive duty of offset `o` goes to the device `neg o` places on, whose copy lands
  there; a send duty stays. Each device then starts from its own positions, the tokens it pays with, the credit of
  what the others owe it, and the scratch; it ends with the scratch whole and its eight own counters at zero.
-/
import proofs.«900912_g7700000000000913_dist_max_ax0_shard0_i_m1536_n768_v7x_i4_f32_1_alg».proof.Proof.W.Tables

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the tokens minted for them -/

theorem csem_injective : Function.Injective (csem : Fin 9 → SemLoc sig) := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
/-- The thirty-six counters of the protocol. -/
def ringCells : Finset (GSem nD τ sig) := Finset.univ.map ⟨kcell, kcell_injective⟩

/-- The nine duties of a device's own counters, as (counter, duty): for each offset `o` of 1, 2, 3 the duty `neg o` of
    its barrier counter, and the one duty of its receive and of its send counter of that offset. -/
abbrev tokSem : Fin 9 → SemLoc sig × Fin 4 := fun
  | 0 => (.reg barS, neg 1) | 1 => (.dma (recvS 1), 0) | 2 => (.dma (sendS 1), 0)
  | 3 => (.reg barS, neg 2) | 4 => (.dma (recvS 2), 0) | 5 => (.dma (sendS 2), 0)
  | 6 => (.reg barS, neg 3) | 7 => (.dma (recvS 3), 0) | 8 => (.dma (sendS 3), 0)
theorem tokSem_injective : Function.Injective (tokSem : Fin 9 → SemLoc sig × Fin 4) := by decide
/-- A device's own counters' duty tokens as minted: (counter, round, duty). -/
abbrev tokOf (cj : Dev nD × Fin 9) : GSem nD τ sig × ℕ × Fin 4 := (((cj.1 : Thread nD τ), (tokSem cj.2).1), 0, (tokSem cj.2).2)
theorem tokOf_injective : Function.Injective (tokOf : Dev nD × Fin 9 → GSem nD τ sig × ℕ × Fin 4) := by
  rintro ⟨c, j⟩ ⟨c', j'⟩ h
  have h1 : c = c' := congrArg (fun x : GSem nD τ sig × ℕ × Fin 4 => x.1.1.1) h
  subst h1
  have : j = j' := tokSem_injective (Prod.ext (congrArg (fun x : GSem nD τ sig × ℕ × Fin 4 => x.1.2) h)
    (congrArg (fun x : GSem nD τ sig × ℕ × Fin 4 => x.2.2) h))
  subst this; rfl
def ringToks : Finset (GSem nD τ sig × ℕ × Fin 4) := Finset.univ.map ⟨tokOf, tokOf_injective⟩

/-- The launch element: the pipeline library's copy for the staging cells, the ring's for the protocol's. -/
def u₀ : UU :=
  (initOf (Pipeline.cells cfgs cellOf_inj) (Pipeline.launchToks cfgs cellOf_inj), initOf ringCells ringToks)

/-- The duty tokens of device `c`'s own counters. -/
def toks (c : Dev nD) : sProp 𝕄 :=
  iprop(dutyTok ER (barCell c) 0 (neg 1) ∗ dutyTok ER (recvCell c 1) 0 0 ∗ dutyTok ER (sendCell c 1) 0 0
    ∗ dutyTok ER (barCell c) 0 (neg 2) ∗ dutyTok ER (recvCell c 2) 0 0 ∗ dutyTok ER (sendCell c 2) 0 0
    ∗ dutyTok ER (barCell c) 0 (neg 3) ∗ dutyTok ER (recvCell c 3) 0 0 ∗ dutyTok ER (sendCell c 3) 0 0)

/-- What the launch element deals device `c`. -/
def G (c : Dev nD) : sProp 𝕄 :=
  iprop((bigSep Finset.univ fun k : Fin 9 => roundState ER (ringRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero -/

/-- The four send and the four receive semaphores are the kernel's own eight; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨H, HB⟩
  isplitl [HB]; · iexact HB
  iexact H

/-- Each device's nine invariants allocated from its counters at zero and their round states. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- Moving `o` places along the ring, as a bijection of the devices. -/
def shfE (o : Fin 4) : Dev nD ≃ Dev nD := ⟨shf o, shf (neg o), shf_neg_shf o, shf_shf_neg o⟩

theorem ghost_intro (K : Dev nD × Fin 9 → ℕ) (c : Dev nD) : iprop(records m ρ K ∗ linear c) ⊢ G' m ρ c := by
  unfold G' ghost
  iintro H
  iexists K
  iexact H

/-- The tokens dealt around the ring: the barrier duty `neg o` and the receive duty of offset `o` of a device go to
    the device `neg o` places on, for which that device is the one `o` places on; the send duties stay. -/
theorem toks_around : (bigSep Finset.univ fun c : Dev nD => (toks c : sProp 𝕄)) ⊢ bigSep Finset.univ fun c : Dev nD => payToks c := by
  unfold toks payToks payTok
  simp only [bigSep_sep']
  rw [bigSep_univ_equiv (shfE 1) (fun c : Dev nD => (dutyTok ER (barCell c) 0 (neg 1) : sProp 𝕄)),
    bigSep_univ_equiv (shfE 2) (fun c : Dev nD => (dutyTok ER (barCell c) 0 (neg 2) : sProp 𝕄)),
    bigSep_univ_equiv (shfE 3) (fun c : Dev nD => (dutyTok ER (barCell c) 0 (neg 3) : sProp 𝕄)),
    bigSep_univ_equiv (shfE 1) (fun c : Dev nD => (dutyTok ER (recvCell c 1) 0 0 : sProp 𝕄)),
    bigSep_univ_equiv (shfE 2) (fun c : Dev nD => (dutyTok ER (recvCell c 2) 0 0 : sProp 𝕄)),
    bigSep_univ_equiv (shfE 3) (fun c : Dev nD => (dutyTok ER (recvCell c 3) 0 0 : sProp 𝕄))]
  iintro ⟨B1, R1, S1, B2, R2, S2, B3, R3, S3⟩
  isplitl [B1 R1 S1]
  · isplitl [B1]; · iexact B1
    isplitl [R1]; · iexact R1
    iexact S1
  isplitl [B2 R2 S2]
  · isplitl [B2]; · iexact B2
    isplitl [R2]; · iexact R2
    iexact S2
  isplitl [B3]; · iexact B3
  isplitl [R3]; · iexact R3
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (ringRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  rw [bigSep_fin4]
  iintro ⟨Hr, ⟨S0, R0⟩, ⟨S1, R1⟩, ⟨S2, R2⟩, ⟨S3, R3⟩⟩
  isplitr; · iempintro
  isplitr [Hr]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, for any float values, from any memory with zero counters, given each device's body: every
    weakly fair execution of the program — the four kernels handshaking on the barrier semaphore, then copying their
    rows to one another — terminates, and every final state has each window's array at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Ring4.run_main' depends on axioms: [propext, Classical.choice, Quot.sound] -/
#guard_msgs in #print axioms run_main

/-! ### The final arrays -/

/-- The input array after the run holds what it held: an input window is never written back. -/
theorem finalA_x (c : Dev nD) : finalA m ρ c (0 : Fin 2) = (s₀ m ρ).mem (win0_0.arr.view.loc (c : Thread nD τ)) :=
  (dats (F := F) m ρ 0 c).arrAt_in (0 : Fin 2) rfl _

/-- The output array after the run is what the one point wrote back: the window is the whole array, one block, so the
    write-back overwrites every element with what the body left in the staging buffer. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  refine h.trans ?_
  exact Memref.write_access_unit_zero_univ (Elt F) main_v1 (by funext a; fin_cases a <;> rfl) _ _ _

/-- The run with its values named: on every device the result array ends as the maximum of the four devices' rows, and
    the input array is unchanged. -/
theorem run_vals (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ hbody)

/-- info: 'Cert.Kernel.Ring4.run_vals' depends on axioms: [propext, Classical.choice, Quot.sound] -/
#guard_msgs in #print axioms run_vals

end Cert.Kernel.Ring4

end
-- ==== Proof.W.Rows.lean ====
/-
  The four rows of the scratch as regions of one buffer: the buffer is its four rows; row 0 can be lent in three
  shares while a fourth is kept; a store of a row of column maxima into row 0, a copy's landing in row `o`, and a load
  of row `o` all speak of the same 768 elements, whichever way the row is viewed (as a 1 x 1 x 768 rectangle of
  the buffer or as the 1 x 768 row the copies move).
-/
import proofs.«900912_g7700000000000913_dist_max_ax0_shard0_i_m1536_n768_v7x_i4_f32_1_alg».proof.Proof.W.Proto

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The elements of a row -/

/-- Row `o` as the copies see it covers the rectangle of row `o`: squeezing re-indexes, it moves nothing. -/
theorem slot_set (o : Fin 4) : (slotM o).view.set = (rcO o).set :=
  (View.set_reshape _ _).trans (View.set_slice_whole _ _)

/-- The rectangle of row `o` is the elements whose first coordinate is `o`: on the two other axes it is whole. -/
theorem mem_rcO (o : Fin 4) (i : S4x1x768.Idx) : i ∈ (rcO o).set ↔ (i (0 : Fin 3)).val = o.val := by
  rw [Rect.mem_set_unit]
  have h1 : (i (1 : Fin 3)).val < 1 := (i (1 : Fin 3)).isLt
  have h2 : (i (2 : Fin 3)).val < 768 := (i (2 : Fin 3)).isLt
  constructor
  · intro h
    have h0 : o.val ≤ (i (0 : Fin 3)).val ∧ (i (0 : Fin 3)).val < o.val + 1 := h (0 : Fin 3)
    omega
  · intro h a
    have ha : a = (0 : Fin 3) ∨ a = (1 : Fin 3) ∨ a = (2 : Fin 3) := by revert a; decide
    rcases ha with rfl | rfl | rfl
    · exact (show o.val ≤ (i (0 : Fin 3)).val ∧ (i (0 : Fin 3)).val < o.val + 1 from by omega)
    · exact (show 0 ≤ (i (1 : Fin 3)).val ∧ (i (1 : Fin 3)).val < 0 + 1 from by omega)
    · exact (show 0 ≤ (i (2 : Fin 3)).val ∧ (i (2 : Fin 3)).val < 0 + 768 from by omega)

/-- An element is in row `o` exactly when its first coordinate is `o`. -/
theorem mem_slot (o : Fin 4) (i : S4x1x768.Idx) : i ∈ (slotM o).view.set ↔ (i (0 : Fin 3)).val = o.val := by
  rw [slot_set]; exact mem_rcO o i

/-- The row the copies move and the rectangle the loads and stores go through are the same elements. -/
theorem row_set (o : Fin 4) : (slotM o).view.set = ((scr.access (rcO o) : View sig .tc _ _ _)).set :=
  View.set_reshape _ _

/-- info: 'Cert.Kernel.Ring4.row_set' depends on axioms: [propext, Classical.choice, Quot.sound] -/
#guard_msgs in #print axioms row_set

/-- Two different rows share no element. -/
theorem rows_disjoint (o o' : Fin 4) (h : o ≠ o') : Disjoint (slotM o).view.set (slotM o').view.set :=
  Finset.disjoint_left.mpr fun i hi hi' =>
    h (Fin.ext (((mem_slot o i).mp hi).symm.trans ((mem_slot o' i).mp hi')))

/-- info: 'Cert.Kernel.Ring4.rows_disjoint' depends on axioms: [propext, Classical.choice, Quot.sound] -/
#guard_msgs in #print axioms rows_disjoint

/-- Every element of the scratch is in one of the four rows: its first coordinate is below 4. -/
theorem rows_cover (c : Dev nD) :
    (Finset.univ : Finset (Idx ((c : Thread nD τ).loc cc0_scratch0)))
      = (slotM 0).view.set ∪ ((slotM 1).view.set ∪ ((slotM 2).view.set ∪ (slotM 3).view.set)) := by
  ext i
  refine ⟨fun _ => ?_, fun _ => Finset.mem_univ i⟩
  have h4 : ((i : S4x1x768.Idx) (0 : Fin 3)).val < 4 := ((i : S4x1x768.Idx) (0 : Fin 3)).isLt
  rcases (by omega : ((i : S4x1x768.Idx) (0 : Fin 3)).val = 0 ∨ ((i : S4x1x768.Idx) (0 : Fin 3)).val = 1
      ∨ ((i : S4x1x768.Idx) (0 : Fin 3)).val = 2 ∨ ((i : S4x1x768.Idx) (0 : Fin 3)).val = 3) with h | h | h | h
  · exact Finset.mem_union_left _ ((mem_slot 0 i).mpr h)
  · exact Finset.mem_union_right _ (Finset.mem_union_left _ ((mem_slot 1 i).mpr h))
  · exact Finset.mem_union_right _ (Finset.mem_union_right _ (Finset.mem_union_left _ ((mem_slot 2 i).mpr h)))
  · exact Finset.mem_union_right _ (Finset.mem_union_right _ (Finset.mem_union_right _ ((mem_slot 3 i).mpr h)))

private theorem disj_23 : Disjoint (slotM 2).view.set (slotM 3).view.set := rows_disjoint 2 3 (by decide)
private theorem disj_1 : Disjoint (slotM 1).view.set ((slotM 2).view.set ∪ (slotM 3).view.set) :=
  Finset.disjoint_union_right.mpr ⟨rows_disjoint 1 2 (by decide), rows_disjoint 1 3 (by decide)⟩
private theorem disj_0 : Disjoint (slotM 0).view.set ((slotM 1).view.set ∪ ((slotM 2).view.set ∪ (slotM 3).view.set)) :=
  Finset.disjoint_union_right.mpr ⟨rows_disjoint 0 1 (by decide),
    Finset.disjoint_union_right.mpr ⟨rows_disjoint 0 2 (by decide), rows_disjoint 0 3 (by decide)⟩⟩

/-! ## The buffer and its rows -/

/-- The scratch is its four rows. -/
theorem scr_split (c : Dev nD) (f : (cc0_scratch0 : Ref sig .tc).ty.Contents (Elt F)) :
    ((((c : Thread nD τ).loc cc0_scratch0) ↦{fullShare} f) : sProp 𝕄)
      ⊣⊢ iprop(slotPts c 0 fullShare f ∗ slotPts c 1 fullShare f ∗ slotPts c 2 fullShare f ∗ slotPts c 3 fullShare f) := by
  unfold slotPts
  rw [rows_cover c]
  exact (pointsTo_union (ℓ := (c : Thread nD τ).loc cc0_scratch0) disj_0).trans
    (sep_congr_right ((pointsTo_union (ℓ := (c : Thread nD τ).loc cc0_scratch0) disj_1).trans
      (sep_congr_right (pointsTo_union (ℓ := (c : Thread nD τ).loc cc0_scratch0) disj_23))))

/-- info: 'Cert.Kernel.Ring4.scr_split' depends on axioms: [propext, Classical.choice, Quot.sound] -/
#guard_msgs in #print axioms scr_split

/-- Four rows held whole, at whatever contents, are the scratch at some contents. -/
theorem scr_join (c : Dev nD) (f0 f1 f2 f3 : (cc0_scratch0 : Ref sig .tc).ty.Contents (Elt F)) :
    iprop(slotPts c 0 fullShare f0 ∗ slotPts c 1 fullShare f1 ∗ slotPts c 2 fullShare f2 ∗ slotPts c 3 fullShare f3)
      ⊢ (scrAny c : sProp 𝕄) := by
  unfold slotPts scrAny
  rw [rows_cover c]
  refine (sep_mono_right (sep_mono_right (pointsTo_join (ℓ := (c : Thread nD τ).loc cc0_scratch0) disj_23))).trans ?_
  refine (sep_mono_right (pointsTo_join (ℓ := (c : Thread nD τ).loc cc0_scratch0) disj_1)).trans ?_
  exact exists_intro_trans _ (pointsTo_join (ℓ := (c : Thread nD τ).loc cc0_scratch0) disj_0)

/-- info: 'Cert.Kernel.Ring4.scr_join' depends on axioms: [propext, Classical.choice, Quot.sound] -/
#guard_msgs in #print axioms scr_join

theorem qs_1 : qs 1 = fullShare.left.left := rfl
theorem qs_2 : qs 2 = fullShare.left.right := rfl
theorem qs_3 : qs 3 = fullShare.right.left := rfl
theorem qs_0 : qs 0 = fullShare.right.right := rfl

/-- Row 0 whole is the three lent shares and the kept one. -/
theorem row0_shares (c : Dev nD) (f : (cc0_scratch0 : Ref sig .tc).ty.Contents (Elt F)) :
    (slotPts c 0 fullShare f : sProp 𝕄)
      ⊣⊢ iprop(slotPts c 0 (qs 1) f ∗ slotPts c 0 (qs 2) f ∗ slotPts c 0 (qs 3) f ∗ slotPts c 0 (qs 0) f) := by
  unfold slotPts
  rw [qs_1, qs_2, qs_3, qs_0]
  refine (pointsTo_share (PosShare.mem_left_op_right fullShare)).trans ?_
  refine (sep_congr (pointsTo_share (PosShare.mem_left_op_right fullShare.left))
    (pointsTo_share (PosShare.mem_left_op_right fullShare.right))).trans ?_
  exact sep_assoc

/-- info: 'Cert.Kernel.Ring4.row0_shares' depends on axioms: [propext, Classical.choice, Quot.sound] -/
#guard_msgs in #print axioms row0_shares

/-- Contents that agree on a row are the same to whoever holds only that row. -/
theorem slotPts_congr (c : Dev nD) (o : Fin 4) (q : PosShare TreeShare) (f g : (cc0_scratch0 : Ref sig .tc).ty.Contents (Elt F))
    (h : ∀ i ∈ (slotM o).view.set, f i = g i) : (slotPts c o q f : sProp 𝕄) = slotPts c o q g :=
  pointsTo_congr h

/-- info: 'Cert.Kernel.Ring4.slotPts_congr' depends on axioms: [propext, Classical.choice, Quot.sound] -/
#guard_msgs in #print axioms slotPts_congr

/-! ## A row by its columns

A 1 x 768 row and a 1 x 1 x 768 row have the same 768 elements in the same row-major order; the index of the longer
shape matched with `x` (by row-major position) is written `rowUp x`. Squeezing the slice, casting a loaded or stored
vector between the two shapes, all go through this one matching. -/

/-- The index of the 1 x 1 x 768 row at the row-major position of `x`. -/
abbrev rowUp (x : S1x768.Idx) : S1x1x768.Idx :=
  Shape.reshapeEquiv (s := S1x1x768) (s' := S1x768) squeezes_S1x1x768_S1x768.numel_eq x

/-- The element of row `o` at `x`, through the squeezed slice, is the element of the rectangle of row `o` at `rowUp x`. -/
theorem slot_emb (o : Fin 4) (x : S1x768.Idx) :
    (slotM o).view.emb x = (scr.access (rcO o) : View sig .tc _ _ _).emb (rowUp x) := rfl

/-- The row cast to 1 x 768 is the 1 x 1 x 768 row read at the matched index. -/
theorem pay2_apply (w : FVec F S1x1x768 .f32) (x : S1x768.Idx) : k0_pay2 w x = w (rowUp x) := rfl

/-- Reading row `o` through the squeezed slice or through its rectangle reads the same element. -/
theorem read_slot (o : Fin 4) (f : (cc0_scratch0 : Ref sig .tc).ty.Contents (Elt F)) (x : S1x768.Idx) :
    (slotM o).view.read (Elt F) f x = (scr.access (rcO o) : View sig .tc _ _ _).read (Elt F) f (rowUp x) := rfl

/-- What row `o` holds, read through the squeezed slice, when the contents agree on the row with `put o v`. -/
theorem read_put (o : Fin 4) (v : FVec F S1x768 .f32) (f : (cc0_scratch0 : Ref sig .tc).ty.Contents (Elt F))
    (hf : ∀ i ∈ (slotM o).view.set, f i = put o v i) : (slotM o).view.read (Elt F) f = v := by
  rw [View.read_congr (Val := Elt F) hf]
  unfold put
  exact View.read_write_univ _ _

/-- An element under a view is the image of one of the view's indices. -/
private theorem exists_emb {s : Shape} {e : EltTy} (v : View sig .tc .vmem s e) {i : v.ty.Idx} (h : i ∈ v.set) :
    ∃ y : s.Idx, v.emb y = i := by
  obtain ⟨y, -, e⟩ := Finset.mem_map.mp h; exact ⟨y, e⟩

/-- A store of the row `w` through the rectangle of row 0 leaves, on row 0, the row `k0_pay2 w`. -/
theorem store_row0 (f : (cc0_scratch0 : Ref sig .tc).ty.Contents (Elt F)) (w : FVec F S1x1x768 .f32) :
    ∀ i ∈ (slotM 0).view.set, ((scr.access rc0 : View sig .tc _ _ _).write (Elt F) f w Finset.univ) i = put 0 (k0_pay2 w) i := by
  intro i hi
  obtain ⟨x, rfl⟩ := exists_emb _ hi
  -- both sides are `w` at the matched index: the store wrote it there, and `put` writes the cast row there
  have hL := View.write_emb_of_mem (v := (scr.access (rcO 0) : View sig .tc _ _ _)) (Val := Elt F) f w
    (M := Finset.univ) (x := rowUp x) (Finset.mem_univ _)
  have hR := View.write_emb_of_mem (v := (slotM 0).view) (Val := Elt F) (bg (F := F)) (k0_pay2 w)
    (M := Finset.univ) (x := x) (Finset.mem_univ _)
  rw [pay2_apply] at hR
  rw [← slot_emb] at hL
  exact hL.trans hR.symm

/-- info: 'Cert.Kernel.Ring4.store_row0' depends on axioms: [propext, Classical.choice, Quot.sound] -/
#guard_msgs in #print axioms store_row0

/-- A load of row `o` from contents that hold `v` there reads `v` (once cast to one row). -/
theorem load_row (o : Fin 4) (v : FVec F S1x768 .f32) (f : (cc0_scratch0 : Ref sig .tc).ty.Contents (Elt F))
    (hf : ∀ i ∈ (slotM o).view.set, f i = put o v i) :
    shapeCast S1x768 (scr.view.readAt (Elt F) (rcO o).toLoadRect f) shapeCasts_S1x1x768_S1x768 = v := by
  funext x
  -- the cast reads the load at the matched index, which is row `o` at `x`
  show (scr.access (rcO o) : View sig .tc _ _ _).read (Elt F) f (rowUp x) = v x
  rw [← read_slot, read_put o v f hf]

/-- info: 'Cert.Kernel.Ring4.load_row' depends on axioms: [propext, Classical.choice, Quot.sound] -/
#guard_msgs in #print axioms load_row

/-- A copy of row 0 (holding `v`) into row `o` leaves `v` on row `o`, whatever was there. -/
theorem landing_row (o : Fin 4) (fd fs : (cc0_scratch0 : Ref sig .tc).ty.Contents (Elt F)) (v : FVec F S1x768 .f32)
    (hfs : ∀ i ∈ (slotM 0).view.set, fs i = put 0 v i) :
    ∀ i ∈ (slotM o).view.set, (slotM o).view.write (Elt F) fd ((slotM 0).view.read (Elt F) fs) Finset.univ i = put o v i := by
  rw [read_put 0 v fs hfs]
  intro i hi
  obtain ⟨x, rfl⟩ := exists_emb _ hi
  unfold put
  rw [View.write_emb_of_mem _ _ (Finset.mem_univ x), View.write_emb_of_mem _ _ (Finset.mem_univ x)]

/-- info: 'Cert.Kernel.Ring4.landing_row' depends on axioms: [propext, Classical.choice, Quot.sound] -/
#guard_msgs in #print axioms landing_row

/-- Every row is worth the same credit on a DMA counter. -/
theorem amount_row (o o' : Fin 4) : (slotM o).view.amount (.dma (recvS o')) = N := rfl

/-- info: 'Cert.Kernel.Ring4.amount_row' depends on axioms: [propext, Classical.choice, Quot.sound] -/
#guard_msgs in #print axioms amount_row
end Cert.Kernel.Ring4

end
-- ==== Proof.W.BodyMid.lean ====
/-
  One device's body cut in two: its first three parts (the three signals, the block reduced into row 0 of the
  scratch, the wait for the three units of the barrier counter, the copies of offsets 3 and 1) and the rest (the
  copy of offset 2, the three landings awaited and the four rows read, their maximum stored, the three departures
  awaited). This module names the two programs, shows the body is the one followed by the other, and states what
  the device holds between them.
-/
import proofs.«900912_g7700000000000913_dist_max_ax0_shard0_i_m1536_n768_v7x_i4_f32_1_alg».proof.Proof.W.Tables
import proofs.«900912_g7700000000000913_dist_max_ax0_shard0_i_m1536_n768_v7x_i4_f32_1_alg».proof.Proof.W.Rows

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program, cut after its third part -/

/-- What the first, second and third parts of the body return. -/
abbrev R1 : Type := Σ' (d0 : Dev nD) (v2 : BitVec 32) (v3 : Sems sig S_) (v30 : BitVec 32) (c4_i32_18 : BitVec 32), BitVec 1
abbrev R2 : Type := Σ' (v60 : BitVec 32), BitVec 32
abbrev R3 : Type := Σ' (v81 : BitVec 32) (v92 : BitVec 32) (c4_i32_67 : BitVec 32) (v93 : BitVec 1), BitVec 32

/-- The three signals' first two; the third signal, the block's reduction into row 0 and the barrier wait; the
    copies of offsets 3 and 1. -/
abbrev P1 : Prog (TpuEff nD τ sig (Elt F) Λ₀ .tc) R1 :=
  k0_part1 (F := F) xM (Memref.isWhole_whole _) oM (Memref.isWhole_whole _) scr (Memref.isWhole_whole _) cc0_scratch1 cc0_scratch2
abbrev P2 (r1 : R1) : Prog (TpuEff nD τ sig (Elt F) Λ₀ .tc) R2 :=
  k0_part2 (F := F) xM (Memref.isWhole_whole _) oM (Memref.isWhole_whole _) scr (Memref.isWhole_whole _) cc0_scratch1 cc0_scratch2
    r1.1 r1.2.1 r1.2.2.1 r1.2.2.2.1 r1.2.2.2.2.1 r1.2.2.2.2.2
abbrev P3 (r1 : R1) (r2 : R2) : Prog (TpuEff nD τ sig (Elt F) Λ₀ .tc) R3 :=
  k0_part3 (F := F) xM (Memref.isWhole_whole _) oM (Memref.isWhole_whole _) scr (Memref.isWhole_whole _) cc0_scratch1 cc0_scratch2
    r1.1 r1.2.1 r2.2

/-- The rest of the body at device `d0`: the copy of offset 2, the three waits for the landings with the four
    loads, the maximum stored as the result, and the three waits for the departures. -/
def backProg (d0 : Dev nD) (v60 : BitVec 32) (r3 : R3) : Prog (TpuEff nD τ sig (Elt F) Λ₀ .tc) PUnit := do
  let r4 ← k0_part4 (F := F) xM (Memref.isWhole_whole _) oM (Memref.isWhole_whole _) scr (Memref.isWhole_whole _) cc0_scratch1 cc0_scratch2
    d0 r3.1 r3.2.1 r3.2.2.1 r3.2.2.2.1 r3.2.2.2.2
  k0_part5 (F := F) xM (Memref.isWhole_whole _) oM (Memref.isWhole_whole _) scr (Memref.isWhole_whole _) cc0_scratch1 cc0_scratch2
    v60 r4.1 r4.2
  Prog.lift (.waitDma2 ((cc0_scratch1.slice (Rect.unit (s := S4) ![1] S1.size inb_S4_S1_1)).squeeze S_ squeezes_S1_S_).sem sl1 sl0
    ((View.wordExact_bits rfl).reshape _ _) ((View.wordExact_bits rfl).reshape _ _))
  Prog.lift (.waitDma2 ((cc0_scratch1.slice (Rect.unit (s := S4) ![2] S1.size inb_S4_S1_2)).squeeze S_ squeezes_S1_S_).sem sl2 sl0
    ((View.wordExact_bits rfl).reshape _ _) ((View.wordExact_bits rfl).reshape _ _))
  Prog.lift (.waitDma2 ((cc0_scratch1.slice (Rect.unit (s := S4) ![3] S1.size inb_S4_S1_3)).squeeze S_ squeezes_S1_S_).sem sl3 sl0
    ((View.wordExact_bits rfl).reshape _ _) ((View.wordExact_bits rfl).reshape _ _))
  pure ⟨⟩

set_option maxRecDepth 65536 in
/-- The body is its first three parts followed by the rest. -/
theorem theBody_eq :
    theBody (F := F) = (P1 (F := F) >>= fun r1 => P2 r1 >>= fun r2 => P3 r1 r2 >>= fun r3 => backProg r1.1 r2.1 r3) := by
  show cc0_body (F := F) _ _ _ _ _ _ _ _ = _
  rw [cc0_body_eq_skeleton]
  rfl

/-! ## The state between the second and the third copy -/

/-- Device `c` after its three signals, its barrier wait and its copies of offsets 3 and 1: its eight own counters
    still at the start of round 0, the two tokens of the copy of offset 2 left, the credit of its three landings
    and of the two departures under way, what it still owes (the landing of offset 2), the kept share and the
    share of offset 2 of its own row, row 2 of the device two places on, and the two staging buffers. -/
def Mid (K : Dev nD × Fin 9 → ℕ) (c : Dev nD) (W : Waits sig Unit) : sProp 𝕄 :=
  iprop(records m ρ K
    ∗ (atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0)
    ∗ (dutyTok ER (recvCell (shf 2 c) 2) 0 0 ∗ dutyTok ER (sendCell c 2) 0 0)
    ∗ (cred (tallyAt (recvCell c 1) () N) ∗ cred (tallyAt (recvCell c 2) () N) ∗ cred (tallyAt (recvCell c 3) () N)
      ∗ cred (tallyAt (sendCell c 1) () N) ∗ cred (tallyAt (sendCell c 3) () N))
    ∗ levAts L lv
    ∗ owes (c : Thread nD τ) (O₅ c) W
    ∗ (slotPts c 0 (qs 0) (put 0 (rowS m ρ c)) ∗ slotPts c 0 (qs 2) (put 0 (rowS m ρ c)) ∗ (∃ f, slotPts (shf 2 c) 2 fullShare f))
    ∗ stg c cc0_stg0_0 (xblk m ρ c)
    ∗ (∃ d, stg c cc0_stg1_0 ((dats m ρ 0 c).before (1 : Fin 2) t₀ d)))

end Cert.Kernel.Ring4

end
-- ==== Proof.W.BodyAft.lean ====
/-
  The first half of one device's body cut once more, after its barrier wait: what the device holds there, before
  it splits its own row into shares and issues its first two copies.
-/
import proofs.«900912_g7700000000000913_dist_max_ax0_shard0_i_m1536_n768_v7x_i4_f32_1_alg».proof.Proof.W.BodyMid

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The state after the barrier wait; the two copies of the third part alone -/

/-- Device `c` after its three signals, the reduction of its block into row 0 and its barrier wait: its eight own
    counters still at the start of round 0, the six tokens of its three copies, the credit of its three landings, what
    it still owes (the three landings), its own row whole, row `o` of the device `o` places on for `o` = 1, 2, 3, and
    the two staging buffers. -/
def Aft2 (K : Dev nD × Fin 9 → ℕ) (c : Dev nD) (W : Waits sig Unit) : sProp 𝕄 :=
  iprop(records m ρ K
    ∗ (atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0)
    ∗ ((dutyTok ER (recvCell (shf 1 c) 1) 0 0 ∗ dutyTok ER (sendCell c 1) 0 0)
      ∗ (dutyTok ER (recvCell (shf 2 c) 2) 0 0 ∗ dutyTok ER (sendCell c 2) 0 0)
      ∗ (dutyTok ER (recvCell (shf 3 c) 3) 0 0 ∗ dutyTok ER (sendCell c 3) 0 0))
    ∗ (cred (tallyAt (recvCell c 1) () N) ∗ cred (tallyAt (recvCell c 2) () N) ∗ cred (tallyAt (recvCell c 3) () N))
    ∗ levAts L lv
    ∗ owes (c : Thread nD τ) (O₃ c) W
    ∗ slotPts c 0 fullShare (put 0 (rowS m ρ c))
    ∗ ((∃ f, slotPts (shf 1 c) 1 fullShare f) ∗ (∃ f, slotPts (shf 2 c) 2 fullShare f) ∗ (∃ f, slotPts (shf 3 c) 3 fullShare f))
    ∗ stg c cc0_stg0_0 (xblk m ρ c)
    ∗ (∃ d, stg c cc0_stg1_0 ((dats m ρ 0 c).before (1 : Fin 2) t₀ d)))

end Cert.Kernel.Ring4

end
-- ==== Proof.W.BodySends.lean ====
/-
  The third part of one device's body alone: its own row split into the three lent shares and the kept one, and
  the copies of offsets 3 and 1 issued into the rows the devices 3 and 1 places on handed over at the barrier.
-/
import proofs.«900912_g7700000000000913_dist_max_ax0_shard0_i_m1536_n768_v7x_i4_f32_1_alg».proof.Proof.W.BodyAft

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records -/

/-- The invariant of any one of the cells, out of the records. -/
theorem recInv (K : Dev nD × Fin 9 → ℕ) (ck : Dev nD × Fin 9) :
    records m ρ K ⊢ cellInv ER (ringRd m ρ) (K ck) (kcell ck) := by
  unfold records
  exact (BI.sep_and.trans BI.and_elimL).trans (BI.bigSep_elim (Finset.mem_univ ck))

/-- That any one of the cells is at round 0 or later, out of the records. -/
theorem recReached (K : Dev nD × Fin 9 → ℕ) (ck : Dev nD × Fin 9) :
    records m ρ K ⊢ reached ER (kcell ck) 0 := by
  unfold records
  exact (BI.sep_and.trans BI.and_elimR).trans (BI.bigSep_elim (Finset.mem_univ ck))

/-! ## One copy out -/

/-- The copy of offset `o` (1, 2 or 3), issued by device `c` at the device `x` that is `o` places on: it lends the
    share `qs o` of its own row, holds row `o` of that device whole at whatever contents, owes the landing, and pays
    with its two tokens of offset `o`; it is left with the credit of the departure and owes the landing no more.
    What lands is the row read off the lent share written over row `o`, which on row `o` is the row itself. -/
theorem copy_out (K : Dev nD × Fin 9 → ℕ) (c : Dev nD) (o : Fin 4) (ho : o ≠ 0) (x : Dev nD) (hx : x = shf o c)
    (sS sR : DmaSem sig) (hS : sS = sendS o) (hR : sR = recvS o)
    (hsc : (slotM o).view.ref.isScScratch = false) (hsrc : (slotM 0).view.WordExact) (hdst : (slotM o).view.WordExact)
    (hsem : (DmaTarget.remote (x : Thread nD τ) (slotM o) (.dma sS) hsc : DmaTarget nD τ sig .tc .vmem S1x768 .f32).Typed .vmem (.dma sR))
    {α : Type} (k : PUnit → Prog (TpuEff nD τ sig (Elt F) Λ₀ .tc) α) (Q : α → sProp 𝕄)
    (W : Waits sig Unit) (O : CellTallies nD τ sig Unit) (fd : (cc0_scratch0 : Ref sig .tc).ty.Contents (Elt F)) :
    iprop(records m ρ K ∗ slotPts c 0 (qs o) (put 0 (rowS m ρ c)) ∗ slotPts (shf o c) o fullShare fd
        ∗ owes (c : Thread nD τ) (O + tallyAt (recvCell (shf o c) o) () N) W
        ∗ dutyTok ER (sendCell c o) 0 0 ∗ dutyTok ER (recvCell (shf o c) o) 0 0
        ∗ ((cred (tallyAt (sendCell c o) () N) ∗ owes (c : Thread nD τ) O W)
            -∗ wp frame (wpE (defs₀ (F := F)) 𝒱₀ c none) Set.univ (k ⟨⟩) Q))
      ⊢ wp frame (wpE (defs₀ (F := F)) 𝒱₀ c none) Set.univ
          (.op (.enqueueDma (slotM 0) (.remote (x : Thread nD τ) (slotM o) (.dma sS) hsc) (.dma sR) hsrc hdst hsem) k) Q := by
  subst hx hS hR
  have hI₁ : records m ρ K ⊢ cellInv ER (ringRd m ρ) (K (c, kS o)) (sendCell c o) := by
    rw [← kcell_send]; exact recInv m ρ K (c, kS o)
  have hI₂ : records m ρ K ⊢ cellInv ER (ringRd m ρ) (K (shf o c, kR o)) (recvCell (shf o c) o) := by
    rw [← kcell_recv]; exact recInv m ρ K (shf o c, kR o)
  have hR₁ : records m ρ K ⊢ reached ER (sendCell c o) 0 := by
    rw [← kcell_send]; exact recReached m ρ K (c, kS o)
  have hR₂ : records m ρ K ⊢ reached ER (recvCell (shf o c) o) 0 := by
    rw [← kcell_recv]; exact recReached m ρ K (shf o c, kR o)
  have hd₁ : (0 : Fin 4) ∈ (ringRd (F := F) m ρ).duties (sendCell c o) 0 := by
    rw [duties_send m ρ c o ho]; exact Finset.mem_singleton_self _
  have hd₂ : (0 : Fin 4) ∈ (ringRd (F := F) m ρ).duties (recvCell (shf o c) o) 0 := by
    rw [duties_recv m ρ (shf o c) o ho]; exact Finset.mem_singleton_self _
  have hpay₁ : (((slotM 0).view.loc (c : Thread nD τ) ↦[(slotM 0).view.set]{qs o} put 0 (rowS m ρ c)) : sProp 𝕄)
      ⊢ (ringRd (F := F) m ρ).payload (sendCell c o) 0 0 := by
    rw [payload_send m ρ c o ho]; unfold sendPay slotPts; exact .rfl
  have hpay₂ : (((slotM o).view.loc ((shf o c : Dev nD) : Thread nD τ) ↦[(slotM o).view.set]{fullShare}
        ((slotM o).view.write (Elt F) fd ((slotM 0).view.read (Elt F) (put 0 (rowS m ρ c))) Finset.univ)) : sProp 𝕄)
      ⊢ (ringRd (F := F) m ρ).payload (recvCell (shf o c) o) 0 0 := by
    rw [payload_recv m ρ (shf o c) o ho]; unfold recvPay
    rw [shf_neg_shf]
    exact Entails.of_eq (slotPts_congr (shf o c) o fullShare _ _
      (landing_row o fd (put 0 (rowS m ρ c)) (rowS m ρ c) (fun _ _ => rfl)))
  unfold slotPts
  iintro ⟨#Hrec, Hsrc, Hdst, Ho, Hts, Htr, Hk⟩
  iapply (Rounds.wp_send_pointsTo 𝒱₀ ER (ringRd m ρ) (c : Thread nD τ) none
      (c' := ((shf o c : Dev nD) : Thread nD τ)) (src := slotM 0) (dst := slotM o) (q := qs o)
      (fs := put 0 (rowS m ρ c)) (fd := fd) (r₁ := 0) (r₂ := 0) (d₁ := 0) (d₂ := 0)
      (κ₁ := K (c, kS o)) (κ₂ := K (shf o c, kR o)) hd₁ hd₂ () () N (amount_row o o)
      (amount_send m ρ c o 0) (amount_recv m ρ (shf o c) o 0) O rfl hpay₁ hpay₂) $$ [Hsrc Hdst Ho Hts Htr]
  · isplitr; · iapply hI₁; iexact Hrec
    isplitr; · iapply hI₂; iexact Hrec
    isplitl [Hsrc]; · iexact Hsrc
    isplitl [Hdst]; · iexact Hdst
    isplitl [Ho]; · iexact Ho
    isplitl [Hts]; · iexact Hts
    isplitr; · iapply hR₁; iexact Hrec
    isplitl [Htr]; · iexact Htr
    iapply hR₂; iexact Hrec
  iexact Hk

/-- The third part alone: row 0 split into its shares, the copies of offsets 3 and 1 issued. The two words the part
    is handed are never read by it. -/
theorem sends (K : Dev nD × Fin 9 → ℕ) (c : Dev nD) (W : Waits sig Unit) (v2 v61 : BitVec 32) (Ψ : R3 → sProp 𝕄) :
    iprop(Aft2 m ρ K c W ∗ (∀ r3, Mid m ρ K c W -∗ Ψ r3))
      ⊢ wp frame (wpE (defs₀ (F := F)) 𝒱₀ c none) Set.univ
          (k0_part3 (F := F) xM (Memref.isWhole_whole _) oM (Memref.isWhole_whole _) scr (Memref.isWhole_whole _) cc0_scratch1 cc0_scratch2 c v2 v61) Ψ := by
  unfold Aft2
  iintro ⟨⟨#Hrec, Hpos, ⟨⟨Htr1, Hts1⟩, ⟨Htr2, Hts2⟩, ⟨Htr3, Hts3⟩⟩, ⟨Hc1, Hc2, Hc3⟩, #Hlev, Ho, Hrow0, ⟨Hr1, Hr2, Hr3⟩, Hx, Hout⟩, Hk⟩
  icases Hr1 with ⟨%f1, Hr1⟩
  icases Hr3 with ⟨%f3, Hr3⟩
  ihave Hsh := (row0_shares c (put 0 (rowS m ρ c))).1 $$ Hrow0
  icases Hsh with ⟨Hq1, Hq2, Hq3, Hq0⟩
  rw [k0_part3_eq_skeleton]
  unfold k0_part3_skel
  simp only [Prog.lift, Prog.bind_op, Prog.bind_ret, Prog.pure_eq_ret]
  -- the copy of offset 3, into row 3 of the device three places on
  iapply (copy_out m ρ K c 3 (by decide) ⟨k0_dev4 c, k0_dev4_lt c⟩ (dev4_eq c) _ _ sendS3 recvS3 _ _ _ _ _ Ψ W (O₄ c) f3)
  isplitr; · iexact Hrec
  isplitl [Hq3]; · iexact Hq3
  isplitl [Hr3]; · iexact Hr3
  isplitl [Ho]; · iexact Ho
  isplitl [Hts3]; · iexact Hts3
  isplitl [Htr3]; · iexact Htr3
  iintro ⟨Hs3, Ho⟩
  -- the copy of offset 1, into row 1 of the device one place on
  iapply (copy_out m ρ K c 1 (by decide) ⟨k0_dev5 c, k0_dev5_lt c⟩ (dev5_eq c) _ _ sendS1 recvS1 _ _ _ _ _ Ψ W (O₅ c) f1)
  isplitr; · iexact Hrec
  isplitl [Hq1]; · iexact Hq1
  isplitl [Hr1]; · iexact Hr1
  isplitl [Ho]; · iexact Ho
  isplitl [Hts1]; · iexact Hts1
  isplitl [Htr1]; · iexact Htr1
  iintro ⟨Hs1, Ho⟩
  rw [wp_ret]; imodintro
  iapply Hk
  unfold Mid
  isplitr; · iexact Hrec
  isplitl [Hpos]; · iexact Hpos
  isplitl [Htr2 Hts2]
  · isplitl [Htr2]; · iexact Htr2
    iexact Hts2
  isplitl [Hc1 Hc2 Hc3 Hs1 Hs3]
  · isplitl [Hc1]; · iexact Hc1
    isplitl [Hc2]; · iexact Hc2
    isplitl [Hc3]; · iexact Hc3
    isplitl [Hs1]; · iexact Hs1
    iexact Hs3
  isplitr; · iexact Hlev
  isplitl [Ho]; · iexact Ho
  isplitl [Hq0 Hq2 Hr2]
  · isplitl [Hq0]; · iexact Hq0
    isplitl [Hq2]; · iexact Hq2
    iexact Hr2
  isplitl [Hx]; · iexact Hx
  iexact Hout

/-- info: 'Cert.Kernel.Ring4.sends' depends on axioms: [propext, Classical.choice, Quot.sound] -/
#guard_msgs in #print axioms Cert.Kernel.Ring4.sends

end Cert.Kernel.Ring4

end
-- ==== Proof.W.BodyFront.lean ====
/-
  The first half of one device's body: from the state the device starts in, through its three signals, the
  reduction of its block into row 0, its barrier wait and its first two copies, to the state between the halves.
-/
import proofs.«900912_g7700000000000913_dist_max_ax0_shard0_i_m1536_n768_v7x_i4_f32_1_alg».proof.Proof.W.BodySends

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the ghost state -/

omit [FloatOps F] in
/-- The nine positions one by one. -/
theorem pos9 (c : Dev nD) :
    (bigSep Finset.univ fun k : Fin 9 => (atPos ER (kcell (c, k)) 0 ∅ 0 : sProp 𝕄))
      = iprop(atPos ER (barCell c) 0 ∅ 0
        ∗ atPos ER (sendCell c 0) 0 ∅ 0 ∗ atPos ER (sendCell c 1) 0 ∅ 0 ∗ atPos ER (sendCell c 2) 0 ∅ 0 ∗ atPos ER (sendCell c 3) 0 ∅ 0
        ∗ atPos ER (recvCell c 0) 0 ∅ 0 ∗ atPos ER (recvCell c 1) 0 ∅ 0 ∗ atPos ER (recvCell c 2) 0 ∅ 0 ∗ atPos ER (recvCell c 3) 0 ∅ 0) := by
  rw [BI.bigSep_univ_eq_bigSepL [0, 1, 2, 3, 4, 5, 6, 7, 8] (by decide) (by decide)]
  rfl

/-- Every cell's invariant and its round 0 can be read off the records. -/
theorem inv_at (K : Dev nD × Fin 9 → ℕ) (ck : Dev nD × Fin 9) :
    records m ρ K ⊢ cellInv ER (ringRd m ρ) (K ck) (kcell ck) := by
  unfold records
  exact (BI.sep_and.trans BI.and_elimL).trans (BI.bigSep_elim (Finset.mem_univ ck))

theorem reached_at (K : Dev nD × Fin 9 → ℕ) (ck : Dev nD × Fin 9) :
    records m ρ K ⊢ reached ER (kcell ck) 0 := by
  unfold records
  exact (BI.sep_and.trans BI.and_elimR).trans (BI.bigSep_elim (Finset.mem_univ ck))

omit [FloatOps F] in
theorem neg_1 : neg 1 = 3 := by decide
omit [FloatOps F] in
theorem neg_2 : neg 2 = 2 := by decide
omit [FloatOps F] in
theorem neg_3 : neg 3 = 1 := by decide

omit [FloatOps F] in
theorem shf31 (c : Dev nD) : shf 3 (shf 1 c) = c := by revert c; decide
omit [FloatOps F] in
theorem shf22 (c : Dev nD) : shf 2 (shf 2 c) = c := by revert c; decide
omit [FloatOps F] in
theorem shf13 (c : Dev nD) : shf 1 (shf 3 c) = c := by revert c; decide

/-- What the body finds in the input's staging buffer: device `c`'s block. -/
theorem before0 (c : Dev nD) (d : (cfg0.win (0 : Fin 2)).block.Idx → Elt F (cfg0.win (0 : Fin 2)).elt) :
    (dats m ρ 0 c).before (0 : Fin 2) t₀ d = xblk m ρ c := by
  unfold Dat.before; rw [if_pos (Gen.fetch0_0 t₀)]; rfl

theorem front (K : Dev nD × Fin 9 → ℕ) (c : Dev nD) (Φ : Dev nD → BitVec 32 → R3 → sProp 𝕄) :
    iprop(bodyPre m ρ K c ∗ (∀ W v60 r3, Mid m ρ K c W -∗ Φ c v60 r3))
      ⊢ wp frame (wpE (defs₀ (F := F)) 𝒱₀ c none) Set.univ (P1 (F := F)) fun r1 =>
          wp frame (wpE (defs₀ (F := F)) 𝒱₀ c none) Set.univ (P2 r1) fun r2 =>
            wp frame (wpE (defs₀ (F := F)) 𝒱₀ c none) Set.univ (P3 r1 r2) fun r3 => Φ r1.1 r2.1 r3 := by
  unfold bodyPre ghost linear payToks payTok
  rw [pos9, neg_1, neg_2, neg_3]
  iintro ⟨⟨⟨⟨#Hrec, ⟨Hpb, Hps0, Hps1, Hps2, Hps3, Hpr0, Hpr1, Hpr2, Hpr3⟩, ⟨Htb1, Htr1, Hts1⟩, ⟨Htb2, Htr2, Hts2⟩, ⟨Htb3, Htr3, Hts3⟩⟩,
    Hcb, Hc1, Hc2, Hc3, #Hlev, Hscr⟩, Ho, Hx, Hout⟩, Hk⟩
  unfold scrAny
  icases Hscr with ⟨%f0, Hscr⟩
  icases Ho with ⟨%W0, %hW0, Ho⟩
  rw [show (dats m ρ 0 c).owed t₀.castSucc = O₀ c from rfl]
  ihave Hrows := (Ring4.scr_split c f0).1 $$ Hscr
  icases Hrows with ⟨Hrow0, Hrow1, Hrow2, Hrow3⟩
  unfold P1
  rw [k0_part1_eq_skeleton]
  unfold k0_part1_skel
  simp only [semSignalWord, semWaitWord, Prog.lift, Prog.bind_op, Prog.bind_ret, Prog.pure_eq_ret, wp_deviceId, dev1_eq, dev2_eq]
  -- the signal to the device one place on: it hands over row 3, which that device's copy of offset 3 fills
  iapply (Rounds.wp_signal 𝒱₀ ER (ringRd m ρ) (c : Thread nD τ) none (dst := ((shf 1 c : Dev nD) : Thread nD τ)) (sem := barS) (r := 0) (d := 3)
      (κ := K (shf 1 c, 0)) (by rw [duties_bar]; decide) (amount_bar m ρ (shf 1 c) 3) () (O₁ c) rfl) $$ [Htb1 Hrow3 Ho]
  · isplitr
    · iapply (inv_at m ρ K (shf 1 c, 0)); iexact Hrec
    isplitl [Ho]; · iexact Ho
    isplitl [Htb1]; · iexact Htb1
    isplitl [Hrow3]
    · rw [payload_bar]; unfold barPay
      rw [shf31]
      isplitl [Hrow3]
      · iexists f0; iexact Hrow3
      · iapply (reached_at m ρ K (c, kR 3)); iexact Hrec
    · iapply (reached_at m ρ K (shf 1 c, 0)); iexact Hrec
  iintro Ho
  -- the signal to the device two places on: row 2
  iapply (Rounds.wp_signal 𝒱₀ ER (ringRd m ρ) (c : Thread nD τ) none (dst := ((shf 2 c : Dev nD) : Thread nD τ)) (sem := barS) (r := 0) (d := 2)
      (κ := K (shf 2 c, 0)) (by rw [duties_bar]; decide) (amount_bar m ρ (shf 2 c) 2) () (O₂ c) rfl) $$ [Htb2 Hrow2 Ho]
  · isplitr
    · iapply (inv_at m ρ K (shf 2 c, 0)); iexact Hrec
    isplitl [Ho]; · iexact Ho
    isplitl [Htb2]; · iexact Htb2
    isplitl [Hrow2]
    · rw [payload_bar]; unfold barPay
      rw [shf22]
      isplitl [Hrow2]
      · iexists f0; iexact Hrow2
      · iapply (reached_at m ρ K (c, kR 2)); iexact Hrec
    · iapply (reached_at m ρ K (shf 2 c, 0)); iexact Hrec
  iintro Ho
  -- the second part
  simp only [wp_ret, fupd_wp_eq]
  unfold P2
  rw [k0_part2_eq_skeleton]
  unfold k0_part2_skel
  simp only [semSignalWord, semWaitWord, Prog.lift, Prog.bind_op, Prog.bind_ret, Prog.pure_eq_ret, dev3_eq]
  -- the signal to the device three places on: row 1
  iapply (Rounds.wp_signal 𝒱₀ ER (ringRd m ρ) (c : Thread nD τ) none (dst := ((shf 3 c : Dev nD) : Thread nD τ)) (sem := barS) (r := 0) (d := 1)
      (κ := K (shf 3 c, 0)) (by rw [duties_bar]; decide) (amount_bar m ρ (shf 3 c) 1) () (O₃ c) rfl) $$ [Htb3 Hrow1 Ho]
  · isplitr
    · iapply (inv_at m ρ K (shf 3 c, 0)); iexact Hrec
    isplitl [Ho]; · iexact Ho
    isplitl [Htb3]; · iexact Htb3
    isplitl [Hrow1]
    · rw [payload_bar]; unfold barPay
      rw [shf13]
      isplitl [Hrow1]
      · iexists f0; iexact Hrow1
      · iapply (reached_at m ρ K (c, kR 1)); iexact Hrec
    · iapply (reached_at m ρ K (shf 3 c, 0)); iexact Hrec
  iintro Ho
  -- the block is read whole
  icases Hx with ⟨%d0, %fx, %hfx, Hx⟩
  rw [before0] at hfx
  subst hfx
  iapply (wp_load 𝒱₀ (c : Thread nD τ) none Set.univ (m := xM) (S := Finset.univ) (q := fullShare) (f := xblk m ρ c) (Finset.subset_univ _)) $$ Hx
  iintro Hx
  have hrd : (xM : Memref sig .tc .vmem S1536x768 .f32).view.readAt (Elt F) (Rect.unit (s := S1536x768) ![0, 0] S1536x768.size inb_S1536x768_S1536x768_0_0).toLoadRect (xblk m ρ c)
      = xblk m ρ c := Memref.readAt_unit_zero (Elt F) cc0_stg0_0 (by decide) _ _
  rw [hrd]
  -- row 0 is read (the value is not used), then the block's column maxima are stored into it
  unfold slotPts
  iapply (wp_load_rect 𝒱₀ (c : Thread nD τ) none Set.univ (m := scr) (r := rc0) (S := (slotM 0).view.set) (q := fullShare) (f := f0)
      (row_set 0).symm.subset) $$ Hrow0
  iintro Hrow0
  iapply (wp_store 𝒱₀ (c : Thread nD τ) none Set.univ (m := scr) (r := rc0) (S := (slotM 0).view.set) (f := f0)
      (by rw [View.setOn_univ]; exact (row_set 0).symm.subset)) $$ Hrow0
  iintro Hrow0
  have hnorm : (((scr.access rc0 : View sig .tc _ _ _).loc (c : Thread nD τ)) ↦[(slotM 0).view.set]{fullShare}
        ((scr.access rc0 : View sig .tc _ _ _).write (Elt F) f0 (k0_pay1 (xblk m ρ c)) Finset.univ) : sProp 𝕄)
      = slotPts c 0 fullShare (put 0 (rowS m ρ c)) :=
    slotPts_congr c 0 fullShare _ _ (store_row0 f0 (k0_pay1 (xblk m ρ c)))
  have hnorm' : (((scr.access rc0 : View sig .tc _ _ _).loc (c : Thread nD τ)) ↦[(slotM 0).view.set]{fullShare}
        ((scr.access rc0 : View sig .tc _ _ _).write (Elt F) f0 (k0_pay1 (xblk m ρ c)) Finset.univ) : sProp 𝕄)
      ⊢ slotPts c 0 fullShare (put 0 (rowS m ρ c)) := by rw [hnorm]; first | done | exact .rfl
  ihave Hown := (hnorm') $$ Hrow0
  -- the wait for the barrier counter's three units: the rows of the three other devices come back
  iapply (Rounds.wp_wait_rest_token 𝒱₀ ER (ringRd m ρ) (c : Thread nD τ) none (sm := .reg barS) (κ := K (c, 0)) (R := 0) (m := 0) (T := ∅)
      (wpE_semWait_eq 𝒱₀ (c : Thread nD τ) none Set.univ) (Set.mem_univ _) () (by rw [expect_bar]; rfl)) $$ [Hcb Ho Hpb]
  · isplitr
    · iapply (inv_at m ρ K (c, 0)); iexact Hrec
    isplitl [Hcb]; · iexact Hcb
    isplitl [Ho]; · iexact Ho
    isplitr
    · iapply (mayWait_bar c); iexact Hlev
    iexact Hpb
  rw [rest_bar]
  unfold barPay
  iintro ⟨Ho, Hpb, #Hrb, Hpay⟩
  icases Hpay with ⟨⟨⟨%g1, Hn1⟩, -⟩, ⟨⟨%g2, Hn2⟩, -⟩, ⟨%g3, Hn3⟩, -⟩
  -- the third part: the two copies
  simp only [wp_ret, fupd_wp_eq]
  unfold P3
  dsimp only
  iapply (sends m ρ K c (insert (SemLoc.reg barS, ()) W0) _ _ _)
  isplitr [Hk]
  · unfold Aft2
    isplitr; · iexact Hrec
    isplitl [Hps0 Hps1 Hps2 Hps3 Hpr0 Hpr1 Hpr2 Hpr3]
    · isplitl [Hps0]; · iexact Hps0
      isplitl [Hps1]; · iexact Hps1
      isplitl [Hps2]; · iexact Hps2
      isplitl [Hps3]; · iexact Hps3
      isplitl [Hpr0]; · iexact Hpr0
      isplitl [Hpr1]; · iexact Hpr1
      isplitl [Hpr2]; · iexact Hpr2
      iexact Hpr3
    isplitl [Htr1 Hts1 Htr2 Hts2 Htr3 Hts3]
    · isplitl [Htr1 Hts1]
      · isplitl [Htr1]; · iexact Htr1
        iexact Hts1
      isplitl [Htr2 Hts2]
      · isplitl [Htr2]; · iexact Htr2
        iexact Hts2
      isplitl [Htr3]; · iexact Htr3
      iexact Hts3
    isplitl [Hc1 Hc2 Hc3]
    · isplitl [Hc1]; · iexact Hc1
      isplitl [Hc2]; · iexact Hc2
      iexact Hc3
    isplitr; · iexact Hlev
    isplitl [Ho]; · iexact Ho
    isplitl [Hown]; · iexact Hown
    isplitl [Hn1 Hn2 Hn3]
    · isplitl [Hn1]; · iexists g1; iexact Hn1
      isplitl [Hn2]; · iexists g2; iexact Hn2
      iexists g3; iexact Hn3
    isplitl [Hx]
    · iexists (xblk m ρ c)
      isplitr; · ipureintro; rfl
      iexact Hx
    iexact Hout
  · iintro %r3 Hmid
    iapply Hk $$ %(insert (SemLoc.reg barS, ()) W0) %_ %r3
    iexact Hmid

/-- info: 'Cert.Kernel.Ring4.front' depends on axioms: [propext, Classical.choice, Quot.sound] -/
#guard_msgs in #print axioms Cert.Kernel.Ring4.front

end Cert.Kernel.Ring4

end
-- ==== Proof.W.BodyBack.lean ====
/-
  The second half of one device's body: from the state between the halves, through the third copy, the three
  landings, the maximum of the four rows and the three departures, to the state the device ends in.
-/
import proofs.«900912_g7700000000000913_dist_max_ax0_shard0_i_m1536_n768_v7x_i4_f32_1_alg».proof.Proof.W.BodyMid

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records; the steps of the second half, one lemma each -/

private theorem cells_elim (K : Dev nD × Fin 9 → ℕ) (ck : Dev nD × Fin 9) :
    (bigSep Finset.univ fun ck : Dev nD × Fin 9 => cellInv ER (ringRd m ρ) (K ck) (kcell ck))
      ⊢ cellInv ER (ringRd m ρ) (K ck) (kcell ck) :=
  bigSep_elim (Φ := fun ck : Dev nD × Fin 9 => cellInv ER (ringRd m ρ) (K ck) (kcell ck)) (Finset.mem_univ ck)

private theorem reached_elim (ck : Dev nD × Fin 9) :
    (bigSep Finset.univ fun ck : Dev nD × Fin 9 => (reached ER (kcell ck) 0 : sProp 𝕄)) ⊢ reached ER (kcell ck) 0 :=
  bigSep_elim (Φ := fun ck : Dev nD × Fin 9 => (reached ER (kcell ck) 0 : sProp 𝕄)) (Finset.mem_univ ck)

/-- Every counter's invariant and its round 0 can be read off the records. -/
private theorem inv_at' (K : Dev nD × Fin 9 → ℕ) (ck : Dev nD × Fin 9) :
    records m ρ K ⊢ cellInv ER (ringRd m ρ) (K ck) (kcell ck) := by
  unfold records
  iintro ⟨H, -⟩
  iapply (cells_elim m ρ K ck) $$ H

private theorem reached_at' (K : Dev nD × Fin 9 → ℕ) (ck : Dev nD × Fin 9) :
    records m ρ K ⊢ reached ER (kcell ck) 0 := by
  unfold records
  iintro ⟨-, H⟩
  iapply (reached_elim (F := F) ck) $$ H

/-- Every row is worth the same credit. -/
private theorem credit_row (o : Fin 4) : (slotM o).view.dmaCredit = N := amount_row o 1

/-- The copy of offset 2, issued by device `c` towards the device `n` two places on: it lends the share `qs 2` of its
    own row, gives up row 2 of `n` (which it holds whole), pays the two duties of the copy, and owes nothing more. -/
private theorem send2_step {α : Type} (K : Dev nD × Fin 9 → ℕ) (c n : Dev nD) (hn : n = shf 2 c) (W : Waits sig Unit)
    (fd : (cc0_scratch0 : Ref sig .tc).ty.Contents (Elt F))
    (ss rs : DmaSem sig) (hss : ss = sendS 2) (hrs : rs = recvS 2)
    (src dst : Memref sig .tc .vmem S1x768 .f32) (hsrcM : src = slotM 0) (hdstM : dst = slotM 2)
    {hsc : dst.view.ref.isScScratch = false} {hsrc : src.view.WordExact} {hdst : dst.view.WordExact}
    {hsem : DmaTarget.Typed .vmem (.dma rs) (.remote (Dev.tc n) dst (.dma ss) hsc)}
    (k : PUnit → Prog (TpuEff nD τ sig (Elt F) Λ₀ .tc) α) (Q : α → sProp 𝕄) :
    iprop(cellInv ER (ringRd m ρ) (K (c, kS 2)) (sendCell c 2) ∗ cellInv ER (ringRd m ρ) (K (shf 2 c, kR 2)) (recvCell (shf 2 c) 2)
        ∗ slotPts c 0 (qs 2) (put 0 (rowS m ρ c)) ∗ slotPts (shf 2 c) 2 fullShare fd
        ∗ owes (c : Thread nD τ) (O₅ c) W
        ∗ dutyTok ER (sendCell c 2) 0 0 ∗ reached ER (sendCell c 2) 0
        ∗ dutyTok ER (recvCell (shf 2 c) 2) 0 0 ∗ reached ER (recvCell (shf 2 c) 2) 0)
      ⊢ iprop(((cred (tallyAt (sendCell c 2) () N) ∗ owes (c : Thread nD τ) 0 W)
            -∗ wp frame (wpE (defs₀ (F := F)) 𝒱₀ c none) Set.univ (k ⟨⟩) Q)
          -∗ wp frame (wpE (defs₀ (F := F)) 𝒱₀ c none) Set.univ
            (.op (.enqueueDma src (.remote (Dev.tc n) dst (.dma ss) hsc) (.dma rs) hsrc hdst hsem) k) Q) := by
  subst hn hss hrs hsrcM hdstM
  have hp1 : ((slotM 0).view.loc (c : Thread nD τ) ↦[(slotM 0).view.set]{qs 2} put 0 (rowS m ρ c) : sProp 𝕄)
      ⊢ (ringRd m ρ).payload (sendCell c 2) 0 0 := by
    rw [payload_send m ρ c 2 (by decide) 0]; exact .rfl
  have hp2 : ((slotM 2).view.loc ((shf 2 c : Dev nD) : Thread nD τ) ↦[(slotM 2).view.set]{fullShare}
        ((slotM 2).view.write (Elt F) fd ((slotM 0).view.read (Elt F) (put 0 (rowS m ρ c))) Finset.univ) : sProp 𝕄)
      ⊢ (ringRd m ρ).payload (recvCell (shf 2 c) 2) 0 0 := by
    rw [payload_recv m ρ (shf 2 c) 2 (by decide) 0]; unfold recvPay; rw [shf_neg_shf]
    exact Entails.of_eq (slotPts_congr (shf 2 c) 2 fullShare _ _ (landing_row 2 fd _ (rowS m ρ c) (fun i _ => rfl)))
  exact wp_send_pointsTo 𝒱₀ ER (ringRd m ρ) (c : Thread nD τ) none
      (c' := ((shf 2 c : Dev nD) : Thread nD τ)) (src := slotM 0) (dst := slotM 2) (q := qs 2)
      (fs := put 0 (rowS m ρ c)) (fd := fd) (r₁ := 0) (r₂ := 0) (d₁ := 0) (d₂ := 0)
      (sS := .dma (sendS 2)) (sem := .dma (recvS 2)) (κ₁ := K (c, kS 2)) (κ₂ := K (shf 2 c, kR 2))
      (by rw [duties_send m ρ c 2 (by decide)]; exact Finset.mem_singleton_self _)
      (by rw [duties_recv m ρ (shf 2 c) 2 (by decide)]; exact Finset.mem_singleton_self _)
      () () N (amount_row 2 2) (amount_send m ρ c 2 0) (amount_recv m ρ (shf 2 c) 2 0)
      0 (by unfold O₅; rw [zero_add]) hp1 hp2

/-- A wait of a row's credit on one of the device's own transfer counters, at the start of its one round and owing
    nothing: the device moves on to round 1 and the round's payloads come back. -/
private theorem wait_step {α : Type} (c : Dev nD) (sm : DmaSem sig) (κ : ℕ) (src dst : Memref sig .tc .vmem S1x768 .f32)
    {hsrc : src.view.WordExact} {hdst : dst.view.WordExact}
    (hcr : dst.view.dmaCredit = N) (hexp : (ringRd (F := F) m ρ).expect ((c : Thread nD τ), .dma sm) 0 = N)
    (W : Waits sig Unit) (k : PUnit → Prog (TpuEff nD τ sig (Elt F) Λ₀ .tc) α) (Q : α → sProp 𝕄) :
    iprop(cellInv ER (ringRd m ρ) κ ((c : Thread nD τ), .dma sm) ∗ cred (tallyAt ((c : Thread nD τ), .dma sm) () N)
        ∗ owes (c : Thread nD τ) 0 W ∗ atPos ER ((c : Thread nD τ), .dma sm) 0 ∅ 0)
      ⊢ iprop(((owes (c : Thread nD τ) 0 (insert (.dma sm, ()) W) ∗ atPos ER ((c : Thread nD τ), .dma sm) (0 + 1) ∅ 0
              ∗ bigSep ((ringRd m ρ).duties ((c : Thread nD τ), .dma sm) 0 \ ∅)
                  (fun d => (ringRd m ρ).payload ((c : Thread nD τ), .dma sm) 0 d))
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  have hw : ∀ Kk : PUnit → sProp 𝕄,
      wpE' (defs₀ (F := F)) 𝒱₀ (c : Thread nD τ) none .empty Set.univ (.waitDma2 sm src dst hsrc hdst) Kk
        = waitSpec (c : Thread nD τ) Set.univ (.dma sm) N Kk := fun Kk => by
    rw [← hcr]; exact wpE_waitDma2_eq 𝒱₀ (c : Thread nD τ) none Set.univ Kk
  iintro ⟨HI, Hc, HO, Hat⟩ Hk
  iapply (wp_wait_rest_token 𝒱₀ ER (ringRd m ρ) (c : Thread nD τ) none hw (Set.mem_univ κ) () (R := 0) (m := 0) (T := ∅)
    (by rw [hexp, Nat.zero_add])) $$ [HI Hc HO Hat]
  · isplitl [HI]; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iexact Hp

/-- The wait for the landing of offset `o`: row `o` comes back, holding the row of the device that sent it. -/
private theorem wait_recv_step {α : Type} (K : Dev nD × Fin 9 → ℕ) (c : Dev nD) (o : Fin 4) (ho : o ≠ 0) (sm : DmaSem sig) (hsm : sm = recvS o)
    (src dst : Memref sig .tc .vmem S1x768 .f32) {hsrc : src.view.WordExact} {hdst : dst.view.WordExact} (hcr : dst.view.dmaCredit = N)
    (W : Waits sig Unit) (k : PUnit → Prog (TpuEff nD τ sig (Elt F) Λ₀ .tc) α) (Q : α → sProp 𝕄) :
    iprop(cellInv ER (ringRd m ρ) (K (c, kR o)) (recvCell c o) ∗ cred (tallyAt (recvCell c o) () N)
        ∗ owes (c : Thread nD τ) 0 W ∗ atPos ER (recvCell c o) 0 ∅ 0)
      ⊢ iprop(((owes (c : Thread nD τ) 0 (insert (.dma (recvS o), ()) W) ∗ atPos ER (recvCell c o) (0 + 1) ∅ 0 ∗ recvPay m ρ c o)
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  subst hsm
  have h := wait_step m ρ c (recvS o) (K (c, kR o)) src dst (hsrc := hsrc) (hdst := hdst) hcr (expect_recv m ρ c o ho) W k Q
  rw [rest_recv m ρ c o ho] at h
  exact h

/-- The wait for the departure of offset `o`: the lent share of the device's own row comes back. -/
private theorem wait_send_step {α : Type} (K : Dev nD × Fin 9 → ℕ) (c : Dev nD) (o : Fin 4) (ho : o ≠ 0) (sm : DmaSem sig) (hsm : sm = sendS o)
    (src dst : Memref sig .tc .vmem S1x768 .f32) {hsrc : src.view.WordExact} {hdst : dst.view.WordExact} (hcr : dst.view.dmaCredit = N)
    (W : Waits sig Unit) (k : PUnit → Prog (TpuEff nD τ sig (Elt F) Λ₀ .tc) α) (Q : α → sProp 𝕄) :
    iprop(cellInv ER (ringRd m ρ) (K (c, kS o)) (sendCell c o) ∗ cred (tallyAt (sendCell c o) () N)
        ∗ owes (c : Thread nD τ) 0 W ∗ atPos ER (sendCell c o) 0 ∅ 0)
      ⊢ iprop(((owes (c : Thread nD τ) 0 (insert (.dma (sendS o), ()) W) ∗ atPos ER (sendCell c o) (0 + 1) ∅ 0 ∗ sendPay m ρ c o)
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  subst hsm
  have h := wait_step m ρ c (sendS o) (K (c, kS o)) src dst (hsrc := hsrc) (hdst := hdst) hcr (expect_send m ρ c o ho) W k Q
  rw [rest_send m ρ c o ho] at h
  exact h

/-- A load of row `o` by whoever holds a share of it. -/
private theorem load_step {α : Type} (c : Dev nD) (o : Fin 4) (q : PosShare TreeShare) (f : (cc0_scratch0 : Ref sig .tc).ty.Contents (Elt F))
    {hl : (scr : Memref sig .tc .vmem S4x1x768 .f32).view.LoadsAt (rcO o).toLoadRect}
    (k : ((rcO o).toLoadRect.shape.Idx → Elt F .f32) → Prog (TpuEff nD τ sig (Elt F) Λ₀ .tc) α) (Q : α → sProp 𝕄) :
    (slotPts c o q f : sProp 𝕄)
      ⊢ iprop((slotPts c o q f -∗ wp frame (wpE (defs₀ (F := F)) 𝒱₀ c none) Set.univ (k (scr.view.readAt (Elt F) (rcO o).toLoadRect f)) Q)
          -∗ wp frame (wpE (defs₀ (F := F)) 𝒱₀ c none) Set.univ (.op (.load scr (rcO o).toLoadRect hl) k) Q) := by
  have hS : (scr : Memref sig .tc .vmem S4x1x768 .f32).view.setOn (rcO o).toLoadRect.set ⊆ (slotM o).view.set := by
    rw [row_set]; exact le_of_eq (View.set_slice _ _).symm
  unfold slotPts
  exact wp_load 𝒱₀ (c : Thread nD τ) none Set.univ (m := scr) (r := (rcO o).toLoadRect) (S := (slotM o).view.set) (q := q) (f := f) hS

/-- The maximum of the four rows read is the kernel's result on device `c`: each row read is the row its sender
    stored, and the rows 1, 2, 3 come from the devices 3, 2, 1 places on. -/
private theorem val_eq (c : Dev nD) :
    k0_pay3 (k0_pay2 (scr.view.readAt (Elt F) (rcO 0).toLoadRect (put 0 (rowS m ρ c))))
      (scr.view.readAt (Elt F) (rcO 1).toLoadRect (put 1 (rowS m ρ (shf (neg 1) c))))
      (scr.view.readAt (Elt F) (rcO 2).toLoadRect (put 2 (rowS m ρ (shf (neg 2) c))))
      (scr.view.readAt (Elt F) (rcO 3).toLoadRect (put 3 (rowS m ρ (shf (neg 3) c)))) = outAt m ρ c := by
  unfold outAt k0_pay3 k0_pay2
  rw [load_row 0 (rowS m ρ c) _ (fun _ _ => rfl), load_row 1 (rowS m ρ (shf (neg 1) c)) _ (fun _ _ => rfl),
    load_row 2 (rowS m ρ (shf (neg 2) c)) _ (fun _ _ => rfl), load_row 3 (rowS m ρ (shf (neg 3) c)) _ (fun _ _ => rfl)]
  rfl

/-- A write of the whole result buffer leaves what was written. -/
private theorem out_write (fo w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) fo w Finset.univ = w :=
  Memref.write_access_unit_zero_univ (Elt F) cc0_stg1_0 (by funext a; fin_cases a <;> rfl) inb_S1x768_S1x768_0_0 fo w

/-- A `bigSep` over the four offsets is its four summands. -/
private theorem fin4_chain (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-! ## The second half -/

/-- The rest of the body runs from `Mid` to the body's end. -/
theorem back (K : Dev nD × Fin 9 → ℕ) (c : Dev nD) (W : Waits sig Unit) (v60 : BitVec 32) (r3 : R3) (Kt : PUnit → sProp 𝕄) :
    iprop(Mid m ρ K c W ∗ (bodyPost m ρ c -∗ Kt ⟨⟩))
      ⊢ wp frame (wpE (defs₀ (F := F)) 𝒱₀ c none) Set.univ (backProg (F := F) c v60 r3) Kt := by
  unfold backProg Mid
  rw [k0_part4_eq_skeleton, k0_part5_eq_skeleton]
  unfold k0_part4_skel k0_part5_skel
  simp only [Prog.lift, Prog.bind_op, Prog.bind_ret, Prog.pure_eq_ret, bind, Prog.bind]
  iintro ⟨⟨#Hrec, ⟨Has0, Has1, Has2, Has3, Har0, Har1, Har2, Har3⟩, ⟨Htr, Hts⟩, ⟨Hc1, Hc2, Hc3, Hcs1, Hcs3⟩, #Hlev, HO, ⟨Hk0, Hk2, ⟨%fd, Hd2⟩⟩, Hx, ⟨%dd, Ho⟩⟩, Hpost⟩
  ihave #Is2 := (inv_at' m ρ K (c, kS 2)) $$ Hrec
  ihave #Ir2' := (inv_at' m ρ K (shf 2 c, kR 2)) $$ Hrec
  ihave #Rs2 := (reached_at' m ρ K (c, kS 2)) $$ Hrec
  ihave #Rr2' := (reached_at' m ρ K (shf 2 c, kR 2)) $$ Hrec
  ihave #Ir1 := (inv_at' m ρ K (c, kR 1)) $$ Hrec
  ihave #Ir2 := (inv_at' m ρ K (c, kR 2)) $$ Hrec
  ihave #Ir3 := (inv_at' m ρ K (c, kR 3)) $$ Hrec
  ihave #Is1 := (inv_at' m ρ K (c, kS 1)) $$ Hrec
  ihave #Is3 := (inv_at' m ρ K (c, kS 3)) $$ Hrec
  ihave #Is0 := (inv_at' m ρ K (c, kS 0)) $$ Hrec
  ihave #Ir0 := (inv_at' m ρ K (c, kR 0)) $$ Hrec
  simp only [kcell_send, kcell_recv]
  -- the copy of offset 2
  iapply (send2_step m ρ K c ⟨k0_dev6 c, k0_dev6_lt c⟩ (dev6_eq c) W fd _ _ sendS2 recvS2 _ _ rfl rfl) $$ [Hk2 Hd2 HO Hts Htr]
  · isplitr; · iexact Is2
    isplitr; · iexact Ir2'
    isplitl [Hk2]; · iexact Hk2
    isplitl [Hd2]; · iexact Hd2
    isplitl [HO]; · iexact HO
    isplitl [Hts]; · iexact Hts
    isplitr; · iexact Rs2
    isplitl [Htr]; · iexact Htr
    iexact Rr2'
  iintro ⟨Hcs2, HO⟩
  -- the landing of offset 1, then rows 0 and 1 read
  iapply (wait_recv_step m ρ K c 1 (by decide) _ recvS1 _ _ (credit_row 1)) $$ [Hc1 HO Har1]
  · isplitr; · iexact Ir1
    isplitl [Hc1]; · iexact Hc1
    isplitl [HO]; · iexact HO
    iexact Har1
  iintro ⟨HO, Har1, Hrow1⟩
  iapply (load_step c 0 (qs 0) _) $$ [Hk0]
  · iexact Hk0
  iintro Hk0
  unfold recvPay
  iapply (load_step c 1 fullShare _) $$ [Hrow1]
  · iexact Hrow1
  iintro Hrow1
  -- the landings of offsets 2 and 3, rows 2 and 3 read
  iapply (wait_recv_step m ρ K c 2 (by decide) _ recvS2 _ _ (credit_row 2)) $$ [Hc2 HO Har2]
  · isplitr; · iexact Ir2
    isplitl [Hc2]; · iexact Hc2
    isplitl [HO]; · iexact HO
    iexact Har2
  iintro ⟨HO, Har2, Hrow2⟩
  unfold recvPay
  iapply (load_step c 2 fullShare _) $$ [Hrow2]
  · iexact Hrow2
  iintro Hrow2
  iapply (wait_recv_step m ρ K c 3 (by decide) _ recvS3 _ _ (credit_row 3)) $$ [Hc3 HO Har3]
  · isplitr; · iexact Ir3
    isplitl [Hc3]; · iexact Hc3
    isplitl [HO]; · iexact HO
    iexact Har3
  iintro ⟨HO, Har3, Hrow3⟩
  unfold recvPay
  iapply (load_step c 3 fullShare _) $$ [Hrow3]
  · iexact Hrow3
  iintro Hrow3
  -- the result's staging buffer read (unused) and written
  unfold stg
  icases Ho with ⟨%fo, %hfo, Ho⟩
  iapply (wp_load 𝒱₀ (c : Thread nD τ) none Set.univ (m := oM) (S := Finset.univ) (q := fullShare) (f := fo) (Finset.subset_univ _)) $$ [Ho]
  · iexact Ho
  iintro Ho
  iapply (wp_store 𝒱₀ (c : Thread nD τ) none Set.univ (m := oM) (S := Finset.univ) (f := fo) (Finset.subset_univ _)) $$ [Ho]
  · iexact Ho
  iintro Ho
  -- the three departures
  iapply (wait_send_step m ρ K c 1 (by decide) _ sendS1 _ _ (credit_row 0)) $$ [Hcs1 HO Has1]
  · isplitr; · iexact Is1
    isplitl [Hcs1]; · iexact Hcs1
    isplitl [HO]; · iexact HO
    iexact Has1
  iintro ⟨HO, Has1, Hq1⟩
  iapply (wait_send_step m ρ K c 2 (by decide) _ sendS2 _ _ (credit_row 0)) $$ [Hcs2 HO Has2]
  · isplitr; · iexact Is2
    isplitl [Hcs2]; · iexact Hcs2
    isplitl [HO]; · iexact HO
    iexact Has2
  iintro ⟨HO, Has2, Hq2⟩
  iapply (wait_send_step m ρ K c 3 (by decide) _ sendS3 _ _ (credit_row 0)) $$ [Hcs3 HO Has3]
  · isplitr; · iexact Is3
    isplitl [Hcs3]; · iexact Hcs3
    isplitl [HO]; · iexact HO
    iexact Has3
  iintro ⟨HO, Has3, Hq3⟩
  unfold sendPay
  -- the eight own counters closed, each read at zero

  imod (cell_close ER (ringRd m ρ) (g := sendCell c 0) (Es := Set.univ) (Set.mem_univ _) (fun h => h) (R := 0) (fun r _ => duties_send0 m ρ c r)) $$ [Has0] with Vs0
  · isplitr; · iexact Is0
    iexact Has0
  imod (cell_close ER (ringRd m ρ) (g := sendCell c 1) (Es := Set.univ) (Set.mem_univ _) (fun h => h) (R := 0 + 1) (fun r hr => duties_later m ρ _ r hr)) $$ [Has1] with Vs1
  · isplitr; · iexact Is1
    iexact Has1
  imod (cell_close ER (ringRd m ρ) (g := sendCell c 2) (Es := Set.univ) (Set.mem_univ _) (fun h => h) (R := 0 + 1) (fun r hr => duties_later m ρ _ r hr)) $$ [Has2] with Vs2
  · isplitr; · iexact Is2
    iexact Has2
  imod (cell_close ER (ringRd m ρ) (g := sendCell c 3) (Es := Set.univ) (Set.mem_univ _) (fun h => h) (R := 0 + 1) (fun r hr => duties_later m ρ _ r hr)) $$ [Has3] with Vs3
  · isplitr; · iexact Is3
    iexact Has3
  imod (cell_close ER (ringRd m ρ) (g := recvCell c 0) (Es := Set.univ) (Set.mem_univ _) (fun h => h) (R := 0) (fun r _ => duties_recv0 m ρ c r)) $$ [Har0] with Vr0
  · isplitr; · iexact Ir0
    iexact Har0
  imod (cell_close ER (ringRd m ρ) (g := recvCell c 1) (Es := Set.univ) (Set.mem_univ _) (fun h => h) (R := 0 + 1) (fun r hr => duties_later m ρ _ r hr)) $$ [Har1] with Vr1
  · isplitr; · iexact Ir1
    iexact Har1
  imod (cell_close ER (ringRd m ρ) (g := recvCell c 2) (Es := Set.univ) (Set.mem_univ _) (fun h => h) (R := 0 + 1) (fun r hr => duties_later m ρ _ r hr)) $$ [Har2] with Vr2
  · isplitr; · iexact Ir2
    iexact Har2
  imod (cell_close ER (ringRd m ρ) (g := recvCell c 3) (Es := Set.univ) (Set.mem_univ _) (fun h => h) (R := 0 + 1) (fun r hr => duties_later m ρ _ r hr)) $$ [Har3] with Vr3
  · isplitr; · iexact Ir3
    iexact Har3
  iapply (le_wp_ret _ _ _ PUnit.unit Kt)
  iapply Hpost
  unfold bodyPost Φ₁
  isplitl [Hk0 Hq1 Hq2 Hq3 Hrow1 Hrow2 Hrow3 Vs0 Vs1 Vs2 Vs3 Vr0 Vr1 Vr2 Vr3]
  · isplitl [Hk0 Hq1 Hq2 Hq3 Hrow1 Hrow2 Hrow3]
    · -- row 0 whole again, then the four rows the scratch
      ihave Hrow0 := (row0_shares c (put 0 (rowS m ρ c))).2 $$ [Hk0 Hq1 Hq2 Hq3]
      · isplitl [Hq1]; · iexact Hq1
        isplitl [Hq2]; · iexact Hq2
        isplitl [Hq3]; · iexact Hq3
        iexact Hk0
      iapply (scr_join c _ _ _ _)
      isplitl [Hrow0]; · iexact Hrow0
      isplitl [Hrow1]; · iexact Hrow1
      isplitl [Hrow2]; · iexact Hrow2
      iexact Hrow3
    · rw [fin4_chain]
      isplitl [Vs0 Vr0]
      · isplitl [Vs0]; · iexact Vs0
        iexact Vr0
      isplitl [Vs1 Vr1]
      · isplitl [Vs1]; · iexact Vs1
        iexact Vr1
      isplitl [Vs2 Vr2]
      · isplitl [Vs2]; · iexact Vs2
        iexact Vr2
      isplitl [Vs3]; · iexact Vs3
      iexact Vr3
  isplitl [HO]
  · iexists _
    isplitr
    rotate_left
    · iexact HO
    · ipureintro; exact fun _ _ => Or.inl trivial
  isplitl [Hx]
  · iexact Hx
  iexists _
  isplitr
  rotate_left
  · iexact Ho
  · ipureintro; exact (out_write _ _).trans (val_eq m ρ c)

/-- info: 'Cert.Kernel.Ring4.back' depends on axioms: [propext, Classical.choice, Quot.sound] -/
#guard_msgs in #print axioms back

end Cert.Kernel.Ring4

end
-- ==== Proof.W.Body.lean ====
/-
  One device's body from start to end, as the first half followed by the second, and the pipeline's obligation
  for it: the windows' staging buffers and the state at the one point are exactly what the body starts from.
-/
import proofs.«900912_g7700000000000913_dist_max_ax0_shard0_i_m1536_n768_v7x_i4_f32_1_alg».proof.Proof.W.Tables
import proofs.«900912_g7700000000000913_dist_max_ax0_shard0_i_m1536_n768_v7x_i4_f32_1_alg».proof.Proof.W.Rows
import proofs.«900912_g7700000000000913_dist_max_ax0_shard0_i_m1536_n768_v7x_i4_f32_1_alg».proof.Proof.W.BodyFront
import proofs.«900912_g7700000000000913_dist_max_ax0_shard0_i_m1536_n768_v7x_i4_f32_1_alg».proof.Proof.W.BodyBack

noncomputable section

namespace Cert.Kernel.Ring4

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One device's body, from its start to its end: the first three parts, then the rest. -/
theorem sound_body (K : Dev nD × Fin 9 → ℕ) (c : Dev nD) (Kt : PUnit → sProp 𝕄) :
    iprop(bodyPre m ρ K c ∗ (bodyPost m ρ c -∗ Kt ⟨⟩)) ⊢ wp frame (wpE (defs₀ (F := F)) 𝒱₀ c none) Set.univ (theBody (F := F)) Kt := by
  rw [theBody_eq, wp_bind]
  simp only [wp_bind]
  iintro ⟨Hpre, Hk⟩
  iapply (front m ρ K c (fun d0 v60 r3 => wp frame (wpE (defs₀ (F := F)) 𝒱₀ c none) Set.univ (backProg (F := F) d0 v60 r3) Kt))
  isplitl [Hpre]
  · iexact Hpre
  iintro %W %v60 %r3 Hmid
  iapply (back m ρ K c W v60 r3 Kt)
  isplitl [Hmid]
  · iexact Hmid
  iexact Hk

/-! ## The body obligation -/

/-- A whole staging buffer owned at given contents, spelt out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's obligation for device `c`'s body, from `sound_body`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H0, H1, H2, H3, Hlev⟩
      isplitl [H0]; · iexact H0
      isplitl [H1]; · iexact H1
      isplitl [H2]; · iexact H2
      isplitl [H3]; · iexact H3
      isplitl [Hlev]; · iexact Hlev
      iexact Hscr
    isplitl [Ho]; · iexact Ho
    isplitl [Hx] <;> iassumption
  · iintro H; iexact H

/-- info: 'Cert.Kernel.Ring4.sound_body' depends on axioms: [propext, Classical.choice, Quot.sound] -/
#guard_msgs in #print axioms Cert.Kernel.Ring4.sound_body

/-- info: 'Cert.Kernel.Ring4.body_obligation' depends on axioms: [propext, Classical.choice, Quot.sound] -/
#guard_msgs in #print axioms Cert.Kernel.Ring4.body_obligation

end Cert.Kernel.Ring4

end
-- ==== Proof.MaxBridge.lean ====
import proofs.«900912_g7700000000000913_dist_max_ax0_shard0_i_m1536_n768_v7x_i4_f32_1_alg».proof.Proof.Gen.KernelIdeal.Skeleton
import proofs.«900912_g7700000000000913_dist_max_ax0_shard0_i_m1536_n768_v7x_i4_f32_1_alg».proof.Proof.Gen.ReferenceIdeal.Run
import proofs.«900912_g7700000000000913_dist_max_ax0_shard0_i_m1536_n768_v7x_i4_f32_1_alg».proof.Proof.Gen.ReferenceIdeal.Read
import Idealize.ShloMosaic.Lib.Layout
import Idealize.ShloMosaic.PureOps.Ideal.Laws
import Idealize.ShloMosaic.Lib.ValueLayout
import Mathlib.Data.Finset.Fold

noncomputable section

namespace Cert.MaxBridge

open Idealize.ShloMosaic Idealize.SL.Sem Idealize.ShloMosaic.ValueIdx

/-- The word both reductions start from, as an extended real; it is never evaluated. -/
abbrev start : EReal := Ideal.ofBits .f32 0xFF800000#32

/-- Reducing the rows of an `n × m` array: the index over column `j` with row coordinate `k` inserted is `(k, j)`. -/
theorem lift_rows {n m : Nat} (h : (⟨2, ![n, m]⟩ : Shape).Reduces [0] ⟨1, ![m]⟩) (j : Fin m) (k : Fin n) :
    h.lift (ix1 j) k = ix2 k j := by
  funext c
  apply Fin.ext
  show h.liftVal (ix1 j) k.val c = (ix2 k j c).val
  unfold Shape.Reduces.liftVal
  match c with
  | ⟨0, _⟩ => simp
  | ⟨1, _⟩ => simp

/-- One device's partial result at column `j`: the maximum, from the start value, of the block's column `j`. -/
theorem pay1_apply (v : Vec Ideal Cert.KernelIdeal.S1536x768 .f32) (u u' : Fin 1) (j : Fin 768) :
    Cert.KernelIdeal.Gen.k0_pay1 (F := Ideal) v (ix3 u u' j)
      = (Finset.univ : Finset (Fin 1536)).fold max start (fun r => v (ix2 r j)) := by
  unfold Cert.KernelIdeal.Gen.k0_pay1
  refine (shapeCast_ab_1ab_apply _ _ u u' j).trans ?_
  refine (shapeCast_a_1a_apply _ _ u' j).trans ?_
  refine (Ideal.multiReduction_maximumf_single _ _ _ _ _ (ix1 j)).trans ?_
  have e : (shapeCast Cert.KernelIdeal.S1536x768 v Cert.KernelIdeal.Gen.shapeCasts_S1536x768_S1536x768
        ∘ Cert.KernelIdeal.Gen.reduces_S1536x768_S768.lift (ix1 j)) = fun r : Fin 1536 => v (ix2 r j) := by
    funext r
    show shapeCast Cert.KernelIdeal.S1536x768 v Cert.KernelIdeal.Gen.shapeCasts_S1536x768_S1536x768
        (Cert.KernelIdeal.Gen.reduces_S1536x768_S768.lift (ix1 j) r) = v (ix2 r j)
    rw [shapeCast_self]
    exact congrArg v (lift_rows Cert.KernelIdeal.Gen.reduces_S1536x768_S768 j r)
  exact congrArg (fun f : Fin 1536 → EReal => Finset.fold max start f Finset.univ) e

/-- The reference at column `j`: the maximum, from the start value, of the whole array's column `j`. -/
theorem ref_apply (X : (⟨Cert.ReferenceIdeal.S6144x768, .f32⟩ : BufTy).Contents (Elt Ideal)) (u : Fin 1) (j : Fin 768) :
    Cert.ReferenceIdeal.Read.val_main_v1 (F := Ideal) X (ix2 u j)
      = (Finset.univ : Finset (Fin 6144)).fold max start (fun R => X (ix2 R j)) := by
  have hr : Cert.ReferenceIdeal.S6144x768.Reduces [0] Cert.ReferenceIdeal.S768 :=
    ⟨Cert.ReferenceIdeal.Gen.reducesTo_S6144x768_S768_d0.1, Nat.one_pos,
      Cert.ReferenceIdeal.Gen.reducesTo_S6144x768_S768_d0.2⟩
  have hi : Cert.ReferenceIdeal.Read.idx_main_v1 (ix2 u j) = ix1 j := by
    funext a; match a with | ⟨0, _⟩ => rfl
  rw [Cert.ReferenceIdeal.Read.val_main_v1_apply, hi]
  unfold Cert.ReferenceIdeal.Read.val_main_v0
  have key := Host.reduce_eq_fold_single (s := Cert.ReferenceIdeal.S6144x768) (t := Cert.ReferenceIdeal.S768)
    (a := 0) (u := Cert.ReferenceIdeal.S_) (FloatOps.maximumf (F := Ideal) (φ := .f32)) X
    (Cert.ReferenceIdeal.Read.val_main_cst (F := Ideal)) Cert.ReferenceIdeal.Gen.reducesTo_S6144x768_S768_d0 hr
    Cert.ReferenceIdeal.Gen.h_S_ (ix1 j)
  refine key.trans ?_
  have e : (X ∘ hr.lift (ix1 j)) = fun R : Fin 6144 => X (ix2 R j) := by
    funext R
    exact congrArg X (lift_rows hr j R)
  exact congrArg (fun f : Fin 6144 → EReal => Finset.fold max start f Finset.univ) e

/-- Four maxima over the rows of four blocks make the maximum over all rows: row `R` of the whole is row
    `R % 1536` of block `R / 1536`, so anything that bounds one side bounds the other. -/
theorem four_folds (f : Fin 4 → Fin 1536 → EReal) (g : Fin 6144 → EReal) (b : EReal)
    (hfg : ∀ (d : Fin 4) (r : Fin 1536) (hlt : d.val * 1536 + r.val < 6144), f d r = g ⟨d.val * 1536 + r.val, hlt⟩)
    (c c1 c2 c3 : Fin 4) (hall : ∀ d : Fin 4, d = c ∨ d = c1 ∨ d = c2 ∨ d = c3) :
    max (max (max (Finset.univ.fold max b (f c)) (Finset.univ.fold max b (f c1)))
        (Finset.univ.fold max b (f c2))) (Finset.univ.fold max b (f c3))
      = Finset.univ.fold max b g := by
  apply eq_of_forall_ge_iff
  intro t
  simp only [max_le_iff, Finset.fold_max_le, Finset.mem_univ, true_implies]
  constructor
  · rintro ⟨⟨⟨⟨hb, h0⟩, ⟨_, h1⟩⟩, ⟨_, h2⟩⟩, ⟨_, h3⟩⟩
    refine ⟨hb, fun R => ?_⟩
    have hd : R.val / 1536 < 4 := by omega
    have hr : R.val % 1536 < 1536 := Nat.mod_lt _ (by norm_num)
    have e : g R = f ⟨R.val / 1536, hd⟩ ⟨R.val % 1536, hr⟩ := by
      rw [hfg _ _ (by show R.val / 1536 * 1536 + R.val % 1536 < 6144; omega)]
      congr 1; apply Fin.ext; show R.val = R.val / 1536 * 1536 + R.val % 1536; omega
    rw [e]
    rcases hall ⟨R.val / 1536, hd⟩ with h | h | h | h <;> rw [h]
    · exact h0 _
    · exact h1 _
    · exact h2 _
    · exact h3 _
  · rintro ⟨hb, hg⟩
    have hf : ∀ d r, f d r ≤ t := fun d r => by
      rw [hfg d r (by omega)]; exact hg _
    exact ⟨⟨⟨⟨hb, hf c⟩, hb, hf c1⟩, hb, hf c2⟩, hb, hf c3⟩

/-- The receiving device's own row, re-laid from `1 × 1 × 768` to `1 × 768`. -/
theorem pay2_apply (v : Vec Ideal Cert.KernelIdeal.S1x1x768 .f32) (u : Fin 1) (j : Fin 768) :
    Cert.KernelIdeal.Gen.k0_pay2 (F := Ideal) v (ix2 u j) = v (ix3 (0 : Fin 1) u j) := by
  unfold Cert.KernelIdeal.Gen.k0_pay2
  exact shapeCast_1ab_ab_apply _ _ u j

/-- The last step at column `j`: the maximum of the own row and the three received rows. -/
theorem pay3_apply (a : FVec Ideal Cert.KernelIdeal.S1x768 .f32) (r1 r2 r3 : Vec Ideal Cert.KernelIdeal.S1x1x768 .f32)
    (u : Fin 1) (j : Fin 768) :
    Cert.KernelIdeal.Gen.k0_pay3 (F := Ideal) a r1 r2 r3 (ix2 u j)
      = max (max (max (a (ix2 u j)) (r1 (ix3 (0 : Fin 1) u j))) (r2 (ix3 (0 : Fin 1) u j))) (r3 (ix3 (0 : Fin 1) u j)) := by
  unfold Cert.KernelIdeal.Gen.k0_pay3
  refine (maximumf_apply _ _ _).trans ?_
  refine congrArg₂ max ?_ (shapeCast_1ab_ab_apply _ _ u j)
  refine (maximumf_apply _ _ _).trans ?_
  refine congrArg₂ max ?_ (shapeCast_1ab_ab_apply _ _ u j)
  refine (maximumf_apply _ _ _).trans ?_
  exact congrArg₂ max rfl (shapeCast_1ab_ab_apply _ _ u j)

theorem out_eq_reference
    (X : (⟨Cert.ReferenceIdeal.S6144x768, .f32⟩ : BufTy).Contents (Elt Ideal))
    (x : Dev Cert.KernelIdeal.nD → Vec Ideal Cert.KernelIdeal.S1536x768 .f32)
    (hx : ∀ d, x d = Layout.block ⟨2, ![1536, 768]⟩ ⟨2, ![6144, 768]⟩ 0 4 d X)
    (c c1 c2 c3 : Dev Cert.KernelIdeal.nD)
    (hall : ∀ d : Dev Cert.KernelIdeal.nD, d = c ∨ d = c1 ∨ d = c2 ∨ d = c3) :
    Cert.KernelIdeal.Gen.k0_pay3 (F := Ideal)
        (Cert.KernelIdeal.Gen.k0_pay2 (Cert.KernelIdeal.Gen.k0_pay1 (x c)))
        (Cert.KernelIdeal.Gen.k0_pay1 (x c1)) (Cert.KernelIdeal.Gen.k0_pay1 (x c2))
        (Cert.KernelIdeal.Gen.k0_pay1 (x c3))
      = Cert.ReferenceIdeal.Read.val_main_v1 (F := Ideal) X := by
  funext i
  obtain ⟨u, j, rfl⟩ : ∃ (u : Fin 1) (j : Fin 768), i = ix2 u j := ⟨i 0, i 1, eq_ix2 i⟩
  rw [ref_apply, pay3_apply, pay2_apply, pay1_apply, pay1_apply, pay1_apply, pay1_apply]
  refine four_folds (fun d r => x d (ix2 r j)) (fun R => X (ix2 R j)) start (fun d r hlt => ?_) c c1 c2 c3 hall
  show x d (ix2 r j) = X (ix2 ⟨d.val * 1536 + r.val, hlt⟩ j)
  rw [hx d]
  show X _ = X _
  refine congrArg X ?_
  funext a
  apply Fin.ext
  match a with
  | ⟨0, _⟩ => rfl
  | ⟨1, _⟩ => rfl

end Cert.MaxBridge

end

/-- info: 'Cert.MaxBridge.out_eq_reference' depends on axioms: [propext, Classical.choice, Quot.sound] -/
#guard_msgs in #print axioms Cert.MaxBridge.out_eq_reference
-- ==== Proof.Claims.lean ====
/-
  The five claims, assembled.

  One device's body, started from the protocol's state, ends with its result row holding the maximum of its own
  column maxima and those of the three other devices, its input untouched; the launch theorem turns that, for all four
  devices at once, into a run of the whole program that always terminates, without a fault, in such a state. Both
  kernel frames are that run with the values dropped. The reference's frame is its own run. And since the four devices'
  blocks are the four quarters of the reference's array, the maximum of the four blocks' column maxima is the column
  maximum of the whole array: every device ends holding the reference's result.
-/
import proofs.«900912_g7700000000000913_dist_max_ax0_shard0_i_m1536_n768_v7x_i4_f32_1_alg».proof.Defs
import proofs.«900912_g7700000000000913_dist_max_ax0_shard0_i_m1536_n768_v7x_i4_f32_1_alg».proof.Proof.Launch
import proofs.«900912_g7700000000000913_dist_max_ax0_shard0_i_m1536_n768_v7x_i4_f32_1_alg».proof.Proof.Body
import proofs.«900912_g7700000000000913_dist_max_ax0_shard0_i_m1536_n768_v7x_i4_f32_1_alg».proof.Proof.W.Launch
import proofs.«900912_g7700000000000913_dist_max_ax0_shard0_i_m1536_n768_v7x_i4_f32_1_alg».proof.Proof.W.Body
import proofs.«900912_g7700000000000913_dist_max_ax0_shard0_i_m1536_n768_v7x_i4_f32_1_alg».proof.Proof.Gen.Kernel
import proofs.«900912_g7700000000000913_dist_max_ax0_shard0_i_m1536_n768_v7x_i4_f32_1_alg».proof.Proof.Gen.KernelIdeal
import proofs.«900912_g7700000000000913_dist_max_ax0_shard0_i_m1536_n768_v7x_i4_f32_1_alg».proof.Proof.MaxBridge
import proofs.«900912_g7700000000000913_dist_max_ax0_shard0_i_m1536_n768_v7x_i4_f32_1_alg».proof.Proof.Gen.ReferenceIdeal.Run
import proofs.«900912_g7700000000000913_dist_max_ax0_shard0_i_m1536_n768_v7x_i4_f32_1_alg».proof.Proof.Gen.ReferenceIdeal.Read
import proofs.«900912_g7700000000000913_dist_max_ax0_shard0_i_m1536_n768_v7x_i4_f32_1_alg».proof.Proof.Gen.ReferenceIdeal
import proofs.«900912_g7700000000000913_dist_max_ax0_shard0_i_m1536_n768_v7x_i4_f32_1_alg».proof.Proof.Gen.Pre_finite_inputs_Kernel
import proofs.«900912_g7700000000000913_dist_max_ax0_shard0_i_m1536_n768_v7x_i4_f32_1_alg».proof.Proof.Gen.Pre_finite_inputs_ReferenceIdeal

noncomputable section

namespace Cert.Proof.Claims

open Idealize.ShloMosaic Idealize.ShloMosaic.TcCoe Idealize.SL.Sem
open Idealize.ShloMosaic.Pipeline (BodyObligation)

/-- Every device is one of `c` and the devices 3, 2, 1 places on. -/
theorem all_four (c : Dev Cert.KernelIdeal.nD) :
    ∀ d : Dev Cert.KernelIdeal.nD, d = c ∨ d = Cert.KernelIdeal.Ring4.shf 3 c ∨ d = Cert.KernelIdeal.Ring4.shf 2 c ∨ d = Cert.KernelIdeal.Ring4.shf 1 c := by
  revert c; decide

/-- A device's staged block is its argument array (one block, the whole array). -/
theorem xblk_eq {F : FTy → Type} [FloatOps F] (m : (ℓ : Loc Cert.KernelIdeal.nD Cert.KernelIdeal.τ Cert.KernelIdeal.sig) → Buf (Elt F) ℓ)
    (ρ : Dev Cert.KernelIdeal.nD → PrngReg) (d : Dev Cert.KernelIdeal.nD) :
    Cert.KernelIdeal.Ring4.xblk m ρ d = m ((d.tc : Thread Cert.KernelIdeal.nD Cert.KernelIdeal.τ).loc Cert.KernelIdeal.main_arg0) := by
  unfold Cert.KernelIdeal.Ring4.xblk Cert.KernelIdeal.Ring4.s₀
  first
    | rfl
    | exact Memref.read_access_unit_zero (Elt F) Cert.KernelIdeal.main_arg0 (funext fun a => by fin_cases a <;> rfl) _ _

theorem frame_ki_of (hb : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdeal.Ring4.dats (F := Ideal) m ρ 0 c) (Cert.KernelIdeal.defs₀ (F := Ideal)) Cert.KernelIdeal.Ring4.𝒱₀ () Set.univ) :
    Cert.frame_KernelIdeal := fun m ρ _ =>
  (θ_run (Cert.KernelIdeal.defs (F := Ideal)) _ _).mono (fun _ h c => (h c).2) (Cert.KernelIdeal.Ring4.run_vals (F := Ideal) m ρ (hb m ρ))

theorem frame_ri : Cert.frame_ReferenceIdeal := fun m ρ _ =>
  (θ_run Cert.ReferenceIdeal.defs _ _).mono (fun _ h c => (h c).2) (Cert.ReferenceIdeal.Value.run (F := Ideal) m ρ)

/-- Each device ends with the maximum of the four blocks' column maxima, which is the column maximum of the whole
    array: the reference's result, the same on every device. -/
theorem algebraic_of (hb : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdeal.Ring4.dats (F := Ideal) m ρ 0 c) (Cert.KernelIdeal.defs₀ (F := Ideal)) Cert.KernelIdeal.Ring4.𝒱₀ () Set.univ) :
    Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Ring4.run_vals (F := Ideal) m ρ (hb m ρ))
    unfold Cert.KernelIdeal.Ring4.outAt Cert.KernelIdeal.Ring4.rowS Cert.KernelIdeal.Ring4.row
    exact Cert.MaxBridge.out_eq_reference _ (fun d => Cert.KernelIdeal.Ring4.xblk m ρ d)
      (fun d => (xblk_eq m ρ d).trans (hagree d)) c _ _ _ (all_four c)
  · refine (θ_run Cert.ReferenceIdeal.defs _ _).mono (fun _ h => ⟨(h 0).1.trans (Cert.ReferenceIdeal.Read.val_main_v1_eq _), (h 0).2⟩)
      (Cert.ReferenceIdeal.Value.run (F := Ideal) m' ρ')

theorem frame_k : Cert.frame_Kernel := fun m ρ _ =>
  (θ_run (Cert.Kernel.defs (F := Bits)) _ _).mono (fun _ h c => (h c).2)
    (Cert.Kernel.Ring4.run_vals (F := Bits) m ρ (Cert.Kernel.Ring4.body_obligation (F := Bits) m ρ))

theorem frame_ki : Cert.frame_KernelIdeal :=
  frame_ki_of fun m ρ c => Cert.KernelIdeal.Ring4.body_obligation (F := Ideal) m ρ c

theorem preserves : Cert.preserves_Kernel_KernelIdeal := trivial

theorem algebraic : Cert.algebraic_KernelIdeal_ReferenceIdeal :=
  algebraic_of fun m ρ c => Cert.KernelIdeal.Ring4.body_obligation (F := Ideal) m ρ c

end Cert.Proof.Claims

end
-- ==== Proof.lean ====
/-
  A maximum over the 6144 rows of an array cut across four devices, against the one-device column maximum of the whole
  array. Each device reduces its 1536 rows to a row of column maxima, tells the three others it has entered (a unit on
  each one's barrier counter), waits for its own three units, copies its row into the others' scratch, waits for the three
  rows sent to it, and takes the maximum of the four. Over the extended reals the maximum of the four blocks' maxima is
  the maximum of all rows, whatever the start value denotes: the claims are assembled in Proof/Claims.lean.
-/
import proofs.«900912_g7700000000000913_dist_max_ax0_shard0_i_m1536_n768_v7x_i4_f32_1_alg».proof.Defs
import proofs.«900912_g7700000000000913_dist_max_ax0_shard0_i_m1536_n768_v7x_i4_f32_1_alg».proof.Proof.Gen.Kernel
import proofs.«900912_g7700000000000913_dist_max_ax0_shard0_i_m1536_n768_v7x_i4_f32_1_alg».proof.Proof.Gen.Kernel.Skeleton
import proofs.«900912_g7700000000000913_dist_max_ax0_shard0_i_m1536_n768_v7x_i4_f32_1_alg».proof.Proof.Gen.Kernel.Launch
import proofs.«900912_g7700000000000913_dist_max_ax0_shard0_i_m1536_n768_v7x_i4_f32_1_alg».proof.Proof.Gen.Kernel.Points
import proofs.«900912_g7700000000000913_dist_max_ax0_shard0_i_m1536_n768_v7x_i4_f32_1_alg».proof.Proof.Gen.Kernel.Frame
import proofs.«900912_g7700000000000913_dist_max_ax0_shard0_i_m1536_n768_v7x_i4_f32_1_alg».proof.Proof.Gen.KernelIdeal
import proofs.«900912_g7700000000000913_dist_max_ax0_shard0_i_m1536_n768_v7x_i4_f32_1_alg».proof.Proof.Gen.KernelIdeal.Skeleton
import proofs.«900912_g7700000000000913_dist_max_ax0_shard0_i_m1536_n768_v7x_i4_f32_1_alg».proof.Proof.Gen.KernelIdeal.Launch
import proofs.«900912_g7700000000000913_dist_max_ax0_shard0_i_m1536_n768_v7x_i4_f32_1_alg».proof.Proof.Gen.KernelIdeal.Points
import proofs.«900912_g7700000000000913_dist_max_ax0_shard0_i_m1536_n768_v7x_i4_f32_1_alg».proof.Proof.Gen.KernelIdeal.Frame
import proofs.«900912_g7700000000000913_dist_max_ax0_shard0_i_m1536_n768_v7x_i4_f32_1_alg».proof.Proof.Gen.ReferenceIdeal
import proofs.«900912_g7700000000000913_dist_max_ax0_shard0_i_m1536_n768_v7x_i4_f32_1_alg».proof.Proof.Gen.Pre_finite_inputs_Kernel
import proofs.«900912_g7700000000000913_dist_max_ax0_shard0_i_m1536_n768_v7x_i4_f32_1_alg».proof.Proof.Gen.Pre_finite_inputs_ReferenceIdeal
import Idealize.ShloMosaic.Adequacy
import Idealize.ShloMosaic.Init
import proofs.«900912_g7700000000000913_dist_max_ax0_shard0_i_m1536_n768_v7x_i4_f32_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Claims.frame_k, Claims.frame_ki, Claims.frame_ri, Claims.preserves, Claims.algebraic⟩

end Cert.Proof

end
